-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x1024 : Shape := ⟨3, ![64, 2048, 1024]⟩
abbrev S64x2048 : Shape := ⟨2, ![64, 2048]⟩
abbrev S64x2048x1 : Shape := ⟨3, ![64, 2048, 1]⟩
abbrev S300x1024 : Shape := ⟨2, ![300, 1024]⟩
abbrev S300 : Shape := ⟨1, ![300]⟩
abbrev S2x300 : Shape := ⟨2, ![2, 300]⟩
abbrev S2 : Shape := ⟨1, ![2]⟩
abbrev S_ : Shape := ⟨0, ![]⟩

class Facts : Prop where
  bcast_S_S64x2048x1024 : S_.BroadcastsInDim S64x2048x1024 (![] : Fin 0 → Fin S64x2048x1024.rank)
  reducesTo_S64x2048x1024_S_d0_1_2 : S64x2048x1024.ReducesTo [0, 1, 2] S_
  h_S_ : 0 < S_.numel
  bcast_S_S64x2048x1 : S_.BroadcastsInDim S64x2048x1 (![] : Fin 0 → Fin S64x2048x1.rank)
  reducesTo_S64x2048x1_S_d0_1_2 : S64x2048x1.ReducesTo [0, 1, 2] S_
  bcast_S_S300x1024 : S_.BroadcastsInDim S300x1024 (![] : Fin 0 → Fin S300x1024.rank)
  reducesTo_S300x1024_S_d0_1 : S300x1024.ReducesTo [0, 1] S_
  bcast_S_S300 : S_.BroadcastsInDim S300 (![] : Fin 0 → Fin S300.rank)
  reducesTo_S300_S_d0 : S300.ReducesTo [0] S_
  bcast_S_S2x300 : S_.BroadcastsInDim S2x300 (![] : Fin 0 → Fin S2x300.rank)
  reducesTo_S2x300_S_d0_1 : S2x300.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2x300 .f32) (main_arg6 : FVec F S2 .f32) (main_v13 : IVec S_ 1) (main_v16 : IVec S300 1) : IVec S_ 1 :=
  let main_c_5 : IVec S_ 1 := constantI S_ 1 1#1
  let main_v17 : IVec S_ 1 := (fun x v => Host.reduce IntOp.andi x v reducesTo_S300_S_d0 h_S_) main_v16 main_c_5
  let main_v18 : IVec S_ 1 := andi main_v13 main_v17
  let main_v19 : FVec F S2x300 .f32 := Host.absf main_arg5
  let main_cst_6 : FVec F S_ .f32 := constant S_ .f32 0x7F800000#32
  let main_v20 : FVec F S2x300 .f32 := broadcastInDim S2x300 ![] bcast_S_S2x300 main_cst_6
  let main_v21 : IVec S2x300 1 := cmpf .olt main_v19 main_v20
  let main_c_7 : IVec S_ 1 := constantI S_ 1 1#1
  let main_v22 : IVec S_ 1 := (fun x v => Host.reduce IntOp.andi x v reducesTo_S2x300_S_d0_1 h_S_) main_v21 main_c_7
  let main_v23 : IVec S_ 1 := andi main_v18 main_v22
  let main_v24 : FVec F S2 .f32 := Host.absf main_arg6
  let main_cst_8 : FVec F S_ .f32 := constant S_ .f32 0x7F800000#32
  let main_v25 : FVec F S2 .f32 := broadcastInDim S2 ![] bcast_S_S2 main_cst_8
  let main_v26 : IVec S2 1 := cmpf .olt main_v24 main_v25
  let main_c_9 : IVec S_ 1 := constantI S_ 1 1#1
  let main_v27 : IVec S_ 1 := (fun x v => Host.reduce IntOp.andi x v reducesTo_S2_S_d0 h_S_) main_v26 main_c_9
  let main_v28 : IVec S_ 1 := andi main_v23 main_v27
  main_v28

def fn {F : FTy → Type} [FloatOps F] (main_arg0 : FVec F S64x2048x1024 .f32) (main_arg1 : IVec S64x2048 32) (main_arg2 : FVec F S64x2048x1 .f32) (main_arg3 : FVec F S300x1024 .f32) (main_arg4 : FVec F S300 .f32) (main_arg5 : FVec F S2x300 .f32) (main_arg6 : FVec F S2 .f32) : IVec S_ 1 :=
  let main_v0 : FVec F S64x2048x1024 .f32 := Host.absf main_arg0
  let main_cst : FVec F S_ .f32 := constant S_ .f32 0x7F800000#32
  let main_v1 : FVec F S64x2048x1024 .f32 := broadcastInDim S64x2048x1024 ![] bcast_S_S64x2048x1024 main_cst
  let main_v2 : IVec S64x2048x1024 1 := cmpf .olt main_v0 main_v1
  let main_c : IVec S_ 1 := constantI S_ 1 1#1
  let main_v3 : IVec S_ 1 := (fun x v => Host.reduce IntOp.andi x v reducesTo_S64x2048x1024_S_d0_1_2 h_S_) main_v2 main_c
  let main_v4 : FVec F S64x2048x1 .f32 := Host.absf main_arg2
  let main_cst_0 : FVec F S_ .f32 := constant S_ .f32 0x7F800000#32
  let main_v5 : FVec F S64x2048x1 .f32 := broadcastInDim S64x2048x1 ![] bcast_S_S64x2048x1 main_cst_0
  let main_v6 : IVec S64x2048x1 1 := cmpf .olt main_v4 main_v5
  let main_c_1 : IVec S_ 1 := constantI S_ 1 1#1
  let main_v7 : IVec S_ 1 := (fun x v => Host.reduce IntOp.andi x v reducesTo_S64x2048x1_S_d0_1_2 h_S_) main_v6 main_c_1
  let main_v8 : IVec S_ 1 := andi main_v3 main_v7
  let main_v9 : FVec F S300x1024 .f32 := Host.absf main_arg3
  let main_cst_2 : FVec F S_ .f32 := constant S_ .f32 0x7F800000#32
  let main_v10 : FVec F S300x1024 .f32 := broadcastInDim S300x1024 ![] bcast_S_S300x1024 main_cst_2
  let main_v11 : IVec S300x1024 1 := cmpf .olt main_v9 main_v10
  let main_c_3 : IVec S_ 1 := constantI S_ 1 1#1
  let main_v12 : IVec S_ 1 := (fun x v => Host.reduce IntOp.andi x v reducesTo_S300x1024_S_d0_1 h_S_) main_v11 main_c_3
  let main_v13 : IVec S_ 1 := andi main_v8 main_v12
  let main_v14 : FVec F S300 .f32 := Host.absf main_arg4
  let main_cst_4 : FVec F S_ .f32 := constant S_ .f32 0x7F800000#32
  let main_v15 : FVec F S300 .f32 := broadcastInDim S300 ![] bcast_S_S300 main_cst_4
  let main_v16 : IVec S300 1 := cmpf .olt main_v14 main_v15
  fn_part1 (F := F) main_arg5 main_arg6 main_v13 main_v16
-- ==== Kernel.lean ====
abbrev S64x2048x1024 : Shape := ⟨3, ![64, 2048, 1024]⟩
abbrev S64x2048 : Shape := ⟨2, ![64, 2048]⟩
abbrev S64x2048x1 : Shape := ⟨3, ![64, 2048, 1]⟩
abbrev S300x1024 : Shape := ⟨2, ![300, 1024]⟩
abbrev S300 : Shape := ⟨1, ![300]⟩
abbrev S2x300 : Shape := ⟨2, ![2, 300]⟩
abbrev S2 : Shape := ⟨1, ![2]⟩
abbrev S_ : Shape := ⟨0, ![]⟩
abbrev S64 : Shape := ⟨1, ![64]⟩
abbrev S2048 : Shape := ⟨1, ![2048]⟩
abbrev S1x2048 : Shape := ⟨2, ![1, 2048]⟩
abbrev S64x1 : Shape := ⟨2, ![64, 1]⟩
abbrev S64x1024 : Shape := ⟨2, ![64, 1024]⟩
abbrev S16x256x1024 : Shape := ⟨3, ![16, 256, 1024]⟩
abbrev S16x256 : Shape := ⟨2, ![16, 256]⟩
abbrev S16x1 : Shape := ⟨2, ![16, 1]⟩
abbrev S16x1024 : Shape := ⟨2, ![16, 1024]⟩
abbrev S16x256x1 : Shape := ⟨3, ![16, 256, 1]⟩
abbrev S64x2 : Shape := ⟨2, ![64, 2]⟩
abbrev S64x300 : Shape := ⟨2, ![64, 300]⟩
abbrev S1x300 : Shape := ⟨2, ![1, 300]⟩
abbrev S1x2 : Shape := ⟨2, ![1, 2]⟩

abbrev nBuf : Space → Nat
  | .hbm => 34
  | .vmem => 15
  | .smem => 0
  | _ => 0

abbrev bufTy : (tb : Table) → Fin (tcTables nBuf tb) → BufTy
  | .hbm, ⟨0, _⟩ => ⟨S64x2048x1024, .f32⟩
  | .hbm, ⟨1, _⟩ => ⟨S64x2048, .i32⟩
  | .hbm, ⟨2, _⟩ => ⟨S64x2048x1, .f32⟩
  | .hbm, ⟨3, _⟩ => ⟨S300x1024, .f32⟩
  | .hbm, ⟨4, _⟩ => ⟨S300, .f32⟩
  | .hbm, ⟨5, _⟩ => ⟨S2x300, .f32⟩
  | .hbm, ⟨6, _⟩ => ⟨S2, .f32⟩
  | .hbm, ⟨7, _⟩ => ⟨S_, .i32⟩
  | .hbm, ⟨8, _⟩ => ⟨S64x2048, .i32⟩
  | .hbm, ⟨9, _⟩ => ⟨S64x2048, .i1⟩
  | .hbm, ⟨10, _⟩ => ⟨S_, .i1⟩
  | .hbm, ⟨11, _⟩ => ⟨S64, .i1⟩
  | .hbm, ⟨12, _⟩ => ⟨S64x2048, .i32⟩
  | .hbm, ⟨13, _⟩ => ⟨S_, .i1⟩
  | .hbm, ⟨14, _⟩ => ⟨S_, .i32⟩
  | .hbm, ⟨15, _⟩ => ⟨S64, .i1⟩
  | .hbm, ⟨16, _⟩ => ⟨S64, .i32⟩
  | .hbm, ⟨17, _⟩ => ⟨S_, .i32⟩
  | .hbm, ⟨18, _⟩ => ⟨S_, .i32⟩
  | .hbm, ⟨19, _⟩ => ⟨S64, .i32⟩
  | .hbm, ⟨20, _⟩ => ⟨S64, .i32⟩
  | .hbm, ⟨21, _⟩ => ⟨S64, .f32⟩
  | .hbm, ⟨22, _⟩ => ⟨S2048, .i32⟩
  | .hbm, ⟨23, _⟩ => ⟨S1x2048, .i32⟩
  | .hbm, ⟨24, _⟩ => ⟨S64x1, .i32⟩
  | .hbm, ⟨25, _⟩ => ⟨S64x2048, .i32⟩
  | .hbm, ⟨26, _⟩ => ⟨S64x2048, .i32⟩
  | .hbm, ⟨27, _⟩ => ⟨S64x2048, .i1⟩
  | .hbm, ⟨28, _⟩ => ⟨S64x2048, .f32⟩
  | .hbm, ⟨29, _⟩ => ⟨S64x2048, .f32⟩
  | .hbm, ⟨30, _⟩ => ⟨S64x2048, .f32⟩
  | .hbm, ⟨31, _⟩ => ⟨S64x1, .f32⟩
  | .hbm, ⟨32, _⟩ => ⟨S64x1024, .f32⟩
  | .hbm, ⟨33, _⟩ => ⟨S64x2, .f32⟩
  | .local _ .vmem, ⟨0, _⟩ => ⟨S16x256x1024, .f32⟩
  | .local _ .vmem, ⟨1, _⟩ => ⟨S16x256x1024, .f32⟩
  | .local _ .vmem, ⟨2, _⟩ => ⟨S16x256, .f32⟩
  | .local _ .vmem, ⟨3, _⟩ => ⟨S16x256, .f32⟩
  | .local _ .vmem, ⟨4, _⟩ => ⟨S16x1, .f32⟩
  | .local _ .vmem, ⟨5, _⟩ => ⟨S16x1, .f32⟩
  | .local _ .vmem, ⟨6, _⟩ => ⟨S16x1024, .f32⟩
  | .local _ .vmem, ⟨7, _⟩ => ⟨S16x1024, .f32⟩
  | .local _ .vmem, ⟨8, _⟩ => ⟨S16x1024, .f32⟩
  | .local _ .vmem, ⟨9, _⟩ => ⟨S64x1024, .f32⟩
  | .local _ .vmem, ⟨10, _⟩ => ⟨S300x1024, .f32⟩
  | .local _ .vmem, ⟨11, _⟩ => ⟨S300, .f32⟩
  | .local _ .vmem, ⟨12, _⟩ => ⟨S2x300, .f32⟩
  | .local _ .vmem, ⟨13, _⟩ => ⟨S2, .f32⟩
  | .local _ .vmem, ⟨14, _⟩ => ⟨S64x2, .f32⟩
  | _, _ => ⟨S64x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_call0_v0 : Ref sig .tc := ⟨.hbm, 12, rfl⟩
abbrev main_call0_c : Ref sig .tc := ⟨.hbm, 13, rfl⟩
abbrev main_call0_c_0 : Ref sig .tc := ⟨.hbm, 14, rfl⟩
abbrev main_call0_v1_0 : Ref sig .tc := ⟨.hbm, 15, rfl⟩
abbrev main_v3 : Ref sig .tc := ⟨.hbm, 16, rfl⟩
abbrev main_c_1 : Ref sig .tc := ⟨.hbm, 17, rfl⟩
abbrev main_call1_v0 : Ref sig .tc := ⟨.hbm, 18, rfl⟩
abbrev main_call1_v1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem5_0 : DmaSem sig := 13

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v15 : BitVec 1 := Scalar.cmpi .eq arg1 c7_i32
  let v16 : BitVec 32 := Scalar.extui v15
  let c0_i32_9 : BitVec 32 := 0#32
  let v17 : BitVec 1 := Scalar.cmpi .ne v16 c0_i32_9
  v17

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S64x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S300x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S300 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2x300 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

class Facts₀ : Prop where
  bcast_S_S64x2048 : S_.BroadcastsInDim S64x2048 (![] : Fin 0 → Fin S64x2048.rank)
  reducesTo_S64x2048_S64_d1 : S64x2048.ReducesTo [1] S64
  h_S_ : 0 < S_.numel
  bcast_S_S64 : S_.BroadcastsInDim S64 (![] : Fin 0 → Fin S64.rank)
  bcast_S2048_S1x2048_1 : S2048.BroadcastsInDim S1x2048 (![1] : Fin 1 → Fin S1x2048.rank)
  bcast_S64_S64x1_0 : S64.BroadcastsInDim S64x1 (![0] : Fin 1 → Fin S64x1.rank)
  bcast_S1x2048_S64x2048_0_1 : S1x2048.BroadcastsInDim S64x2048 (![0, 1] : Fin 2 → Fin S64x2048.rank)
  bcast_S64x1_S64x2048_0_1 : S64x1.BroadcastsInDim S64x2048 (![0, 1] : Fin 2 → Fin S64x2048.rank)
  shapeCasts_S64x2048x1_S64x2048 : S64x2048x1.ShapeCasts S64x2048
  shapeCasts_S64_S64x1 : S64.ShapeCasts S64x1
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S16x256x1024_S16x256x1024_0_0_0 : ∀ a, (![0, 0, 0] : Fin 3 → Nat) a + S16x256x1024.size a ≤ S16x256x1024.size a
  h_S16x256x1024 : 0 < S16x256x1024.numel
  inb_S16x256_S16x256_0_0 : ∀ a, (![0, 0] : Fin 2 → Nat) a + S16x256.size a ≤ S16x256.size a
  h_S16x256 : 0 < S16x256.numel
  shapeCasts_S16x256_S16x256 : S16x256.ShapeCasts S16x256
  shapeCasts_S16x256_S16x256x1 : S16x256.ShapeCasts S16x256x1
  broadcasts_S16x256x1_S16x256x1024 : S16x256x1.Broadcasts S16x256x1024
  reduces_S16x256x1024_S16x1024 : S16x256x1024.Reduces [1] S16x1024
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x1024 : S16x1.Broadcasts S16x1024
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  bitsLt_bf16_f32 : FTy.bits .bf16 < FTy.bits .f32
  inb_S300x1024_S300x1024_0_0 : ∀ a, (![0, 0] : Fin 2 → Nat) a + S300x1024.size a ≤ S300x1024.size a
  h_S300x1024 : 0 < S300x1024.numel
  inb_S300_S300_0 : ∀ a, (![0] : Fin 1 → Nat) a + S300.size a ≤ S300.size a
  h_S300 : 0 < S300.numel
  shapeCasts_S300_S1x300 : S300.ShapeCasts S1x300
  broadcasts_S1x300_S64x300 : S1x300.Broadcasts S64x300
  inb_S2x300_S2x300_0_0 : ∀ a, (![0, 0] : Fin 2 → Nat) a + S2x300.size a ≤ S2x300.size a
  h_S2x300 : 0 < S2x300.numel
  inb_S2_S2_0 : ∀ a, (![0] : Fin 1 → Nat) a + S2.size a ≤ S2.size a
  h_S2 : 0 < S2.numel
  shapeCasts_S2_S1x2 : S2.ShapeCasts S1x2
  broadcasts_S1x2_S64x2 : S1x2.Broadcasts S64x2
  inb_S64x2_S64x2_0_0 : ∀ a, (![0, 0] : Fin 2 → Nat) a + S64x2.size a ≤ S64x2.size a
  h_S64x2 : 0 < S64x2.numel
  dot_S64x1024_S300x1024_S64x300_1_1_0_0_n_n_wf : DotDims.WF S64x1024 S300x1024 S64x300 [1] [1] [0] [0] [] []
  dot_S64x300_S2x300_S64x2_1_1_0_0_n_n_wf : DotDims.WF S64x300 S2x300 S64x2 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x1024.size a ≤ S64x2048x1024.size a
  hwx0_0 : ∀ i : grid0.Coords, EltTy.bits .f32 = 32 ∨ (Rect.block (s := S64x2048x1024) S16x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S64x2048.size a
  hwx0_1 : ∀ i : grid0.Coords, EltTy.bits .f32 = 32 ∨ (Rect.block (s := S64x2048) S16x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x1.size a ≤ S64x1.size a
  hwx0_2 : ∀ i : grid0.Coords, EltTy.bits .f32 = 32 ∨ (Rect.block (s := S64x1) S16x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S64x1024.size a
  hwx0_3 : ∀ i : grid0.Coords, EltTy.bits .f32 = 32 ∨ (Rect.block (s := S64x1024) S16x1024.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x1024.size a ≤ S64x1024.size a
  hwx1_0 : ∀ i : grid1.Coords, EltTy.bits .f32 = 32 ∨ (Rect.block (s := S64x1024) S64x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S300x1024.size a ≤ S300x1024.size a
  hwx1_1 : ∀ i : grid1.Coords, EltTy.bits .f32 = 32 ∨ (Rect.block (s := S300x1024) S300x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S300.size a ≤ S300.size a
  hwx1_2 : ∀ i : grid1.Coords, EltTy.bits .f32 = 32 ∨ (Rect.block (s := S300) S300.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S2x300.size a ≤ S2x300.size a
  hwx1_3 : ∀ i : grid1.Coords, EltTy.bits .f32 = 32 ∨ (Rect.block (s := S2x300) S2x300.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2.size a ≤ S2.size a
  hwx1_4 : ∀ i : grid1.Coords, EltTy.bits .f32 = 32 ∨ (Rect.block (s := S2) S2.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x2.size a ≤ S64x2.size a
  hwx1_5 : ∀ i : grid1.Coords, EltTy.bits .f32 = 32 ∨ (Rect.block (s := S64x2) S64x2.size (cc1_transform_5 i) (hinb1_5 i)).WholeWords (EltTy.packing .f32)

variable [Facts₀]

def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def dot_S64x1024_S300x1024_S64x300_1_1_0_0_n_n : DotDims S64x1024 S300x1024 S64x300 where
  lhsContracting := [1]
  rhsContracting := [1]
  lhsNonContracting := [0]
  rhsNonContracting := [0]
  lhsBatch := []
  rhsBatch := []
  wf := dot_S64x1024_S300x1024_S64x300_1_1_0_0_n_n_wf
def dot_S64x300_S2x300_S64x2_1_1_0_0_n_n : DotDims S64x300 S2x300 S64x2 where
  lhsContracting := [1]
  rhsContracting := [1]
  lhsNonContracting := [0]
  rhsNonContracting := [0]
  lhsBatch := []
  rhsBatch := []
  wf := dot_S64x300_S2x300_S64x2_1_1_0_0_n_n_wf

abbrev win0_0 : Pipeline.Window sig grid0 :=
  Pipeline.Window.ofSpec (Memref.whole main_arg0) S16x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S16x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S16x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v16) S64x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S300x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S300.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S2x300.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S2.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S64x2.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S64x2048x1024 : Shape := ⟨3, ![64, 2048, 1024]⟩
abbrev S64x2048 : Shape := ⟨2, ![64, 2048]⟩
abbrev S64x2048x1 : Shape := ⟨3, ![64, 2048, 1]⟩
abbrev S300x1024 : Shape := ⟨2, ![300, 1024]⟩
abbrev S300 : Shape := ⟨1, ![300]⟩
abbrev S2x300 : Shape := ⟨2, ![2, 300]⟩
abbrev S2 : Shape := ⟨1, ![2]⟩
abbrev S_ : Shape := ⟨0, ![]⟩
abbrev S64 : Shape := ⟨1, ![64]⟩
abbrev S2048 : Shape := ⟨1, ![2048]⟩
abbrev S1x2048 : Shape := ⟨2, ![1, 2048]⟩
abbrev S64x1 : Shape := ⟨2, ![64, 1]⟩
abbrev S64x1024 : Shape := ⟨2, ![64, 1024]⟩
abbrev S1024x300 : Shape := ⟨2, ![1024, 300]⟩
abbrev S64x300 : Shape := ⟨2, ![64, 300]⟩
abbrev S1x300 : Shape := ⟨2, ![1, 300]⟩
abbrev S300x2 : Shape := ⟨2, ![300, 2]⟩
abbrev S64x2 : Shape := ⟨2, ![64, 2]⟩
abbrev S1x2 : Shape := ⟨2, ![1, 2]⟩

abbrev nBuf : Space → Nat
  | .hbm => 50
  | .vmem => 0
  | .smem => 0
  | _ => 0

abbrev bufTy : (tb : Table) → Fin (tcTables nBuf tb) → BufTy
  | .hbm, ⟨0, _⟩ => ⟨S64x2048x1024, .f32⟩
  | .hbm, ⟨1, _⟩ => ⟨S64x2048, .i32⟩
  | .hbm, ⟨2, _⟩ => ⟨S64x2048x1, .f32⟩
  | .hbm, ⟨3, _⟩ => ⟨S300x1024, .f32⟩
  | .hbm, ⟨4, _⟩ => ⟨S300, .f32⟩
  | .hbm, ⟨5, _⟩ => ⟨S2x300, .f32⟩
  | .hbm, ⟨6, _⟩ => ⟨S2, .f32⟩
  | .hbm, ⟨7, _⟩ => ⟨S_, .i32⟩
  | .hbm, ⟨8, _⟩ => ⟨S64x2048, .i32⟩
  | .hbm, ⟨9, _⟩ => ⟨S64x2048, .i1⟩
  | .hbm, ⟨10, _⟩ => ⟨S_, .i1⟩
  | .hbm, ⟨11, _⟩ => ⟨S64, .i1⟩
  | .hbm, ⟨12, _⟩ => ⟨S64x2048, .i32⟩
  | .hbm, ⟨13, _⟩ => ⟨S_, .i1⟩
  | .hbm, ⟨14, _⟩ => ⟨S_, .i32⟩
  | .hbm, ⟨15, _⟩ => ⟨S64, .i1⟩
  | .hbm, ⟨16, _⟩ => ⟨S64, .i32⟩
  | .hbm, ⟨17, _⟩ => ⟨S_, .i32⟩
  | .hbm, ⟨18, _⟩ => ⟨S_, .i32⟩
  | .hbm, ⟨19, _⟩ => ⟨S64, .i32⟩
  | .hbm, ⟨20, _⟩ => ⟨S64, .i32⟩
  | .hbm, ⟨21, _⟩ => ⟨S2048, .i32⟩
  | .hbm, ⟨22, _⟩ => ⟨S1x2048, .i32⟩
  | .hbm, ⟨23, _⟩ => ⟨S64x1, .i32⟩
  | .hbm, ⟨24, _⟩ => ⟨S64x2048, .i32⟩
  | .hbm, ⟨25, _⟩ => ⟨S64x2048, .i32⟩
  | .hbm, ⟨26, _⟩ => ⟨S64x2048, .i1⟩
  | .hbm, ⟨27, _⟩ => ⟨S64x2048x1024, .f32⟩
  | .hbm, ⟨28, _⟩ => ⟨S64x2048x1024, .f32⟩
  | .hbm, ⟨29, _⟩ => ⟨S64x2048x1, .i1⟩
  | .hbm, ⟨30, _⟩ => ⟨S64x2048x1, .f32⟩
  | .hbm, ⟨31, _⟩ => ⟨S64x2048x1024, .f32⟩
  | .hbm, ⟨32, _⟩ => ⟨S64x2048x1024, .f32⟩
  | .hbm, ⟨33, _⟩ => ⟨S_, .f32⟩
  | .hbm, ⟨34, _⟩ => ⟨S64x1024, .f32⟩
  | .hbm, ⟨35, _⟩ => ⟨S64x1, .i32⟩
  | .hbm, ⟨36, _⟩ => ⟨S64x1, .f32⟩
  | .hbm, ⟨37, _⟩ => ⟨S64x1024, .f32⟩
  | .hbm, ⟨38, _⟩ => ⟨S64x1024, .f32⟩
  | .hbm, ⟨39, _⟩ => ⟨S1024x300, .f32⟩
  | .hbm, ⟨40, _⟩ => ⟨S64x300, .f32⟩
  | .hbm, ⟨41, _⟩ => ⟨S1x300, .f32⟩
  | .hbm, ⟨42, _⟩ => ⟨S64x300, .f32⟩
  | .hbm, ⟨43, _⟩ => ⟨S64x300, .f32⟩
  | .hbm, ⟨44, _⟩ => ⟨S64x300, .f32⟩
  | .hbm, ⟨45, _⟩ => ⟨S300x2, .f32⟩
  | .hbm, ⟨46, _⟩ => ⟨S64x2, .f32⟩
  | .hbm, ⟨47, _⟩ => ⟨S1x2, .f32⟩
  | .hbm, ⟨48, _⟩ => ⟨S64x2, .f32⟩
  | .hbm, ⟨49, _⟩ => ⟨S64x2, .f32⟩
  | _, _ => ⟨S64x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_call0_v0 : Ref sig .tc := ⟨.hbm, 12, rfl⟩
abbrev main_call0_c : Ref sig .tc := ⟨.hbm, 13, rfl⟩
abbrev main_call0_c_0 : Ref sig .tc := ⟨.hbm, 14, rfl⟩
abbrev main_call0_v1_0 : Ref sig .tc := ⟨.hbm, 15, rfl⟩
abbrev main_v3 : Ref sig .tc := ⟨.hbm, 16, rfl⟩
abbrev main_c_1 : Ref sig .tc := ⟨.hbm, 17, rfl⟩
abbrev main_call1_v0 : Ref sig .tc := ⟨.hbm, 18, rfl⟩
abbrev main_call1_v1 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩

abbrev nD : Nat := 1
abbrev τ : Topo := Topo.v7x

variable {F : FTy → Type} [FloatOps F]

class Facts₀ : Prop where
  bcast_S_S64x2048 : S_.BroadcastsInDim S64x2048 (![] : Fin 0 → Fin S64x2048.rank)
  reducesTo_S64x2048_S64_d1 : S64x2048.ReducesTo [1] S64
  h_S_ : 0 < S_.numel
  bcast_S_S64 : S_.BroadcastsInDim S64 (![] : Fin 0 → Fin S64.rank)
  bcast_S2048_S1x2048_1 : S2048.BroadcastsInDim S1x2048 (![1] : Fin 1 → Fin S1x2048.rank)
  bcast_S64_S64x1_0 : S64.BroadcastsInDim S64x1 (![0] : Fin 1 → Fin S64x1.rank)
  bcast_S1x2048_S64x2048_0_1 : S1x2048.BroadcastsInDim S64x2048 (![0, 1] : Fin 2 → Fin S64x2048.rank)
  bcast_S64x1_S64x2048_0_1 : S64x1.BroadcastsInDim S64x2048 (![0, 1] : Fin 2 → Fin S64x2048.rank)
  bcast_S64x2048x1_S64x2048x1024_0_1_2 : S64x2048x1.BroadcastsInDim S64x2048x1024 (![0, 1, 2] : Fin 3 → Fin S64x2048x1024.rank)
  bcast_S64x2048_S64x2048x1_0_1 : S64x2048.BroadcastsInDim S64x2048x1 (![0, 1] : Fin 2 → Fin S64x2048x1.rank)
  reducesTo_S64x2048x1024_S64x1024_d1 : S64x2048x1024.ReducesTo [1] S64x1024
  bcast_S64x1_S64x1024_0_1 : S64x1.BroadcastsInDim S64x1024 (![0, 1] : Fin 2 → Fin S64x1024.rank)
  transposes_S300x1024_S1024x300_1_0 : S300x1024.Transposes [1, 0] S1024x300
  bcast_S300_S1x300_1 : S300.BroadcastsInDim S1x300 (![1] : Fin 1 → Fin S1x300.rank)
  bcast_S1x300_S64x300_0_1 : S1x300.BroadcastsInDim S64x300 (![0, 1] : Fin 2 → Fin S64x300.rank)
  transposes_S2x300_S300x2_1_0 : S2x300.Transposes [1, 0] S300x2
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  dot_S64x1024_S1024x300_S64x300_1_0_0_1_n_n_wf : DotDims.WF S64x1024 S1024x300 S64x300 [1] [0] [0] [1] [] []
  dot_S64x300_S300x2_S64x2_1_0_0_1_n_n_wf : DotDims.WF S64x300 S300x2 S64x2 [1] [0] [0] [1] [] []

variable [Facts₀]

def reducer_argmax_i1_i32 : BitVec 1 × BitVec 32 → BitVec 1 × BitVec 32 → BitVec 1 × BitVec 32 :=
  fun a b =>
    let v2 := IntOp.cmpi .ugt a.1 b.1
    let v3 := IntOp.cmpi .ne a.1 a.1
    let v4 := IntOp.ori v2 v3
    let v5 := IntOp.cmpi .eq a.1 b.1
    let v6 := IntOp.cmpi .slt a.2 b.2
    let v7 := IntOp.andi v5 v6
    let v8 := IntOp.ori v4 v7
    let v9 := Scalar.select v4 a.1 b.1
    let v10 := Scalar.select v8 a.2 b.2
    (v9, v10)
def dot_S64x1024_S1024x300_S64x300_1_0_0_1_n_n : DotDims S64x1024 S1024x300 S64x300 where
  lhsContracting := [1]
  rhsContracting := [0]
  lhsNonContracting := [0]
  rhsNonContracting := [1]
  lhsBatch := []
  rhsBatch := []
  wf := dot_S64x1024_S1024x300_S64x300_1_0_0_1_n_n_wf
def dot_S64x300_S300x2_S64x2_1_0_0_1_n_n : DotDims S64x300 S300x2 S64x2 where
  lhsContracting := [1]
  rhsContracting := [0]
  lhsNonContracting := [0]
  rhsNonContracting := [1]
  lhsBatch := []
  rhsBatch := []
  wf := dot_S64x300_S300x2_S64x2_1_0_0_1_n_n_wf

class Facts : Prop extends Facts₀ where

variable [Facts]
-- ==== Proof.K.Base0.lean ====
/-
  The reduction call (the first of the two kernel regions), what its three control cases share.

  The grid is 4 × 8: coordinate 0 picks a tile of 16 batch rows, coordinate 1 a tile of 256 sequence positions, and
  the second coordinate runs fastest, so point `t` has sequence tile `t % 8`. The body zeroes a 16 × 1024 accumulator
  where the sequence tile is 0, adds the tile's masked sum into it at every point, and where the sequence tile is 7
  divides the accumulator by the rows' end index and stores the quotient to the output block. So the output block is
  stored at one point in eight and is idle (neither stored nor written back) at the other seven, and the end-index
  block is fetched once per batch tile.

  Stated here, at any float instance and for any contents `V` of the buffers when the region is entered: each window's
  block at a point; that each of the three input windows' staging buffers holds its block wherever the body is
  called; the two branch conditions in closed form over the grid; where the output window is idle, live, and not
  written back; the staging and accumulator memrefs; and the class invariant with the accumulator exposed.
-/
import proofs.«169118_j75849122448044_1_alg».proof.Proof.Gen.Kernel.Launch
import proofs.«169118_j75849122448044_1_alg».proof.Proof.Gen.Kernel.Skeleton
import proofs.«169118_j75849122448044_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's 16 × 256 × 1024 block wherever the body is called. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The mask's staging buffer holds the point's 16 × 256 block wherever the body is called. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The end-index column's staging buffer holds the batch tile's 16 × 1 block wherever the body is called: it is
    fetched where the sequence tile is 0 and its block index does not move over the seven points after. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's two branch conditions -/

/-- "The sequence tile is 0", as the body computes it from the second grid coordinate. -/
abbrev cond0_0 (i : grid0.Coords) : Prop := (Scalar.cmpi .ne (Scalar.extui (Scalar.cmpi .eq (BitVec.ofNat 32 (i 1).val) 0#32)) 0#32) = 1#1
/-- It holds at the points whose index is a multiple of 8. -/
theorem hcond0_0 : ∀ t : Fin cfg0.N, cond0_0 (grid0.coords t) ↔ t.val % 8 = 0 :=
  (by decide +kernel : ∀ t : Fin grid0.N, cond0_0 (grid0.coords t) ↔ t.val % 8 = 0)

/-- "The sequence tile is 7", as the body computes it. -/
abbrev cond0_1 (i : grid0.Coords) : Prop := k0_cond2 i = 1#1
/-- It holds at the points whose index is 7 modulo 8. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the sequence tile is not 7 the output window is idle: the body stores nothing into it there, -/
theorem idleAt0_3 : ∀ t : Fin cfg0.N, ¬cond0_1 (grid0.coords t) → cfg0.idle 3 (grid0.coords t) = true := by decide +kernel
/-- and the pipeline does not write its block back there; -/
theorem noFlush0_3 : ∀ t : Fin cfg0.N, ¬cond0_1 (grid0.coords t) → (cfg0.win 3).flush t = false := by decide +kernel
/-- where the sequence tile is 7 it is live. -/
theorem liveAt0_3 : ∀ t : Fin cfg0.N, cond0_1 (grid0.coords t) → cfg0.idle 3 (grid0.coords t) = false := by decide +kernel

/-! ## The memrefs the body is called with -/

abbrev ms0_0 (t : Fin cfg0.N) : Memref sig .tc .vmem S16x256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x1024 .f32 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows. -/
abbrev scM0 : Memref sig .tc .vmem S16x1024 .f32 := Memref.whole cc0_scratch0
/-- The accumulator as a view: what it holds is stated through it. -/
abbrev VS0 : View sig .tc .vmem S16x1024 .f32 := scM0.view
/-- One staging buffer of the output window, through which its contents are stated. -/
abbrev VO0 : View sig .tc .vmem S16x1024 .f32 := (Memref.whole cc0_stg3_0 : Memref sig .tc .vmem S16x1024 .f32).view

/-- The class invariant with the accumulator exposed: the accumulator owned at some contents, the other scoped
    buffers (the second call's staging buffers) at some contents, and the generator register at some state. -/
theorem PhiA0_eq (c : Dev nD) :
    (Pipeline.ΦA spec0 c : sProp 𝕄)
      = iprop(iprop((∃ d, owns (c : Thread nD τ) scM0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f)) ∗ (∃ r, prngReg c r)) := by
  unfold Pipeline.ΦA; rw [scopedRest0_eq]; simp only [scM0, owns_whole]; try rfl

end Cert.Kernel.Hand

end
-- ==== Proof.K.Run0.lean ====
/-
  The reduction call's body run whole, once per control case, on any whole memrefs.

  Case A, sequence tile 0: the accumulator, found at anything, is zeroed and then the tile's masked sum is added.
  Case B, sequence tiles 1 to 6: the accumulator, found at what the point before left, gets the tile's masked sum added.
  Case C, sequence tile 7: as case B, and then the accumulator is divided by the end-index column and stored to the
  output block, found at anything.
  Each run names the pieces its stores leave in the accumulator (and, in case C, in the output block); the activations'
  and the mask's blocks, and in case C the end-index block, are handed back as found. The end-index and output blocks
  are not touched in cases A and B and do not appear there.
-/
import proofs.«169118_j75849122448044_1_alg».proof.Proof.K.Base0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- Sequence tile 0: zero the accumulator, add the tile's masked sum. -/
noncomputable def kernelRun0_A (c : Dev nD) (i : grid0.Coords)
    (arg2 : Memref sig .tc .vmem S16x256x1024 .f32) (harg2 : arg2.IsWhole) (arg3 : Memref sig .tc .vmem S16x256 .f32) (harg3 : arg3.IsWhole)
    (arg4 : Memref sig .tc .vmem S16x1 .f32) (harg4 : arg4.IsWhole) (arg5 : Memref sig .tc .vmem S16x1024 .f32) (harg5 : arg5.IsWhole)
    (arg6 : Memref sig .tc .vmem S16x1024 .f32) (harg6 : arg6.IsWhole) (hc0 : cond0_0 i) (hc1 : ¬cond0_1 i)
    (x0 : Vec F S16x256x1024 .f32) (x1 : Vec F S16x256 .f32) :
    { LS : List (View.Piece (Elt F) S16x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg6 fullShare d)
            ∗ (iprop(owns (c : Thread nD τ) arg2 fullShare x0 ∗ owns (c : Thread nD τ) arg3 fullShare x1 ∗ (∃ f, arg6.view.loc (c : Thread nD τ) ↦[arg6.view.set]{fullShare} arg6.view.writes (Elt F) f LS)) -∗ K ⟨⟩))
          ⊢ wp frame (wpE (defs₀ (F := F)) Variants.none c none) E (cc0__reduce_kernel i arg2 harg2 arg3 harg3 arg4 harg4 arg5 harg5 arg6 harg6) K } := by
  refine ⟨?_, fun E K => ?run⟩
  case run =>
    simp only [cc0__reduce_kernel_eq_skeleton]; unfold cc0__reduce_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 1000000 in
/-- Sequence tiles 1 to 6: add the tile's masked sum onto what the accumulator holds. -/
noncomputable def kernelRun0_B (c : Dev nD) (i : grid0.Coords)
    (arg2 : Memref sig .tc .vmem S16x256x1024 .f32) (harg2 : arg2.IsWhole) (arg3 : Memref sig .tc .vmem S16x256 .f32) (harg3 : arg3.IsWhole)
    (arg4 : Memref sig .tc .vmem S16x1 .f32) (harg4 : arg4.IsWhole) (arg5 : Memref sig .tc .vmem S16x1024 .f32) (harg5 : arg5.IsWhole)
    (arg6 : Memref sig .tc .vmem S16x1024 .f32) (harg6 : arg6.IsWhole) (hc0 : ¬cond0_0 i) (hc1 : ¬cond0_1 i)
    (x0 : Vec F S16x256x1024 .f32) (x1 : Vec F S16x256 .f32) (xs : Vec F S16x1024 .f32) :
    { LS : List (View.Piece (Elt F) S16x1024 .f32) //
      ∀ (E : Set ℕ) (K : PUnit → sProp 𝕄),
        iprop(owns (c : Thread nD τ) arg2 fullShare x0 ∗ owns (c : Thread nD τ) arg3 fullShare x1 ∗ owns (c : Thread nD τ) arg6 fullShare xs
            ∗ (iprop(owns (c : Thread nD τ) arg2 fullShare x0 ∗ owns (c : Thread nD τ) arg3 fullShare x1 ∗ (∃ f, arg6.view.loc (c : Thread nD τ) ↦[arg6.view.set]{fullShare} arg6.view.writes (Elt F) f LS)) -∗ K ⟨⟩))
          ⊢ wp frame (wpE (defs₀ (F := F)) Variants.none c none) E (cc0__reduce_kernel i arg2 harg2 arg3 harg3 arg4 harg4 arg5 harg5 arg6 harg6) K } := by
  refine ⟨?_, fun E K => ?run⟩
  case run =>
    simp only [cc0__reduce_kernel_eq_skeleton]; unfold cc0__reduce_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 1000000 in
/-- Sequence tile 7: add the tile's masked sum, then store the accumulator over the end index to the output block. -/
noncomputable def kernelRun0_C (c : Dev nD) (i : grid0.Coords)
    (arg2 : Memref sig .tc .vmem S16x256x1024 .f32) (harg2 : arg2.IsWhole) (arg3 : Memref sig .tc .vmem S16x256 .f32) (harg3 : arg3.IsWhole)
    (arg4 : Memref sig .tc .vmem S16x1 .f32) (harg4 : arg4.IsWhole) (arg5 : Memref sig .tc .vmem S16x1024 .f32) (harg5 : arg5.IsWhole)
    (arg6 : Memref sig .tc .vmem S16x1024 .f32) (harg6 : arg6.IsWhole) (hc0 : ¬cond0_0 i) (hc1 : cond0_1 i)
    (x0 : Vec F S16x256x1024 .f32) (x1 : Vec F S16x256 .f32) (x2 : Vec F S16x1 .f32) (xs : Vec F S16x1024 .f32) :
    Σ' (L3 : List (View.Piece (Elt F) S16x1024 .f32)), { LS : List (View.Piece (Elt F) S16x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc0__reduce_kernel i arg2 harg2 arg3 harg3 arg4 harg4 arg5 harg5 arg6 harg6) K } := by
  refine ⟨?_, ?_, fun E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.Kernel.Hand

end
-- ==== Proof.K.Frame0.lean ====
/-
  The reduction call's proof data and body obligation, at any float instance and for any contents `V` of the buffers
  when the region is entered.

  What the accumulator holds after point `n` is defined by recursion on `n` (`outsAt0`'s second component): where the
  sequence tile `n % 8` is 0, what case A leaves from the point's activation and mask blocks alone; elsewhere what case
  B or C leaves from those blocks and what the point before left. Its first component is what the output block's
  staging buffer holds: the stored quotient where the sequence tile is 7, a placeholder nobody reads at the other
  points, where the window is idle. The region invariant tracks the accumulator at that value from point to point
  (before the first point it is the class's own, the accumulator at anything), and gives the class invariant back
  after the last point.
-/
import proofs.«169118_j75849122448044_1_alg».proof.Proof.K.Run0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The other scoped buffers, riding along -/

/-- The second call's six staging buffers, each whole at some contents: scoped buffers this region never touches. -/
def scRest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f))

/-- The class invariant: the accumulator at some contents, those six, the generator register at some state. -/
theorem PhiA0_split (c : Dev nD) :
    (Pipeline.ΦA spec0 c : sProp 𝕄) = iprop(iprop((∃ d, owns (c : Thread nD τ) scM0 fullShare d) ∗ scRest0 c) ∗ (∃ r, prngReg c r)) := by
  rw [PhiA0_eq]; rfl

/-! ## The cases decided by the point's index -/

theorem c0_of (t : Fin cfg0.N) (h : t.val % 8 = 0) : cond0_0 (grid0.coords t) := (hcond0_0 t).mpr h
theorem nc0_of (t : Fin cfg0.N) (h : ¬t.val % 8 = 0) : ¬cond0_0 (grid0.coords t) := fun hc => h ((hcond0_0 t).mp hc)
theorem c1_of (t : Fin cfg0.N) (h : t.val % 8 = 7) : cond0_1 (grid0.coords t) := (hcond0_1 t).mpr h
theorem nc1_of (t : Fin cfg0.N) (h : ¬t.val % 8 = 7) : ¬cond0_1 (grid0.coords t) := fun hc => h ((hcond0_1 t).mp hc)

/-! ## What each case leaves -/

/-- The output block's staging buffer where the window is idle: a placeholder, neither written back nor read. -/
def outIdle0 : Vec F S16x1024 .f32 := VO0.read (Elt F) VO0.junk

/-- Case A's one covering store tiles the accumulator. -/
theorem scover0_A (c : Dev nD) (t : Fin cfg0.N) (hc0 : cond0_0 (grid0.coords t)) (hc1 : ¬cond0_1 (grid0.coords t))
    (x0 : Vec F S16x256x1024 .f32) (x1 : Vec F S16x256 .f32) (y : S16x1024.Idx) :
    ∃ pc ∈ (kernelRun0_A (F := F) c (grid0.coords t) (ms0_0 t) (hs0_0 t) (ms0_1 t) (hs0_1 t) (ms0_2 t) (hs0_2 t) (ms0_3 t) (hs0_3 t) scM0 (Memref.isWhole_whole _) hc0 hc1 x0 x1).1, y ∈ pc.1.set :=
  View.cover_of_tiledL (kernelRun0_A (F := F) c (grid0.coords t) (ms0_0 t) (hs0_0 t) (ms0_1 t) (hs0_1 t) (ms0_2 t) (hs0_2 t) (ms0_3 t) (hs0_3 t) scM0 (Memref.isWhole_whole _) hc0 hc1 x0 x1).1 S16x1024.size (by sl_kernel_rfl) y

/-- What case A leaves in the accumulator. -/
def sout0_A (c : Dev nD) (t : Fin cfg0.N) (hc0 : cond0_0 (grid0.coords t)) (hc1 : ¬cond0_1 (grid0.coords t))
    (x0 : Vec F S16x256x1024 .f32) (x1 : Vec F S16x256 .f32) : Vec F S16x1024 .f32 :=
  VS0.read (Elt F) (VS0.writes (Elt F) VS0.junk (kernelRun0_A (F := F) c (grid0.coords t) (ms0_0 t) (hs0_0 t) (ms0_1 t) (hs0_1 t) (ms0_2 t) (hs0_2 t) (ms0_3 t) (hs0_3 t) scM0 (Memref.isWhole_whole _) hc0 hc1 x0 x1).1)

theorem scover0_B (c : Dev nD) (t : Fin cfg0.N) (hc0 : ¬cond0_0 (grid0.coords t)) (hc1 : ¬cond0_1 (grid0.coords t))
    (x0 : Vec F S16x256x1024 .f32) (x1 : Vec F S16x256 .f32) (xs : Vec F S16x1024 .f32) (y : S16x1024.Idx) :
    ∃ pc ∈ (kernelRun0_B (F := F) c (grid0.coords t) (ms0_0 t) (hs0_0 t) (ms0_1 t) (hs0_1 t) (ms0_2 t) (hs0_2 t) (ms0_3 t) (hs0_3 t) scM0 (Memref.isWhole_whole _) hc0 hc1 x0 x1 xs).1, y ∈ pc.1.set :=
  View.cover_of_tiledL (kernelRun0_B (F := F) c (grid0.coords t) (ms0_0 t) (hs0_0 t) (ms0_1 t) (hs0_1 t) (ms0_2 t) (hs0_2 t) (ms0_3 t) (hs0_3 t) scM0 (Memref.isWhole_whole _) hc0 hc1 x0 x1 xs).1 S16x1024.size (by sl_kernel_rfl) y

/-- What case B leaves in the accumulator. -/
def sout0_B (c : Dev nD) (t : Fin cfg0.N) (hc0 : ¬cond0_0 (grid0.coords t)) (hc1 : ¬cond0_1 (grid0.coords t))
    (x0 : Vec F S16x256x1024 .f32) (x1 : Vec F S16x256 .f32) (xs : Vec F S16x1024 .f32) : Vec F S16x1024 .f32 :=
  VS0.read (Elt F) (VS0.writes (Elt F) VS0.junk (kernelRun0_B (F := F) c (grid0.coords t) (ms0_0 t) (hs0_0 t) (ms0_1 t) (hs0_1 t) (ms0_2 t) (hs0_2 t) (ms0_3 t) (hs0_3 t) scM0 (Memref.isWhole_whole _) hc0 hc1 x0 x1 xs).1)

theorem cover0_C (c : Dev nD) (t : Fin cfg0.N) (hc0 : ¬cond0_0 (grid0.coords t)) (hc1 : cond0_1 (grid0.coords t))
    (x0 : Vec F S16x256x1024 .f32) (x1 : Vec F S16x256 .f32) (x2 : Vec F S16x1 .f32) (xs : Vec F S16x1024 .f32) (y : S16x1024.Idx) :
    ∃ pc ∈ (kernelRun0_C (F := F) c (grid0.coords t) (ms0_0 t) (hs0_0 t) (ms0_1 t) (hs0_1 t) (ms0_2 t) (hs0_2 t) (ms0_3 t) (hs0_3 t) scM0 (Memref.isWhole_whole _) hc0 hc1 x0 x1 x2 xs).1, y ∈ pc.1.set :=
  View.cover_of_tiledL (kernelRun0_C (F := F) c (grid0.coords t) (ms0_0 t) (hs0_0 t) (ms0_1 t) (hs0_1 t) (ms0_2 t) (hs0_2 t) (ms0_3 t) (hs0_3 t) scM0 (Memref.isWhole_whole _) hc0 hc1 x0 x1 x2 xs).1 S16x1024.size (by sl_kernel_rfl) y

/-- What case C leaves in the output block's staging buffer. -/
def out0_C (c : Dev nD) (t : Fin cfg0.N) (hc0 : ¬cond0_0 (grid0.coords t)) (hc1 : cond0_1 (grid0.coords t))
    (x0 : Vec F S16x256x1024 .f32) (x1 : Vec F S16x256 .f32) (x2 : Vec F S16x1 .f32) (xs : Vec F S16x1024 .f32) : Vec F S16x1024 .f32 :=
  VO0.read (Elt F) (VO0.writes (Elt F) VO0.junk (kernelRun0_C (F := F) c (grid0.coords t) (ms0_0 t) (hs0_0 t) (ms0_1 t) (hs0_1 t) (ms0_2 t) (hs0_2 t) (ms0_3 t) (hs0_3 t) scM0 (Memref.isWhole_whole _) hc0 hc1 x0 x1 x2 xs).1)

theorem scover0_C (c : Dev nD) (t : Fin cfg0.N) (hc0 : ¬cond0_0 (grid0.coords t)) (hc1 : cond0_1 (grid0.coords t))
    (x0 : Vec F S16x256x1024 .f32) (x1 : Vec F S16x256 .f32) (x2 : Vec F S16x1 .f32) (xs : Vec F S16x1024 .f32) (y : S16x1024.Idx) :
    ∃ pc ∈ (kernelRun0_C (F := F) c (grid0.coords t) (ms0_0 t) (hs0_0 t) (ms0_1 t) (hs0_1 t) (ms0_2 t) (hs0_2 t) (ms0_3 t) (hs0_3 t) scM0 (Memref.isWhole_whole _) hc0 hc1 x0 x1 x2 xs).2.1, y ∈ pc.1.set :=
  View.cover_of_tiledL (kernelRun0_C (F := F) c (grid0.coords t) (ms0_0 t) (hs0_0 t) (ms0_1 t) (hs0_1 t) (ms0_2 t) (hs0_2 t) (ms0_3 t) (hs0_3 t) scM0 (Memref.isWhole_whole _) hc0 hc1 x0 x1 x2 xs).2.1 S16x1024.size (by sl_kernel_rfl) y

/-- What case C leaves in the accumulator. -/
def sout0_C (c : Dev nD) (t : Fin cfg0.N) (hc0 : ¬cond0_0 (grid0.coords t)) (hc1 : cond0_1 (grid0.coords t))
    (x0 : Vec F S16x256x1024 .f32) (x1 : Vec F S16x256 .f32) (x2 : Vec F S16x1 .f32) (xs : Vec F S16x1024 .f32) : Vec F S16x1024 .f32 :=
  VS0.read (Elt F) (VS0.writes (Elt F) VS0.junk (kernelRun0_C (F := F) c (grid0.coords t) (ms0_0 t) (hs0_0 t) (ms0_1 t) (hs0_1 t) (ms0_2 t) (hs0_2 t) (ms0_3 t) (hs0_3 t) scM0 (Memref.isWhole_whole _) hc0 hc1 x0 x1 x2 xs).2.1)

section
variable (V : (c : Dev nD) → (b : Ref sig .tc) → Buf (Elt F) ((c : Thread nD τ).loc b))

/-! ## What the output's buffer and the accumulator hold after each point -/

/-- THE ACCUMULATION: after the body at position `n`, the output block's staging buffer and the accumulator. -/
def outsAt0 (c : Dev nD) : (n : ℕ) → n < cfg0.N → Vec F S16x1024 .f32 × Vec F S16x1024 .f32
  | 0, hn => (outIdle0, sout0_A c ⟨0, hn⟩ (c0_of ⟨0, hn⟩ (Nat.zero_mod _)) (nc1_of ⟨0, hn⟩ (by show ¬0 % 8 = 7; omega)) (iblk0 V c 0 ⟨0, hn⟩) (iblk0 V c 1 ⟨0, hn⟩))
  | n + 1, hn =>
    if h0 : (n + 1) % 8 = 0 then
      (outIdle0, sout0_A c ⟨n + 1, hn⟩ (c0_of ⟨n + 1, hn⟩ h0) (nc1_of ⟨n + 1, hn⟩ (by show ¬(n + 1) % 8 = 7; omega)) (iblk0 V c 0 ⟨n + 1, hn⟩) (iblk0 V c 1 ⟨n + 1, hn⟩))
    else if h1 : (n + 1) % 8 = 7 then
      (out0_C c ⟨n + 1, hn⟩ (nc0_of ⟨n + 1, hn⟩ h0) (c1_of ⟨n + 1, hn⟩ h1) (iblk0 V c 0 ⟨n + 1, hn⟩) (iblk0 V c 1 ⟨n + 1, hn⟩) (iblk0 V c 2 ⟨n + 1, hn⟩) (outsAt0 c n (Nat.lt_of_succ_lt hn)).2,
       sout0_C c ⟨n + 1, hn⟩ (nc0_of ⟨n + 1, hn⟩ h0) (c1_of ⟨n + 1, hn⟩ h1) (iblk0 V c 0 ⟨n + 1, hn⟩) (iblk0 V c 1 ⟨n + 1, hn⟩) (iblk0 V c 2 ⟨n + 1, hn⟩) (outsAt0 c n (Nat.lt_of_succ_lt hn)).2)
    else
      (outIdle0, sout0_B c ⟨n + 1, hn⟩ (nc0_of ⟨n + 1, hn⟩ h0) (nc1_of ⟨n + 1, hn⟩ h1) (iblk0 V c 0 ⟨n + 1, hn⟩) (iblk0 V c 1 ⟨n + 1, hn⟩) (outsAt0 c n (Nat.lt_of_succ_lt hn)).2)

theorem prev_lt (t : Fin cfg0.N) : t.val - 1 < cfg0.N := Nat.lt_of_le_of_lt (Nat.sub_le _ _) t.isLt

/-- At a point of sequence tile 0: case A's contents, from the point's blocks alone. -/
theorem outsAt0_A (c : Dev nD) (t : Fin cfg0.N) (h0 : t.val % 8 = 0) (h1 : ¬t.val % 8 = 7) :
    outsAt0 V c t.val t.isLt = (outIdle0, sout0_A c t (c0_of t h0) (nc1_of t h1) (iblk0 V c 0 t) (iblk0 V c 1 t)) := by
  obtain ⟨n, hn⟩ := t
  cases n with
  | zero => rfl
  | succ n => exact (dif_pos h0).trans rfl

/-- At a point of sequence tile 1 to 6: case B's contents, over what the point before left. -/
theorem outsAt0_B (c : Dev nD) (t : Fin cfg0.N) (h0 : ¬t.val % 8 = 0) (h1 : ¬t.val % 8 = 7) :
    outsAt0 V c t.val t.isLt = (outIdle0, sout0_B c t (nc0_of t h0) (nc1_of t h1) (iblk0 V c 0 t) (iblk0 V c 1 t) (outsAt0 V c (t.val - 1) (prev_lt t)).2) := by
  obtain ⟨n, hn⟩ := t
  cases n with
  | zero => exact absurd (Nat.zero_mod _) h0
  | succ n => exact (dif_neg h0).trans ((dif_neg h1).trans rfl)

/-- At a point of sequence tile 7: case C's contents, over what the point before left. -/
theorem outsAt0_C (c : Dev nD) (t : Fin cfg0.N) (h0 : ¬t.val % 8 = 0) (h1 : t.val % 8 = 7) :
    outsAt0 V c t.val t.isLt = (out0_C c t (nc0_of t h0) (c1_of t h1) (iblk0 V c 0 t) (iblk0 V c 1 t) (iblk0 V c 2 t) (outsAt0 V c (t.val - 1) (prev_lt t)).2,
      sout0_C c t (nc0_of t h0) (c1_of t h1) (iblk0 V c 0 t) (iblk0 V c 1 t) (iblk0 V c 2 t) (outsAt0 V c (t.val - 1) (prev_lt t)).2) := by
  obtain ⟨n, hn⟩ := t
  cases n with
  | zero => exact absurd (Nat.zero_mod _) h0
  | succ n => exact (dif_neg h0).trans ((dif_pos h1).trans rfl)

/-! ## The region invariant -/

/-- Before position `n`: before the first point the class's own; afterwards the accumulator at what the point before
    left, the other scoped buffers at some contents, and the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ scRest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare ((outsAt0 V c n hn).2) ∗ scRest0 c) ∗ (∃ r, prngReg c r)) := rfl

theorem PhiS_pos (c : Dev nD) (n : ℕ) (h : n ≤ cfg0.N) (hz : n ≠ 0) :
    PhiS V c n h = iprop(iprop(owns (c : Thread nD τ) scM0 fullShare ((outsAt0 V c (n - 1) (by omega)).2) ∗ scRest0 c) ∗ (∃ r, prngReg c r)) := by
  cases n with
  | zero => exact absurd rfl hz
  | succ n => rfl

/-! ## The proof data -/

/-- The proof data of the reduction call on core `c`: the arrays as the region finds them; after the body at point
    `t` each input's buffer at its block and the output's at `outsAt0`'s first component; the tracking invariant;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t := before0_0_of V (dat0 V c) (A_eq0 V c 0) (after0_0 V c) t d
theorem before0_1 (c : Dev nD) (t : Fin cfg0.N) (d) : (dat0 V c).before 1 t d = iblk0 V c 1 t := before0_1_of V (dat0 V c) (A_eq0 V c 1) (after0_1 V c) t d
theorem before0_2 (c : Dev nD) (t : Fin cfg0.N) (d) : (dat0 V c).before 2 t d = iblk0 V c 2 t := before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

set_option maxHeartbeats 4800000 in
/-- The body at any point. The inputs' memrefs hold their blocks; the point's index modulo 8 says which case it is in;
    the invariant hands the body the accumulator at what the point before left (at anything before the first point)
    and takes it back at this point's contents; where the sequence tile is not 7 the output's buffer is handed back as
    found; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2]
  by_cases h0 : t.val % 8 = 0
  · have h1 : ¬t.val % 8 = 7 := by omega
    rw [Dat.leavesExact_idle (dat0 V c) 3 t (idleAt0_3 t (nc1_of t h1)) (noFlush0_3 t (nc1_of t h1))]
    rw [outsAt0_A V c t h0 h1]
    unfold sout0_A; (try dsimp only)
    by_cases hz : t.val = 0
    · rw [PhiS_castSucc V c t, PhiS_zero V c _ _ hz, PhiA0_split]
      iintro ⟨⟨⟨HS, HR⟩, Hg⟩, Ho, ⟨%d0, H0⟩, ⟨%d1, H1⟩, ⟨%d2, H2⟩, ⟨%d3, H3⟩⟩
      iapply ((kernelRun0_A c (grid0.coords t) _ _ _ _ _ _ _ _ _ _ (c0_of t h0) (nc1_of t h1) (iblk0 V c 0 t) (iblk0 V c 1 t)).2 Set.univ _)
      isplitl [H0]; · iexact H0
      isplitl [H1]; · iexact H1
      isplitl [HS]; · iexact HS
      iintro ⟨H0, H1, ⟨%es, HS⟩⟩
      isplitl [HS HR Hg]
      · isplitl [HS HR]
        · isplitl [HS]
          · unfold owns; iexists _; isplitr
            swap; · iexact HS
            ipureintro; exact View.read_writes_of_cover _ _ _ _ _ (scover0_A c t _ _ _ _)
          iexact HR
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply ((kernelRun0_A c (grid0.coords t) _ _ _ _ _ _ _ _ _ _ (c0_of t h0) (nc1_of t h1) (iblk0 V c 0 t) (iblk0 V c 1 t)).2 Set.univ _)
      isplitl [H0]; · iexact H0
      isplitl [H1]; · iexact H1
      isplitl [HS]; · iexists _; iexact HS
      iintro ⟨H0, H1, ⟨%es, HS⟩⟩
      isplitl [HS HR Hg]
      · isplitl [HS HR]
        · isplitl [HS]
          · unfold owns; iexists _; isplitr
            swap; · iexact HS
            ipureintro; exact View.read_writes_of_cover _ _ _ _ _ (scover0_A c t _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 8 = 7
    · rw [show (dat0 V c).leavesExact 3 t = owns (c : Thread nD τ) (ms0_3 t) fullShare ((dat0 V c).after 3 t) from by
        unfold Dat.leavesExact; rw [liveAt0_3 t (c1_of t h1)], after0_3]
      rw [outsAt0_C V c t h0 h1]
      unfold out0_C sout0_C; (try dsimp only)
      rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply ((kernelRun0_C c (grid0.coords t) _ _ _ _ _ _ _ _ _ _ (nc0_of t h0) (c1_of t h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (scover0_C c t _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c t _ _ _ _ _ _)
    · rw [Dat.leavesExact_idle (dat0 V c) 3 t (idleAt0_3 t (nc1_of t h1)) (noFlush0_3 t (nc1_of t h1))]
      rw [outsAt0_B V c t h0 h1]
      unfold sout0_B; (try dsimp only)
      rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply ((kernelRun0_B c (grid0.coords t) _ _ _ _ _ _ _ _ _ _ (nc0_of t h0) (nc1_of t h1) (iblk0 V c 0 t) (iblk0 V c 1 t) _).2 Set.univ _)
      isplitl [H0]; · iexact H0
      isplitl [H1]; · iexact H1
      isplitl [HS]; · iexact HS
      iintro ⟨H0, H1, ⟨%es, HS⟩⟩
      isplitl [HS HR Hg]
      · isplitl [HS HR]
        · isplitl [HS]
          · unfold owns; iexists _; isplitr
            swap; · iexact HS
            ipureintro; exact View.read_writes_of_cover _ _ _ _ _ (scover0_B c t _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the accumulator's named contents forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_split]
  iintro ⟨⟨HS, HR⟩, Hg⟩
  isplitl [HS HR]
  · isplitl [HS]
    · iexists _; iexact HS
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end

end Cert.Kernel.Hand

end
-- ==== Proof.K.R1.lean ====
/-
  The MLP call (the second kernel region): its body obligation, at any float instance and for any contents `V` of the
  buffers when the region is entered.

  The grid has one point and every window's block is its whole array: the pooled features (64 × 1024), the first
  layer's weights (300 × 1024) and bias (300), the second layer's weights (2 × 300) and bias (2) are loaded whole, and
  one store writes the 64 × 2 result: the second product, of the hyperbolic tangent of the first product plus its bias,
  plus the second bias. Nothing is carried between points, so the region invariant is the class's own.
-/
import proofs.«169118_j75849122448044_1_alg».proof.Proof.Gen.Kernel.Launch
import proofs.«169118_j75849122448044_1_alg».proof.Proof.Gen.Kernel.Skeleton
import proofs.«169118_j75849122448044_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at the point, read off its array as the region finds it: the whole array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block where the body is called. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block where the body is called. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block where the body is called. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block where the body is called. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block where the body is called. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's accesses: each buffer whole -/

abbrev rF : Rect S64x1024 := Rect.unit (s := S64x1024) ![0, 0] S64x1024.size inb_S64x1024_S64x1024_0_0
abbrev rW1 : Rect S300x1024 := Rect.unit (s := S300x1024) ![0, 0] S300x1024.size inb_S300x1024_S300x1024_0_0
abbrev rB1 : Rect S300 := Rect.unit (s := S300) ![0] S300.size inb_S300_S300_0
abbrev rW2 : Rect S2x300 := Rect.unit (s := S2x300) ![0, 0] S2x300.size inb_S2x300_S2x300_0_0
abbrev rB2 : Rect S2 := Rect.unit (s := S2) ![0] S2.size inb_S2_S2_0
abbrev rO : Rect S64x2 := Rect.unit (s := S64x2) ![0, 0] S64x2.size inb_S64x2_S64x2_0_0

/-! ## What the body leaves in the output window's buffer -/

/-- The output's staging buffer after the body, from the five input blocks: its one store. -/
def out1_5 (x0 : Vec F S64x1024 .f32) (x1 : Vec F S300x1024 .f32) (x2 : Vec F S300 .f32) (x3 : Vec F S2x300 .f32) (x4 : Vec F S2 .f32) : Vec F S64x2 .f32 :=
  View.canon [⟨rO, k1_pay1 (View.ld x0 rF) (View.ld x1 rW1) (View.ld x2 rB1) (View.ld x3 rW2) (View.ld x4 rB2)⟩]

/-- The one store covers the buffer. -/
theorem cover1_5 (p0 : Vec F S64x2 .f32) (y : S64x2.Idx) :
    ∃ pc ∈ ([⟨rO, p0⟩] : List (View.Piece (Elt F) S64x2 .f32)), y ∈ pc.1.set :=
  View.cover_of_tiled [⟨rO, p0⟩] S64x2.size (by rfl) y

/-! ## The body's triple -/

set_option maxHeartbeats 1000000 in
/-- The body on whole staging memrefs, the inputs' at contents `xW` and the output's at anything, runs to the
    continuation holding the inputs' as they were and the output's at `out1_5` of the inputs'. -/
theorem sound_kernel1 (c : Dev nD) (E : Set ℕ) (i : grid1.Coords)
    (arg1 : Memref sig .tc .vmem S64x1024 .f32) (harg1 : arg1.IsWhole) (arg2 : Memref sig .tc .vmem S300x1024 .f32) (harg2 : arg2.IsWhole)
    (arg3 : Memref sig .tc .vmem S300 .f32) (harg3 : arg3.IsWhole) (arg4 : Memref sig .tc .vmem S2x300 .f32) (harg4 : arg4.IsWhole)
    (arg5 : Memref sig .tc .vmem S2 .f32) (harg5 : arg5.IsWhole) (arg6 : Memref sig .tc .vmem S64x2 .f32) (harg6 : arg6.IsWhole)
    (x0 : Vec F S64x1024 .f32) (x1 : Vec F S300x1024 .f32) (x2 : Vec F S300 .f32) (x3 : Vec F S2x300 .f32) (x4 : Vec F S2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__mlp_kernel i arg1 harg1 arg2 harg2 arg3 harg3 arg4 harg4 arg5 harg5 arg6 harg6) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

section
variable (V : (c : Dev nD) → (b : Ref sig .tc) → Buf (Elt F) ((c : Thread nD τ).loc b))

/-! ## The pipeline's proof data -/

/-- The proof data of the MLP call on core `c`: the arrays as the region finds them; after the body each input's
    buffer at its block and the output's at `out1_5` of the input blocks; the class invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d
theorem before1_3 (c : Dev nD) (t : Fin cfg1.N) (d) : (dat1 V c).before 3 t d = iblk1 V c 3 t := before1_3_of V (dat1 V c) (A_eq1 V c 3) (after1_3 V c) t d
theorem before1_4 (c : Dev nD) (t : Fin cfg1.N) (d) : (dat1 V c).before 4 t d = iblk1 V c 4 t := before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at the point: the inputs' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.K.Regs.lean ====
/-
  The two kernel regions as segments of the program's run, and the program's frame.

  Between two items of the program every unscoped buffer of the core is held whole at known contents: the launch
  memory, then what each stretch of host operations computes, then — after the reduction call — the same with the
  pooled-feature array at what the call's write-backs leave, and — after the MLP call — with the result array at
  what that call's write-back leaves. Each region takes its arrays out of the unscoped buffers at its entry, runs its
  pipeline against its proof data, and puts them back at the exit contents; the generator register goes into the
  region invariant and comes out; nothing is owed and no kernel has a semaphore of its own. For the reduction call the
  invariant after the last point still names the accumulator's contents, and forgets them to give the class invariant
  back. Given the two records the generated conditional frame concludes: every weakly fair execution terminates and
  leaves the seven argument arrays as launched.
-/
import proofs.«169118_j75849122448044_1_alg».proof.Proof.K.Frame0
import proofs.«169118_j75849122448044_1_alg».proof.Proof.K.R1
import proofs.«169118_j75849122448044_1_alg».proof.Proof.Gen.Kernel.Regions
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The buffers' contents at the regions' boundaries -/

/-- What the reduction call is entered from, read at the TensorCore's references. -/
abbrev Vr5 : (c : Dev nD) → (b : Ref sig .tc) → Buf (Elt F) ((c : Thread nD τ).loc b) := fun c b => V5 m c b

/-- At the reduction call's exit: its arrays at what the pipeline leaves, every other buffer as entered. -/
def W6 (c : Dev nD) : Valuation τ sig (Elt F) :=
  Pipeline.withArrays spec0 c (V5 m c) fun w => (dat0 (Vr5 m) c).arrAt w cfg0.N

/-- The regions' leavings, first stage: the pooled-feature array after the reduction call. -/
def outsA : Outs (F := F) := fun _ r c => W6 m c (Proc.devRef .tc r)

/-- What the MLP call is entered from, read at the TensorCore's references. -/
abbrev Vr6 : (c : Dev nD) → (b : Ref sig .tc) → Buf (Elt F) ((c : Thread nD τ).loc b) := fun c b => V6 m (outsA m) c b

/-- At the MLP call's exit: its arrays at what the pipeline leaves, every other buffer as entered. -/
def W7 (c : Dev nD) : Valuation τ sig (Elt F) :=
  Pipeline.withArrays spec1 c (V6 m (outsA m) c) fun w => (dat1 (Vr6 m) c).arrAt w cfg1.N

/-- The regions' leavings: after item 6 (the MLP call) the second exit's, before it the first's. -/
def outsB : Outs (F := F) := fun J r c => if J = 7 then W7 m c (Proc.devRef .tc r) else W6 m c (Proc.devRef .tc r)

/-- The contents between the two calls do not depend on the second call's leavings. -/
theorem V6_B (c : Dev nD) : V6 m (outsB m) c = V6 m (outsA m) c := rfl

/-- What the program ends at, read at the TensorCore's references. -/
abbrev Vr7 : (c : Dev nD) → (b : Ref sig .tc) → Buf (Elt F) ((c : Thread nD τ).loc b) := fun c b => V7 m (outsB m) c b

theorem W6_arr (c : Dev nD) (w : Fin cfg0.W) :
    W6 m c (Proc.devRef .tc (Pipeline.arrRef spec0 w)) = (dat0 (Vr5 m) c).arrAt w cfg0.N := by
  unfold W6; exact Pipeline.withArrays_arr spec0 launch0.win.arr_inj c _ _ w

theorem W7_arr (c : Dev nD) (w : Fin cfg1.W) :
    W7 m c (Proc.devRef .tc (Pipeline.arrRef spec1 w)) = (dat1 (Vr6 m) c).arrAt w cfg1.N := by
  unfold W7; exact Pipeline.withArrays_arr spec1 launch1.win.arr_inj c _ _ w

/-- The pooled-feature array between the calls is what the reduction call's write-backs leave. -/
theorem Vr6_v16 (c : Dev nD) : Vr6 m c main_v16 = (dat0 (Vr5 m) c).arrAt 3 cfg0.N := by
  show Function.update (V5 m c) (Proc.devRef .tc main_v16) (outsA m 6 main_v16 c) (Proc.devRef .tc main_v16) = _
  rw [Function.update_self]; exact W6_arr m c 3

/-- The result array at the end is what the MLP call's write-back leaves. -/
theorem Vr7_v17 (c : Dev nD) : Vr7 m c main_v17 = (dat1 (Vr6 m) c).arrAt 5 cfg1.N := by
  show Function.update (V6 m (outsB m) c) (Proc.devRef .tc main_v17) (outsB m 7 main_v17 c) (Proc.devRef .tc main_v17) = _
  rw [Function.update_self]; exact W7_arr m c 5

/-- At the reduction call's exit each of its arrays holds what the pipeline leaves: an input as entered, the output
    its write-backs. -/
theorem hF0 (c : Dev nD) (w : Fin cfg0.W) : (dat0 (Vr5 m) c).arrAt w cfg0.N = Vr6 m c (Pipeline.arrRef spec0 w) := by
  match w with
  | ⟨0, _⟩ => exact ((dat0 (Vr5 m) c).arrAt_in 0 rfl _).trans ((A_eq0 (Vr5 m) c 0).trans (V6_of m (outsA m) c _ (by decide)).symm)
  | ⟨1, _⟩ => exact ((dat0 (Vr5 m) c).arrAt_in 1 rfl _).trans ((A_eq0 (Vr5 m) c 1).trans (V6_of m (outsA m) c _ (by decide)).symm)
  | ⟨2, _⟩ => exact ((dat0 (Vr5 m) c).arrAt_in 2 rfl _).trans ((A_eq0 (Vr5 m) c 2).trans (V6_of m (outsA m) c _ (by decide)).symm)
  | ⟨3, _⟩ => exact (Vr6_v16 m c).symm

/-- and every other buffer what it held at entry. -/
theorem hrest0 (c : Dev nD) : ∀ b, b ∉ Finset.univ.image (Pipeline.arrRef spec0) → Vr6 m c b = Vr5 m c b :=
  fun b hb => V6_of m (outsA m) c b fun h => hb (Finset.mem_image.mpr ⟨3, Finset.mem_univ _, (List.mem_singleton.mp h).symm⟩)

theorem hF1 (c : Dev nD) (w : Fin cfg1.W) : (dat1 (Vr6 m) c).arrAt w cfg1.N = Vr7 m c (Pipeline.arrRef spec1 w) := by
  match w with
  | ⟨0, _⟩ => exact ((dat1 (Vr6 m) c).arrAt_in 0 rfl _).trans ((A_eq1 (Vr6 m) c 0).trans (V7_of m (outsB m) c _ (by decide)).symm)
  | ⟨1, _⟩ => exact ((dat1 (Vr6 m) c).arrAt_in 1 rfl _).trans ((A_eq1 (Vr6 m) c 1).trans (V7_of m (outsB m) c _ (by decide)).symm)
  | ⟨2, _⟩ => exact ((dat1 (Vr6 m) c).arrAt_in 2 rfl _).trans ((A_eq1 (Vr6 m) c 2).trans (V7_of m (outsB m) c _ (by decide)).symm)
  | ⟨3, _⟩ => exact ((dat1 (Vr6 m) c).arrAt_in 3 rfl _).trans ((A_eq1 (Vr6 m) c 3).trans (V7_of m (outsB m) c _ (by decide)).symm)
  | ⟨4, _⟩ => exact ((dat1 (Vr6 m) c).arrAt_in 4 rfl _).trans ((A_eq1 (Vr6 m) c 4).trans (V7_of m (outsB m) c _ (by decide)).symm)
  | ⟨5, _⟩ => exact (Vr7_v17 m c).symm

theorem hrest1 (c : Dev nD) : ∀ b, b ∉ Finset.univ.image (Pipeline.arrRef spec1) → Vr7 m c b = Vr6 m c b :=
  fun b hb => V7_of m (outsB m) c b fun h => hb (Finset.mem_image.mpr ⟨5, Finset.mem_univ _, (List.mem_singleton.mp h).symm⟩)

/-! ## The proof data family and the thread state -/

/-- Both pipelines' proof data, each at its region's entry contents. -/
def pdats : (p : Fin 2) → (c : Dev nD) → Dat τ (Elt F) Unit ℕ (UR sig nD τ) ℕ (cfgs p) c
  | ⟨0, _⟩ => fun c => dat0 (Vr5 m) c
  | ⟨1, _⟩ => fun c => dat1 (Vr6 m) c

abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R (F := F) c

/-! ## The regions as segments -/

set_option backward.isDefEq.respectTransparency.types false in
/-- The reduction call: entered from every unscoped buffer at the contents after the host stretches, left with the
    pooled-feature array at what its write-backs leave. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr5 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (V6 m (outsA m) c) ∗ R c)
  X c := iprop(∃ r, prngReg c r)
  Y c := iprop(∃ r, prngReg c r)
  Z c := Pipeline.unscopedRest (Ix := Unit) (Name := ℕ) (U := UR sig nD τ) (Lvl := ℕ) spec0 c (Vr5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    refine (show (pdats m 0 c).Φ (Fin.last _) ⊢ Pipeline.ΦA spec0 c from hout0 (Vr5 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr5 m c) (Vr6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The MLP call: entered from the contents between the calls, left with the result array at what its write-back
    leaves. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr6 m) c).loose
  hwaits := Pipeline.hwaits_of_owed_zero _ _ _ _ L lv 1 fun _ _ => rfl
  pre c := iprop(StableHlo.held (c : Thread nD τ) (Pipeline.ucRefs τ sig) (V6 m (outsA m) c) ∗ R c)
  post c := iprop(StableHlo.held (c : Thread nD τ) (Pipeline.ucRefs τ sig) (V7 m (outsB m) c) ∗ R c)
  X c := iprop(∃ r, prngReg c r)
  Y c := iprop(∃ r, prngReg c r)
  Z c := Pipeline.unscopedRest (Ix := Unit) (Name := ℕ) (U := UR sig nD τ) (Lvl := ℕ) spec1 c (Vr6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr6 m c) (Vr7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's ghost state and the frame -/

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- At launch every core's generator register and its empty dues make the rest state. -/
theorem hE0 (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  have hpt : ∀ c : Dev nD, (iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)) : sProp 𝕄)
      ⊢ (E (F := F) 0 c : sProp 𝕄) := fun c => by
    iintro ⟨-, HO, -, Hp, -⟩
    isplitl [Hp]; · iexists _; iexact Hp
    iexists ∅; iexact HO
  iintro ⟨H, -⟩
  imodintro
  iapply (show (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
      ⊢ (bigSep Finset.univ (E (F := F) 0) : sProp 𝕄) from bigSep_mono fun c _ => hpt c)
  iexact H

set_option backward.isDefEq.respectTransparency.types false in
/-- THE FRAME, at any float instance: from any memory with zero counters every weakly fair execution of the program
    terminates, nothing faulting, and every final state has the seven argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_cond m (EP := emb₁) (ι := ()) (𝒱₀ := 𝒱₀) (L := L) (lv := lv) (hL := fun _ _ => rfl) (ρ := ρ) (outs := outsB m) (pdats := pdats m)
    (O₀ := 0) (G := fun _ => iprop(emp)) (u₀ := initOf (Pipeline.cells cfgs cellOf_inj) (Pipeline.launchToks cfgs cellOf_inj)) (hu₀ := hu₀)
    (E := E) (hE0 := hE0 ρ) (hE2 := fun c => by iintro ⟨-, H⟩; iexact H)
    (R0 := reg0 m) (hpre0 := fun c => .rfl) (hpost0 := fun c => by rw [V6_B]; exact .rfl)
    (R1 := reg1 m) (hpre1 := fun c => by rw [V6_B]; exact .rfl) (hpost1 := fun c => .rfl)

end Cert.Kernel.Hand

end
-- ==== Proof.KI.Base0.lean ====
/-
  The reduction call (the first of the two kernel regions), what its three control cases share.

  The grid is 4 × 8: coordinate 0 picks a tile of 16 batch rows, coordinate 1 a tile of 256 sequence positions, and
  the second coordinate runs fastest, so point `t` has sequence tile `t % 8`. The body zeroes a 16 × 1024 accumulator
  where the sequence tile is 0, adds the tile's masked sum into it at every point, and where the sequence tile is 7
  divides the accumulator by the rows' end index and stores the quotient to the output block. So the output block is
  stored at one point in eight and is idle (neither stored nor written back) at the other seven, and the end-index
  block is fetched once per batch tile.

  Stated here, at any float instance and for any contents `V` of the buffers when the region is entered: each window's
  block at a point; that each of the three input windows' staging buffers holds its block wherever the body is
  called; the two branch conditions in closed form over the grid; where the output window is idle, live, and not
  written back; the staging and accumulator memrefs; and the class invariant with the accumulator exposed.
-/
import proofs.«169118_j75849122448044_1_alg».proof.Proof.Gen.KernelIdeal.Launch
import proofs.«169118_j75849122448044_1_alg».proof.Proof.Gen.KernelIdeal.Skeleton
import proofs.«169118_j75849122448044_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The activations' staging buffer holds the point's 16 × 256 × 1024 block wherever the body is called. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The mask's staging buffer holds the point's 16 × 256 block wherever the body is called. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The end-index column's staging buffer holds the batch tile's 16 × 1 block wherever the body is called: it is
    fetched where the sequence tile is 0 and its block index does not move over the seven points after. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

end

/-! ## The body's two branch conditions -/

/-- "The sequence tile is 0", as the body computes it from the second grid coordinate. -/
abbrev cond0_0 (i : grid0.Coords) : Prop := (Scalar.cmpi .ne (Scalar.extui (Scalar.cmpi .eq (BitVec.ofNat 32 (i 1).val) 0#32)) 0#32) = 1#1
/-- It holds at the points whose index is a multiple of 8. -/
theorem hcond0_0 : ∀ t : Fin cfg0.N, cond0_0 (grid0.coords t) ↔ t.val % 8 = 0 :=
  (by decide +kernel : ∀ t : Fin grid0.N, cond0_0 (grid0.coords t) ↔ t.val % 8 = 0)

/-- "The sequence tile is 7", as the body computes it. -/
abbrev cond0_1 (i : grid0.Coords) : Prop := k0_cond2 i = 1#1
/-- It holds at the points whose index is 7 modulo 8. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Where the sequence tile is not 7 the output window is idle: the body stores nothing into it there, -/
theorem idleAt0_3 : ∀ t : Fin cfg0.N, ¬cond0_1 (grid0.coords t) → cfg0.idle 3 (grid0.coords t) = true := by decide +kernel
/-- and the pipeline does not write its block back there; -/
theorem noFlush0_3 : ∀ t : Fin cfg0.N, ¬cond0_1 (grid0.coords t) → (cfg0.win 3).flush t = false := by decide +kernel
/-- where the sequence tile is 7 it is live. -/
theorem liveAt0_3 : ∀ t : Fin cfg0.N, cond0_1 (grid0.coords t) → cfg0.idle 3 (grid0.coords t) = false := by decide +kernel

/-! ## The memrefs the body is called with -/

abbrev ms0_0 (t : Fin cfg0.N) : Memref sig .tc .vmem S16x256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S16x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S16x1024 .f32 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows. -/
abbrev scM0 : Memref sig .tc .vmem S16x1024 .f32 := Memref.whole cc0_scratch0
/-- The accumulator as a view: what it holds is stated through it. -/
abbrev VS0 : View sig .tc .vmem S16x1024 .f32 := scM0.view
/-- One staging buffer of the output window, through which its contents are stated. -/
abbrev VO0 : View sig .tc .vmem S16x1024 .f32 := (Memref.whole cc0_stg3_0 : Memref sig .tc .vmem S16x1024 .f32).view

/-- The class invariant with the accumulator exposed: the accumulator owned at some contents, the other scoped
    buffers (the second call's staging buffers) at some contents, and the generator register at some state. -/
theorem PhiA0_eq (c : Dev nD) :
    (Pipeline.ΦA spec0 c : sProp 𝕄)
      = iprop(iprop((∃ d, owns (c : Thread nD τ) scM0 fullShare d) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f)) ∗ (∃ r, prngReg c r)) := by
  unfold Pipeline.ΦA; rw [scopedRest0_eq]; simp only [scM0, owns_whole]; try rfl

end Cert.KernelIdeal.Hand

end
-- ==== Proof.KI.Run0.lean ====
/-
  The reduction call's body run whole, once per control case, on any whole memrefs.

  Case A, sequence tile 0: the accumulator, found at anything, is zeroed and then the tile's masked sum is added.
  Case B, sequence tiles 1 to 6: the accumulator, found at what the point before left, gets the tile's masked sum added.
  Case C, sequence tile 7: as case B, and then the accumulator is divided by the end-index column and stored to the
  output block, found at anything.
  Each run names the pieces its stores leave in the accumulator (and, in case C, in the output block); the activations'
  and the mask's blocks, and in case C the end-index block, are handed back as found. The end-index and output blocks
  are not touched in cases A and B and do not appear there.
-/
import proofs.«169118_j75849122448044_1_alg».proof.Proof.KI.Base0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- Sequence tile 0: zero the accumulator, add the tile's masked sum. -/
noncomputable def kernelRun0_A (c : Dev nD) (i : grid0.Coords)
    (arg2 : Memref sig .tc .vmem S16x256x1024 .f32) (harg2 : arg2.IsWhole) (arg3 : Memref sig .tc .vmem S16x256 .f32) (harg3 : arg3.IsWhole)
    (arg4 : Memref sig .tc .vmem S16x1 .f32) (harg4 : arg4.IsWhole) (arg5 : Memref sig .tc .vmem S16x1024 .f32) (harg5 : arg5.IsWhole)
    (arg6 : Memref sig .tc .vmem S16x1024 .f32) (harg6 : arg6.IsWhole) (hc0 : cond0_0 i) (hc1 : ¬cond0_1 i)
    (x0 : Vec F S16x256x1024 .f32) (x1 : Vec F S16x256 .f32) :
    { LS : List (View.Piece (Elt F) S16x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg6 fullShare d)
            ∗ (iprop(owns (c : Thread nD τ) arg2 fullShare x0 ∗ owns (c : Thread nD τ) arg3 fullShare x1 ∗ (∃ f, arg6.view.loc (c : Thread nD τ) ↦[arg6.view.set]{fullShare} arg6.view.writes (Elt F) f LS)) -∗ K ⟨⟩))
          ⊢ wp frame (wpE (defs₀ (F := F)) Variants.none c none) E (cc0__reduce_kernel i arg2 harg2 arg3 harg3 arg4 harg4 arg5 harg5 arg6 harg6) K } := by
  refine ⟨?_, fun E K => ?run⟩
  case run =>
    simp only [cc0__reduce_kernel_eq_skeleton]; unfold cc0__reduce_kernel_skel
    unfold owns
    iintro ⟨⟨%f0, %hf0, H0⟩, ⟨%f1, %hf1, H1⟩, ⟨%ds, %fs, -, HS⟩, Hk⟩
    obtain rfl := harg2.eq_unread hf0; obtain rfl := harg3.eq_unread hf1
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 1000000 in
/-- Sequence tiles 1 to 6: add the tile's masked sum onto what the accumulator holds. -/
noncomputable def kernelRun0_B (c : Dev nD) (i : grid0.Coords)
    (arg2 : Memref sig .tc .vmem S16x256x1024 .f32) (harg2 : arg2.IsWhole) (arg3 : Memref sig .tc .vmem S16x256 .f32) (harg3 : arg3.IsWhole)
    (arg4 : Memref sig .tc .vmem S16x1 .f32) (harg4 : arg4.IsWhole) (arg5 : Memref sig .tc .vmem S16x1024 .f32) (harg5 : arg5.IsWhole)
    (arg6 : Memref sig .tc .vmem S16x1024 .f32) (harg6 : arg6.IsWhole) (hc0 : ¬cond0_0 i) (hc1 : ¬cond0_1 i)
    (x0 : Vec F S16x256x1024 .f32) (x1 : Vec F S16x256 .f32) (xs : Vec F S16x1024 .f32) :
    { LS : List (View.Piece (Elt F) S16x1024 .f32) //
      ∀ (E : Set ℕ) (K : PUnit → sProp 𝕄),
        iprop(owns (c : Thread nD τ) arg2 fullShare x0 ∗ owns (c : Thread nD τ) arg3 fullShare x1 ∗ owns (c : Thread nD τ) arg6 fullShare xs
            ∗ (iprop(owns (c : Thread nD τ) arg2 fullShare x0 ∗ owns (c : Thread nD τ) arg3 fullShare x1 ∗ (∃ f, arg6.view.loc (c : Thread nD τ) ↦[arg6.view.set]{fullShare} arg6.view.writes (Elt F) f LS)) -∗ K ⟨⟩))
          ⊢ wp frame (wpE (defs₀ (F := F)) Variants.none c none) E (cc0__reduce_kernel i arg2 harg2 arg3 harg3 arg4 harg4 arg5 harg5 arg6 harg6) K } := by
  refine ⟨?_, fun E K => ?run⟩
  case run =>
    simp only [cc0__reduce_kernel_eq_skeleton]; unfold cc0__reduce_kernel_skel
    unfold owns
    iintro ⟨⟨%f0, %hf0, H0⟩, ⟨%f1, %hf1, H1⟩, ⟨%fs, %hfs, HS⟩, Hk⟩
    obtain rfl := harg2.eq_unread hf0; obtain rfl := harg3.eq_unread hf1; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    iexists _; iexact HS

set_option maxHeartbeats 1000000 in
/-- Sequence tile 7: add the tile's masked sum, then store the accumulator over the end index to the output block. -/
noncomputable def kernelRun0_C (c : Dev nD) (i : grid0.Coords)
    (arg2 : Memref sig .tc .vmem S16x256x1024 .f32) (harg2 : arg2.IsWhole) (arg3 : Memref sig .tc .vmem S16x256 .f32) (harg3 : arg3.IsWhole)
    (arg4 : Memref sig .tc .vmem S16x1 .f32) (harg4 : arg4.IsWhole) (arg5 : Memref sig .tc .vmem S16x1024 .f32) (harg5 : arg5.IsWhole)
    (arg6 : Memref sig .tc .vmem S16x1024 .f32) (harg6 : arg6.IsWhole) (hc0 : ¬cond0_0 i) (hc1 : cond0_1 i)
    (x0 : Vec F S16x256x1024 .f32) (x1 : Vec F S16x256 .f32) (x2 : Vec F S16x1 .f32) (xs : Vec F S16x1024 .f32) :
    Σ' (L3 : List (View.Piece (Elt F) S16x1024 .f32)), { LS : List (View.Piece (Elt F) S16x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS)) -∗ K ⟨⟩))
          ⊢ wp frame (wpE (defs₀ (F := F)) Variants.none c none) E (cc0__reduce_kernel i arg2 harg2 arg3 harg3 arg4 harg4 arg5 harg5 arg6 harg6) K } := by
  refine ⟨?_, ?_, fun E K => ?run⟩
  case run =>
    simp only [cc0__reduce_kernel_eq_skeleton]; unfold cc0__reduce_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.KernelIdeal.Hand

end
-- ==== Proof.KI.Frame0.lean ====
/-
  The reduction call's proof data and body obligation, at any float instance and for any contents `V` of the buffers
  when the region is entered.

  What the accumulator holds after point `n` is defined by recursion on `n` (`outsAt0`'s second component): where the
  sequence tile `n % 8` is 0, what case A leaves from the point's activation and mask blocks alone; elsewhere what case
  B or C leaves from those blocks and what the point before left. Its first component is what the output block's
  staging buffer holds: the stored quotient where the sequence tile is 7, a placeholder nobody reads at the other
  points, where the window is idle. The region invariant tracks the accumulator at that value from point to point
  (before the first point it is the class's own, the accumulator at anything), and gives the class invariant back
  after the last point.
-/
import proofs.«169118_j75849122448044_1_alg».proof.Proof.KI.Run0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The other scoped buffers, riding along -/

/-- The second call's six staging buffers, each whole at some contents: scoped buffers this region never touches. -/
def scRest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f))

/-- The class invariant: the accumulator at some contents, those six, the generator register at some state. -/
theorem PhiA0_split (c : Dev nD) :
    (Pipeline.ΦA spec0 c : sProp 𝕄) = iprop(iprop((∃ d, owns (c : Thread nD τ) scM0 fullShare d) ∗ scRest0 c) ∗ (∃ r, prngReg c r)) := by
  rw [PhiA0_eq]; rfl

/-! ## The cases decided by the point's index -/

theorem c0_of (t : Fin cfg0.N) (h : t.val % 8 = 0) : cond0_0 (grid0.coords t) := (hcond0_0 t).mpr h
theorem nc0_of (t : Fin cfg0.N) (h : ¬t.val % 8 = 0) : ¬cond0_0 (grid0.coords t) := fun hc => h ((hcond0_0 t).mp hc)
theorem c1_of (t : Fin cfg0.N) (h : t.val % 8 = 7) : cond0_1 (grid0.coords t) := (hcond0_1 t).mpr h
theorem nc1_of (t : Fin cfg0.N) (h : ¬t.val % 8 = 7) : ¬cond0_1 (grid0.coords t) := fun hc => h ((hcond0_1 t).mp hc)

/-! ## What each case leaves -/

/-- The output block's staging buffer where the window is idle: a placeholder, neither written back nor read. -/
def outIdle0 : Vec F S16x1024 .f32 := VO0.read (Elt F) VO0.junk

/-- Case A's one covering store tiles the accumulator. -/
theorem scover0_A (c : Dev nD) (t : Fin cfg0.N) (hc0 : cond0_0 (grid0.coords t)) (hc1 : ¬cond0_1 (grid0.coords t))
    (x0 : Vec F S16x256x1024 .f32) (x1 : Vec F S16x256 .f32) (y : S16x1024.Idx) :
    ∃ pc ∈ (kernelRun0_A (F := F) c (grid0.coords t) (ms0_0 t) (hs0_0 t) (ms0_1 t) (hs0_1 t) (ms0_2 t) (hs0_2 t) (ms0_3 t) (hs0_3 t) scM0 (Memref.isWhole_whole _) hc0 hc1 x0 x1).1, y ∈ pc.1.set :=
  View.cover_of_tiledL (kernelRun0_A (F := F) c (grid0.coords t) (ms0_0 t) (hs0_0 t) (ms0_1 t) (hs0_1 t) (ms0_2 t) (hs0_2 t) (ms0_3 t) (hs0_3 t) scM0 (Memref.isWhole_whole _) hc0 hc1 x0 x1).1 S16x1024.size (by sl_kernel_rfl) y

/-- What case A leaves in the accumulator. -/
def sout0_A (c : Dev nD) (t : Fin cfg0.N) (hc0 : cond0_0 (grid0.coords t)) (hc1 : ¬cond0_1 (grid0.coords t))
    (x0 : Vec F S16x256x1024 .f32) (x1 : Vec F S16x256 .f32) : Vec F S16x1024 .f32 :=
  VS0.read (Elt F) (VS0.writes (Elt F) VS0.junk (kernelRun0_A (F := F) c (grid0.coords t) (ms0_0 t) (hs0_0 t) (ms0_1 t) (hs0_1 t) (ms0_2 t) (hs0_2 t) (ms0_3 t) (hs0_3 t) scM0 (Memref.isWhole_whole _) hc0 hc1 x0 x1).1)

theorem scover0_B (c : Dev nD) (t : Fin cfg0.N) (hc0 : ¬cond0_0 (grid0.coords t)) (hc1 : ¬cond0_1 (grid0.coords t))
    (x0 : Vec F S16x256x1024 .f32) (x1 : Vec F S16x256 .f32) (xs : Vec F S16x1024 .f32) (y : S16x1024.Idx) :
    ∃ pc ∈ (kernelRun0_B (F := F) c (grid0.coords t) (ms0_0 t) (hs0_0 t) (ms0_1 t) (hs0_1 t) (ms0_2 t) (hs0_2 t) (ms0_3 t) (hs0_3 t) scM0 (Memref.isWhole_whole _) hc0 hc1 x0 x1 xs).1, y ∈ pc.1.set :=
  View.cover_of_tiledL (kernelRun0_B (F := F) c (grid0.coords t) (ms0_0 t) (hs0_0 t) (ms0_1 t) (hs0_1 t) (ms0_2 t) (hs0_2 t) (ms0_3 t) (hs0_3 t) scM0 (Memref.isWhole_whole _) hc0 hc1 x0 x1 xs).1 S16x1024.size (by sl_kernel_rfl) y

/-- What case B leaves in the accumulator. -/
def sout0_B (c : Dev nD) (t : Fin cfg0.N) (hc0 : ¬cond0_0 (grid0.coords t)) (hc1 : ¬cond0_1 (grid0.coords t))
    (x0 : Vec F S16x256x1024 .f32) (x1 : Vec F S16x256 .f32) (xs : Vec F S16x1024 .f32) : Vec F S16x1024 .f32 :=
  VS0.read (Elt F) (VS0.writes (Elt F) VS0.junk (kernelRun0_B (F := F) c (grid0.coords t) (ms0_0 t) (hs0_0 t) (ms0_1 t) (hs0_1 t) (ms0_2 t) (hs0_2 t) (ms0_3 t) (hs0_3 t) scM0 (Memref.isWhole_whole _) hc0 hc1 x0 x1 xs).1)

theorem cover0_C (c : Dev nD) (t : Fin cfg0.N) (hc0 : ¬cond0_0 (grid0.coords t)) (hc1 : cond0_1 (grid0.coords t))
    (x0 : Vec F S16x256x1024 .f32) (x1 : Vec F S16x256 .f32) (x2 : Vec F S16x1 .f32) (xs : Vec F S16x1024 .f32) (y : S16x1024.Idx) :
    ∃ pc ∈ (kernelRun0_C (F := F) c (grid0.coords t) (ms0_0 t) (hs0_0 t) (ms0_1 t) (hs0_1 t) (ms0_2 t) (hs0_2 t) (ms0_3 t) (hs0_3 t) scM0 (Memref.isWhole_whole _) hc0 hc1 x0 x1 x2 xs).1, y ∈ pc.1.set :=
  View.cover_of_tiledL (kernelRun0_C (F := F) c (grid0.coords t) (ms0_0 t) (hs0_0 t) (ms0_1 t) (hs0_1 t) (ms0_2 t) (hs0_2 t) (ms0_3 t) (hs0_3 t) scM0 (Memref.isWhole_whole _) hc0 hc1 x0 x1 x2 xs).1 S16x1024.size (by sl_kernel_rfl) y

/-- What case C leaves in the output block's staging buffer. -/
def out0_C (c : Dev nD) (t : Fin cfg0.N) (hc0 : ¬cond0_0 (grid0.coords t)) (hc1 : cond0_1 (grid0.coords t))
    (x0 : Vec F S16x256x1024 .f32) (x1 : Vec F S16x256 .f32) (x2 : Vec F S16x1 .f32) (xs : Vec F S16x1024 .f32) : Vec F S16x1024 .f32 :=
  VO0.read (Elt F) (VO0.writes (Elt F) VO0.junk (kernelRun0_C (F := F) c (grid0.coords t) (ms0_0 t) (hs0_0 t) (ms0_1 t) (hs0_1 t) (ms0_2 t) (hs0_2 t) (ms0_3 t) (hs0_3 t) scM0 (Memref.isWhole_whole _) hc0 hc1 x0 x1 x2 xs).1)

theorem scover0_C (c : Dev nD) (t : Fin cfg0.N) (hc0 : ¬cond0_0 (grid0.coords t)) (hc1 : cond0_1 (grid0.coords t))
    (x0 : Vec F S16x256x1024 .f32) (x1 : Vec F S16x256 .f32) (x2 : Vec F S16x1 .f32) (xs : Vec F S16x1024 .f32) (y : S16x1024.Idx) :
    ∃ pc ∈ (kernelRun0_C (F := F) c (grid0.coords t) (ms0_0 t) (hs0_0 t) (ms0_1 t) (hs0_1 t) (ms0_2 t) (hs0_2 t) (ms0_3 t) (hs0_3 t) scM0 (Memref.isWhole_whole _) hc0 hc1 x0 x1 x2 xs).2.1, y ∈ pc.1.set :=
  View.cover_of_tiledL (kernelRun0_C (F := F) c (grid0.coords t) (ms0_0 t) (hs0_0 t) (ms0_1 t) (hs0_1 t) (ms0_2 t) (hs0_2 t) (ms0_3 t) (hs0_3 t) scM0 (Memref.isWhole_whole _) hc0 hc1 x0 x1 x2 xs).2.1 S16x1024.size (by sl_kernel_rfl) y

/-- What case C leaves in the accumulator. -/
def sout0_C (c : Dev nD) (t : Fin cfg0.N) (hc0 : ¬cond0_0 (grid0.coords t)) (hc1 : cond0_1 (grid0.coords t))
    (x0 : Vec F S16x256x1024 .f32) (x1 : Vec F S16x256 .f32) (x2 : Vec F S16x1 .f32) (xs : Vec F S16x1024 .f32) : Vec F S16x1024 .f32 :=
  VS0.read (Elt F) (VS0.writes (Elt F) VS0.junk (kernelRun0_C (F := F) c (grid0.coords t) (ms0_0 t) (hs0_0 t) (ms0_1 t) (hs0_1 t) (ms0_2 t) (hs0_2 t) (ms0_3 t) (hs0_3 t) scM0 (Memref.isWhole_whole _) hc0 hc1 x0 x1 x2 xs).2.1)

section
variable (V : (c : Dev nD) → (b : Ref sig .tc) → Buf (Elt F) ((c : Thread nD τ).loc b))

/-! ## What the output's buffer and the accumulator hold after each point -/

/-- THE ACCUMULATION: after the body at position `n`, the output block's staging buffer and the accumulator. -/
def outsAt0 (c : Dev nD) : (n : ℕ) → n < cfg0.N → Vec F S16x1024 .f32 × Vec F S16x1024 .f32
  | 0, hn => (outIdle0, sout0_A c ⟨0, hn⟩ (c0_of ⟨0, hn⟩ (Nat.zero_mod _)) (nc1_of ⟨0, hn⟩ (by show ¬0 % 8 = 7; omega)) (iblk0 V c 0 ⟨0, hn⟩) (iblk0 V c 1 ⟨0, hn⟩))
  | n + 1, hn =>
    if h0 : (n + 1) % 8 = 0 then
      (outIdle0, sout0_A c ⟨n + 1, hn⟩ (c0_of ⟨n + 1, hn⟩ h0) (nc1_of ⟨n + 1, hn⟩ (by show ¬(n + 1) % 8 = 7; omega)) (iblk0 V c 0 ⟨n + 1, hn⟩) (iblk0 V c 1 ⟨n + 1, hn⟩))
    else if h1 : (n + 1) % 8 = 7 then
      (out0_C c ⟨n + 1, hn⟩ (nc0_of ⟨n + 1, hn⟩ h0) (c1_of ⟨n + 1, hn⟩ h1) (iblk0 V c 0 ⟨n + 1, hn⟩) (iblk0 V c 1 ⟨n + 1, hn⟩) (iblk0 V c 2 ⟨n + 1, hn⟩) (outsAt0 c n (Nat.lt_of_succ_lt hn)).2,
       sout0_C c ⟨n + 1, hn⟩ (nc0_of ⟨n + 1, hn⟩ h0) (c1_of ⟨n + 1, hn⟩ h1) (iblk0 V c 0 ⟨n + 1, hn⟩) (iblk0 V c 1 ⟨n + 1, hn⟩) (iblk0 V c 2 ⟨n + 1, hn⟩) (outsAt0 c n (Nat.lt_of_succ_lt hn)).2)
    else
      (outIdle0, sout0_B c ⟨n + 1, hn⟩ (nc0_of ⟨n + 1, hn⟩ h0) (nc1_of ⟨n + 1, hn⟩ h1) (iblk0 V c 0 ⟨n + 1, hn⟩) (iblk0 V c 1 ⟨n + 1, hn⟩) (outsAt0 c n (Nat.lt_of_succ_lt hn)).2)

theorem prev_lt (t : Fin cfg0.N) : t.val - 1 < cfg0.N := Nat.lt_of_le_of_lt (Nat.sub_le _ _) t.isLt

/-- At a point of sequence tile 0: case A's contents, from the point's blocks alone. -/
theorem outsAt0_A (c : Dev nD) (t : Fin cfg0.N) (h0 : t.val % 8 = 0) (h1 : ¬t.val % 8 = 7) :
    outsAt0 V c t.val t.isLt = (outIdle0, sout0_A c t (c0_of t h0) (nc1_of t h1) (iblk0 V c 0 t) (iblk0 V c 1 t)) := by
  obtain ⟨n, hn⟩ := t
  cases n with
  | zero => rfl
  | succ n => exact (dif_pos h0).trans rfl

/-- At a point of sequence tile 1 to 6: case B's contents, over what the point before left. -/
theorem outsAt0_B (c : Dev nD) (t : Fin cfg0.N) (h0 : ¬t.val % 8 = 0) (h1 : ¬t.val % 8 = 7) :
    outsAt0 V c t.val t.isLt = (outIdle0, sout0_B c t (nc0_of t h0) (nc1_of t h1) (iblk0 V c 0 t) (iblk0 V c 1 t) (outsAt0 V c (t.val - 1) (prev_lt t)).2) := by
  obtain ⟨n, hn⟩ := t
  cases n with
  | zero => exact absurd (Nat.zero_mod _) h0
  | succ n => exact (dif_neg h0).trans ((dif_neg h1).trans rfl)

/-- At a point of sequence tile 7: case C's contents, over what the point before left. -/
theorem outsAt0_C (c : Dev nD) (t : Fin cfg0.N) (h0 : ¬t.val % 8 = 0) (h1 : t.val % 8 = 7) :
    outsAt0 V c t.val t.isLt = (out0_C c t (nc0_of t h0) (c1_of t h1) (iblk0 V c 0 t) (iblk0 V c 1 t) (iblk0 V c 2 t) (outsAt0 V c (t.val - 1) (prev_lt t)).2,
      sout0_C c t (nc0_of t h0) (c1_of t h1) (iblk0 V c 0 t) (iblk0 V c 1 t) (iblk0 V c 2 t) (outsAt0 V c (t.val - 1) (prev_lt t)).2) := by
  obtain ⟨n, hn⟩ := t
  cases n with
  | zero => exact absurd (Nat.zero_mod _) h0
  | succ n => exact (dif_neg h0).trans ((dif_pos h1).trans rfl)

/-! ## The region invariant -/

/-- Before position `n`: before the first point the class's own; afterwards the accumulator at what the point before
    left, the other scoped buffers at some contents, and the generator register at some state. -/
def PhiS (c : Dev nD) : (n : ℕ) → n ≤ cfg0.N → sProp 𝕄
  | 0, _ => Pipeline.ΦA spec0 c
  | n + 1, hn => iprop(iprop(owns (c : Thread nD τ) scM0 fullShare ((outsAt0 V c n hn).2) ∗ scRest0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0 fullShare ((outsAt0 V c n hn).2) ∗ scRest0 c) ∗ (∃ r, prngReg c r)) := rfl

theorem PhiS_pos (c : Dev nD) (n : ℕ) (h : n ≤ cfg0.N) (hz : n ≠ 0) :
    PhiS V c n h = iprop(iprop(owns (c : Thread nD τ) scM0 fullShare ((outsAt0 V c (n - 1) (by omega)).2) ∗ scRest0 c) ∗ (∃ r, prngReg c r)) := by
  cases n with
  | zero => exact absurd rfl hz
  | succ n => rfl

/-! ## The proof data -/

/-- The proof data of the reduction call on core `c`: the arrays as the region finds them; after the body at point
    `t` each input's buffer at its block and the output's at `outsAt0`'s first component; the tracking invariant;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t := before0_0_of V (dat0 V c) (A_eq0 V c 0) (after0_0 V c) t d
theorem before0_1 (c : Dev nD) (t : Fin cfg0.N) (d) : (dat0 V c).before 1 t d = iblk0 V c 1 t := before0_1_of V (dat0 V c) (A_eq0 V c 1) (after0_1 V c) t d
theorem before0_2 (c : Dev nD) (t : Fin cfg0.N) (d) : (dat0 V c).before 2 t d = iblk0 V c 2 t := before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

set_option maxHeartbeats 4800000 in
/-- The body at any point. The inputs' memrefs hold their blocks; the point's index modulo 8 says which case it is in;
    the invariant hands the body the accumulator at what the point before left (at anything before the first point)
    and takes it back at this point's contents; where the sequence tile is not 7 the output's buffer is handed back as
    found; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2]
  by_cases h0 : t.val % 8 = 0
  · have h1 : ¬t.val % 8 = 7 := by omega
    rw [Dat.leavesExact_idle (dat0 V c) 3 t (idleAt0_3 t (nc1_of t h1)) (noFlush0_3 t (nc1_of t h1))]
    rw [outsAt0_A V c t h0 h1]
    unfold sout0_A; (try dsimp only)
    by_cases hz : t.val = 0
    · rw [PhiS_castSucc V c t, PhiS_zero V c _ _ hz, PhiA0_split]
      iintro ⟨⟨⟨HS, HR⟩, Hg⟩, Ho, ⟨%d0, H0⟩, ⟨%d1, H1⟩, ⟨%d2, H2⟩, ⟨%d3, H3⟩⟩
      iapply ((kernelRun0_A c (grid0.coords t) _ _ _ _ _ _ _ _ _ _ (c0_of t h0) (nc1_of t h1) (iblk0 V c 0 t) (iblk0 V c 1 t)).2 Set.univ _)
      isplitl [H0]; · iexact H0
      isplitl [H1]; · iexact H1
      isplitl [HS]; · iexact HS
      iintro ⟨H0, H1, ⟨%es, HS⟩⟩
      isplitl [HS HR Hg]
      · isplitl [HS HR]
        · isplitl [HS]
          · unfold owns; iexists _; isplitr
            swap; · iexact HS
            ipureintro; exact View.read_writes_of_cover _ _ _ _ _ (scover0_A c t _ _ _ _)
          iexact HR
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply ((kernelRun0_A c (grid0.coords t) _ _ _ _ _ _ _ _ _ _ (c0_of t h0) (nc1_of t h1) (iblk0 V c 0 t) (iblk0 V c 1 t)).2 Set.univ _)
      isplitl [H0]; · iexact H0
      isplitl [H1]; · iexact H1
      isplitl [HS]; · iexists _; iexact HS
      iintro ⟨H0, H1, ⟨%es, HS⟩⟩
      isplitl [HS HR Hg]
      · isplitl [HS HR]
        · isplitl [HS]
          · unfold owns; iexists _; isplitr
            swap; · iexact HS
            ipureintro; exact View.read_writes_of_cover _ _ _ _ _ (scover0_A c t _ _ _ _)
          iexact HR
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 8 = 7
    · rw [show (dat0 V c).leavesExact 3 t = owns (c : Thread nD τ) (ms0_3 t) fullShare ((dat0 V c).after 3 t) from by
        unfold Dat.leavesExact; rw [liveAt0_3 t (c1_of t h1)], after0_3]
      rw [outsAt0_C V c t h0 h1]
      unfold out0_C sout0_C; (try dsimp only)
      rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply ((kernelRun0_C c (grid0.coords t) _ _ _ _ _ _ _ _ _ _ (nc0_of t h0) (c1_of t h1) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HR Hg]
      · isplitl [HS HR]
        · isplitl [HS]
          · unfold owns; iexists _; isplitr
            swap; · iexact HS
            ipureintro; exact View.read_writes_of_cover _ _ _ _ _ (scover0_C c t _ _ _ _ _ _)
          iexact HR
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C c t _ _ _ _ _ _)
    · rw [Dat.leavesExact_idle (dat0 V c) 3 t (idleAt0_3 t (nc1_of t h1)) (noFlush0_3 t (nc1_of t h1))]
      rw [outsAt0_B V c t h0 h1]
      unfold sout0_B; (try dsimp only)
      rw [PhiS_castSucc V c t, PhiS_pos V c _ _ hz]
      iintro ⟨⟨⟨HS, HR⟩, Hg⟩, Ho, ⟨%d0, H0⟩, ⟨%d1, H1⟩, ⟨%d2, H2⟩, ⟨%d3, H3⟩⟩
      iapply ((kernelRun0_B c (grid0.coords t) _ _ _ _ _ _ _ _ _ _ (nc0_of t h0) (nc1_of t h1) (iblk0 V c 0 t) (iblk0 V c 1 t) _).2 Set.univ _)
      isplitl [H0]; · iexact H0
      isplitl [H1]; · iexact H1
      isplitl [HS]; · iexact HS
      iintro ⟨H0, H1, ⟨%es, HS⟩⟩
      isplitl [HS HR Hg]
      · isplitl [HS HR]
        · isplitl [HS]
          · unfold owns; iexists _; isplitr
            swap; · iexact HS
            ipureintro; exact View.read_writes_of_cover _ _ _ _ _ (scover0_B c t _ _ _ _ _)
          iexact HR
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the accumulator's named contents forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_split]
  iintro ⟨⟨HS, HR⟩, Hg⟩
  isplitl [HS HR]
  · isplitl [HS]
    · iexists _; iexact HS
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 32 := N_0; omega)

end

end Cert.KernelIdeal.Hand

end
-- ==== Proof.KI.R1.lean ====
/-
  The MLP call (the second kernel region): its body obligation, at any float instance and for any contents `V` of the
  buffers when the region is entered.

  The grid has one point and every window's block is its whole array: the pooled features (64 × 1024), the first
  layer's weights (300 × 1024) and bias (300), the second layer's weights (2 × 300) and bias (2) are loaded whole, and
  one store writes the 64 × 2 result: the second product, of the hyperbolic tangent of the first product plus its bias,
  plus the second bias. Nothing is carried between points, so the region invariant is the class's own.
-/
import proofs.«169118_j75849122448044_1_alg».proof.Proof.Gen.KernelIdeal.Launch
import proofs.«169118_j75849122448044_1_alg».proof.Proof.Gen.KernelIdeal.Skeleton
import proofs.«169118_j75849122448044_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-! ## The windows' blocks -/

/-- Window `w`'s block at the point, read off its array as the region finds it: the whole array. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's staging buffer holds its block where the body is called. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's staging buffer holds its block where the body is called. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's staging buffer holds its block where the body is called. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's staging buffer holds its block where the body is called. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's staging buffer holds its block where the body is called. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

end

/-! ## The body's accesses: each buffer whole -/

abbrev rF : Rect S64x1024 := Rect.unit (s := S64x1024) ![0, 0] S64x1024.size inb_S64x1024_S64x1024_0_0
abbrev rW1 : Rect S300x1024 := Rect.unit (s := S300x1024) ![0, 0] S300x1024.size inb_S300x1024_S300x1024_0_0
abbrev rB1 : Rect S300 := Rect.unit (s := S300) ![0] S300.size inb_S300_S300_0
abbrev rW2 : Rect S2x300 := Rect.unit (s := S2x300) ![0, 0] S2x300.size inb_S2x300_S2x300_0_0
abbrev rB2 : Rect S2 := Rect.unit (s := S2) ![0] S2.size inb_S2_S2_0
abbrev rO : Rect S64x2 := Rect.unit (s := S64x2) ![0, 0] S64x2.size inb_S64x2_S64x2_0_0

/-! ## What the body leaves in the output window's buffer -/

/-- The output's staging buffer after the body, from the five input blocks: its one store. -/
def out1_5 (x0 : Vec F S64x1024 .f32) (x1 : Vec F S300x1024 .f32) (x2 : Vec F S300 .f32) (x3 : Vec F S2x300 .f32) (x4 : Vec F S2 .f32) : Vec F S64x2 .f32 :=
  View.canon [⟨rO, k1_pay1 (View.ld x0 rF) (View.ld x1 rW1) (View.ld x2 rB1) (View.ld x3 rW2) (View.ld x4 rB2)⟩]

/-- The one store covers the buffer. -/
theorem cover1_5 (p0 : Vec F S64x2 .f32) (y : S64x2.Idx) :
    ∃ pc ∈ ([⟨rO, p0⟩] : List (View.Piece (Elt F) S64x2 .f32)), y ∈ pc.1.set :=
  View.cover_of_tiled [⟨rO, p0⟩] S64x2.size (by rfl) y

/-! ## The body's triple -/

set_option maxHeartbeats 1000000 in
/-- The body on whole staging memrefs, the inputs' at contents `xW` and the output's at anything, runs to the
    continuation holding the inputs' as they were and the output's at `out1_5` of the inputs'. -/
theorem sound_kernel1 (c : Dev nD) (E : Set ℕ) (i : grid1.Coords)
    (arg1 : Memref sig .tc .vmem S64x1024 .f32) (harg1 : arg1.IsWhole) (arg2 : Memref sig .tc .vmem S300x1024 .f32) (harg2 : arg2.IsWhole)
    (arg3 : Memref sig .tc .vmem S300 .f32) (harg3 : arg3.IsWhole) (arg4 : Memref sig .tc .vmem S2x300 .f32) (harg4 : arg4.IsWhole)
    (arg5 : Memref sig .tc .vmem S2 .f32) (harg5 : arg5.IsWhole) (arg6 : Memref sig .tc .vmem S64x2 .f32) (harg6 : arg6.IsWhole)
    (x0 : Vec F S64x1024 .f32) (x1 : Vec F S300x1024 .f32) (x2 : Vec F S300 .f32) (x3 : Vec F S2x300 .f32) (x4 : Vec F S2 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__mlp_kernel i arg1 harg1 arg2 harg2 arg3 harg3 arg4 harg4 arg5 harg5 arg6 harg6) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

section
variable (V : (c : Dev nD) → (b : Ref sig .tc) → Buf (Elt F) ((c : Thread nD τ).loc b))

/-! ## The pipeline's proof data -/

/-- The proof data of the MLP call on core `c`: the arrays as the region finds them; after the body each input's
    buffer at its block and the output's at `out1_5` of the input blocks; the class invariant; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t := before1_0_of V (dat1 V c) (A_eq1 V c 0) (after1_0 V c) t d
theorem before1_1 (c : Dev nD) (t : Fin cfg1.N) (d) : (dat1 V c).before 1 t d = iblk1 V c 1 t := before1_1_of V (dat1 V c) (A_eq1 V c 1) (after1_1 V c) t d
theorem before1_2 (c : Dev nD) (t : Fin cfg1.N) (d) : (dat1 V c).before 2 t d = iblk1 V c 2 t := before1_2_of V (dat1 V c) (A_eq1 V c 2) (after1_2 V c) t d
theorem before1_3 (c : Dev nD) (t : Fin cfg1.N) (d) : (dat1 V c).before 3 t d = iblk1 V c 3 t := before1_3_of V (dat1 V c) (A_eq1 V c 3) (after1_3 V c) t d
theorem before1_4 (c : Dev nD) (t : Fin cfg1.N) (d) : (dat1 V c).before 4 t d = iblk1 V c 4 t := before1_4_of V (dat1 V c) (A_eq1 V c 4) (after1_4 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at the point: the inputs' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KI.Regs.lean ====
/-
  The two kernel regions as segments of the program's run, and the program's frame.

  Between two items of the program every unscoped buffer of the core is held whole at known contents: the launch
  memory, then what each stretch of host operations computes, then — after the reduction call — the same with the
  pooled-feature array at what the call's write-backs leave, and — after the MLP call — with the result array at
  what that call's write-back leaves. Each region takes its arrays out of the unscoped buffers at its entry, runs its
  pipeline against its proof data, and puts them back at the exit contents; the generator register goes into the
  region invariant and comes out; nothing is owed and no kernel has a semaphore of its own. For the reduction call the
  invariant after the last point still names the accumulator's contents, and forgets them to give the class invariant
  back. Given the two records the generated conditional frame concludes: every weakly fair execution terminates and
  leaves the seven argument arrays as launched.
-/
import proofs.«169118_j75849122448044_1_alg».proof.Proof.KI.Frame0
import proofs.«169118_j75849122448044_1_alg».proof.Proof.KI.R1
import proofs.«169118_j75849122448044_1_alg».proof.Proof.Gen.KernelIdeal.Regions
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The buffers' contents at the regions' boundaries -/

/-- What the reduction call is entered from, read at the TensorCore's references. -/
abbrev Vr5 : (c : Dev nD) → (b : Ref sig .tc) → Buf (Elt F) ((c : Thread nD τ).loc b) := fun c b => V5 m c b

/-- At the reduction call's exit: its arrays at what the pipeline leaves, every other buffer as entered. -/
def W6 (c : Dev nD) : Valuation τ sig (Elt F) :=
  Pipeline.withArrays spec0 c (V5 m c) fun w => (dat0 (Vr5 m) c).arrAt w cfg0.N

/-- The regions' leavings, first stage: the pooled-feature array after the reduction call. -/
def outsA : Outs (F := F) := fun _ r c => W6 m c (Proc.devRef .tc r)

/-- What the MLP call is entered from, read at the TensorCore's references. -/
abbrev Vr6 : (c : Dev nD) → (b : Ref sig .tc) → Buf (Elt F) ((c : Thread nD τ).loc b) := fun c b => V6 m (outsA m) c b

/-- At the MLP call's exit: its arrays at what the pipeline leaves, every other buffer as entered. -/
def W7 (c : Dev nD) : Valuation τ sig (Elt F) :=
  Pipeline.withArrays spec1 c (V6 m (outsA m) c) fun w => (dat1 (Vr6 m) c).arrAt w cfg1.N

/-- The regions' leavings: after item 6 (the MLP call) the second exit's, before it the first's. -/
def outsB : Outs (F := F) := fun J r c => if J = 7 then W7 m c (Proc.devRef .tc r) else W6 m c (Proc.devRef .tc r)

/-- The contents between the two calls do not depend on the second call's leavings. -/
theorem V6_B (c : Dev nD) : V6 m (outsB m) c = V6 m (outsA m) c := rfl

/-- What the program ends at, read at the TensorCore's references. -/
abbrev Vr7 : (c : Dev nD) → (b : Ref sig .tc) → Buf (Elt F) ((c : Thread nD τ).loc b) := fun c b => V7 m (outsB m) c b

theorem W6_arr (c : Dev nD) (w : Fin cfg0.W) :
    W6 m c (Proc.devRef .tc (Pipeline.arrRef spec0 w)) = (dat0 (Vr5 m) c).arrAt w cfg0.N := by
  unfold W6; exact Pipeline.withArrays_arr spec0 launch0.win.arr_inj c _ _ w

theorem W7_arr (c : Dev nD) (w : Fin cfg1.W) :
    W7 m c (Proc.devRef .tc (Pipeline.arrRef spec1 w)) = (dat1 (Vr6 m) c).arrAt w cfg1.N := by
  unfold W7; exact Pipeline.withArrays_arr spec1 launch1.win.arr_inj c _ _ w

/-- The pooled-feature array between the calls is what the reduction call's write-backs leave. -/
theorem Vr6_v16 (c : Dev nD) : Vr6 m c main_v16 = (dat0 (Vr5 m) c).arrAt 3 cfg0.N := by
  show Function.update (V5 m c) (Proc.devRef .tc main_v16) (outsA m 6 main_v16 c) (Proc.devRef .tc main_v16) = _
  rw [Function.update_self]; exact W6_arr m c 3

/-- The result array at the end is what the MLP call's write-back leaves. -/
theorem Vr7_v17 (c : Dev nD) : Vr7 m c main_v17 = (dat1 (Vr6 m) c).arrAt 5 cfg1.N := by
  show Function.update (V6 m (outsB m) c) (Proc.devRef .tc main_v17) (outsB m 7 main_v17 c) (Proc.devRef .tc main_v17) = _
  rw [Function.update_self]; exact W7_arr m c 5

/-- At the reduction call's exit each of its arrays holds what the pipeline leaves: an input as entered, the output
    its write-backs. -/
theorem hF0 (c : Dev nD) (w : Fin cfg0.W) : (dat0 (Vr5 m) c).arrAt w cfg0.N = Vr6 m c (Pipeline.arrRef spec0 w) := by
  match w with
  | ⟨0, _⟩ => exact ((dat0 (Vr5 m) c).arrAt_in 0 rfl _).trans ((A_eq0 (Vr5 m) c 0).trans (V6_of m (outsA m) c _ (by decide)).symm)
  | ⟨1, _⟩ => exact ((dat0 (Vr5 m) c).arrAt_in 1 rfl _).trans ((A_eq0 (Vr5 m) c 1).trans (V6_of m (outsA m) c _ (by decide)).symm)
  | ⟨2, _⟩ => exact ((dat0 (Vr5 m) c).arrAt_in 2 rfl _).trans ((A_eq0 (Vr5 m) c 2).trans (V6_of m (outsA m) c _ (by decide)).symm)
  | ⟨3, _⟩ => exact (Vr6_v16 m c).symm

/-- and every other buffer what it held at entry. -/
theorem hrest0 (c : Dev nD) : ∀ b, b ∉ Finset.univ.image (Pipeline.arrRef spec0) → Vr6 m c b = Vr5 m c b :=
  fun b hb => V6_of m (outsA m) c b fun h => hb (Finset.mem_image.mpr ⟨3, Finset.mem_univ _, (List.mem_singleton.mp h).symm⟩)

theorem hF1 (c : Dev nD) (w : Fin cfg1.W) : (dat1 (Vr6 m) c).arrAt w cfg1.N = Vr7 m c (Pipeline.arrRef spec1 w) := by
  match w with
  | ⟨0, _⟩ => exact ((dat1 (Vr6 m) c).arrAt_in 0 rfl _).trans ((A_eq1 (Vr6 m) c 0).trans (V7_of m (outsB m) c _ (by decide)).symm)
  | ⟨1, _⟩ => exact ((dat1 (Vr6 m) c).arrAt_in 1 rfl _).trans ((A_eq1 (Vr6 m) c 1).trans (V7_of m (outsB m) c _ (by decide)).symm)
  | ⟨2, _⟩ => exact ((dat1 (Vr6 m) c).arrAt_in 2 rfl _).trans ((A_eq1 (Vr6 m) c 2).trans (V7_of m (outsB m) c _ (by decide)).symm)
  | ⟨3, _⟩ => exact ((dat1 (Vr6 m) c).arrAt_in 3 rfl _).trans ((A_eq1 (Vr6 m) c 3).trans (V7_of m (outsB m) c _ (by decide)).symm)
  | ⟨4, _⟩ => exact ((dat1 (Vr6 m) c).arrAt_in 4 rfl _).trans ((A_eq1 (Vr6 m) c 4).trans (V7_of m (outsB m) c _ (by decide)).symm)
  | ⟨5, _⟩ => exact (Vr7_v17 m c).symm

theorem hrest1 (c : Dev nD) : ∀ b, b ∉ Finset.univ.image (Pipeline.arrRef spec1) → Vr7 m c b = Vr6 m c b :=
  fun b hb => V7_of m (outsB m) c b fun h => hb (Finset.mem_image.mpr ⟨5, Finset.mem_univ _, (List.mem_singleton.mp h).symm⟩)

/-! ## The proof data family and the thread state -/

/-- Both pipelines' proof data, each at its region's entry contents. -/
def pdats : (p : Fin 2) → (c : Dev nD) → Dat τ (Elt F) Unit ℕ (UR sig nD τ) ℕ (cfgs p) c
  | ⟨0, _⟩ => fun c => dat0 (Vr5 m) c
  | ⟨1, _⟩ => fun c => dat1 (Vr6 m) c

abbrev 𝒱₀ : Variants := Variants.none
abbrev L : GSem nD τ sig → Finset Unit := fun _ => ∅
abbrev lv : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R (F := F) c

/-! ## The regions as segments -/

set_option backward.isDefEq.respectTransparency.types false in
/-- The reduction call: entered from every unscoped buffer at the contents after the host stretches, left with the
    pooled-feature array at what its write-backs leave. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr5 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (V6 m (outsA m) c) ∗ R c)
  X c := iprop(∃ r, prngReg c r)
  Y c := iprop(∃ r, prngReg c r)
  Z c := Pipeline.unscopedRest (Ix := Unit) (Name := ℕ) (U := UR sig nD τ) (Lvl := ℕ) spec0 c (Vr5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    refine (show (pdats m 0 c).Φ (Fin.last _) ⊢ Pipeline.ΦA spec0 c from hout0 (Vr5 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr5 m c) (Vr6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The MLP call: entered from the contents between the calls, left with the result array at what its write-back
    leaves. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr6 m) c).loose
  hwaits := Pipeline.hwaits_of_owed_zero _ _ _ _ L lv 1 fun _ _ => rfl
  pre c := iprop(StableHlo.held (c : Thread nD τ) (Pipeline.ucRefs τ sig) (V6 m (outsA m) c) ∗ R c)
  post c := iprop(StableHlo.held (c : Thread nD τ) (Pipeline.ucRefs τ sig) (V7 m (outsB m) c) ∗ R c)
  X c := iprop(∃ r, prngReg c r)
  Y c := iprop(∃ r, prngReg c r)
  Z c := Pipeline.unscopedRest (Ix := Unit) (Name := ℕ) (U := UR sig nD τ) (Lvl := ℕ) spec1 c (Vr6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr6 m c) (Vr7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch's ghost state and the frame -/

theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ fun _ : Dev nD => (BI.emp : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- At launch every core's generator register and its empty dues make the rest state. -/
theorem hE0 (ρ : Dev nD → PrngReg) :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  have hpt : ∀ c : Dev nD, (iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)) : sProp 𝕄)
      ⊢ (E (F := F) 0 c : sProp 𝕄) := fun c => by
    iintro ⟨-, HO, -, Hp, -⟩
    isplitl [Hp]; · iexists _; iexact Hp
    iexists ∅; iexact HO
  iintro ⟨H, -⟩
  imodintro
  iapply (show (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
      ⊢ (bigSep Finset.univ (E (F := F) 0) : sProp 𝕄) from bigSep_mono fun c _ => hpt c)
  iexact H

set_option backward.isDefEq.respectTransparency.types false in
/-- THE FRAME, at any float instance: from any memory with zero counters every weakly fair execution of the program
    terminates, nothing faulting, and every final state has the seven argument arrays as launched. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_cond m (EP := emb₁) (ι := ()) (𝒱₀ := 𝒱₀) (L := L) (lv := lv) (hL := fun _ _ => rfl) (ρ := ρ) (outs := outsB m) (pdats := pdats m)
    (O₀ := 0) (G := fun _ => iprop(emp)) (u₀ := initOf (Pipeline.cells cfgs cellOf_inj) (Pipeline.launchToks cfgs cellOf_inj)) (hu₀ := hu₀)
    (E := E) (hE0 := hE0 ρ) (hE2 := fun c => by iintro ⟨-, H⟩; iexact H)
    (R0 := reg0 m) (hpre0 := fun c => .rfl) (hpost0 := fun c => by rw [V6_B]; exact .rfl)
    (R1 := reg1 m) (hpre1 := fun c => by rw [V6_B]; exact .rfl) (hpost1 := fun c => .rfl)

end Cert.KernelIdeal.Hand

end
-- ==== Proof.KI.RunV.lean ====
/-
  The program's run with its result named: every weakly fair execution terminates, the seven argument arrays end as
  launched, and the result array ends at what the MLP call's write-back leaves.

  The run is the same launch over the same segments as the frame's — the five host stretches, the reduction call, the
  MLP call, chained through the contents of the unscoped buffers between them —; only the last step differs: the
  final state is read against the last contents at the result array as well as at the arguments.
-/
import proofs.«169118_j75849122448044_1_alg».proof.Proof.KI.Regs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ)

set_option backward.isDefEq.respectTransparency.types false in
/-- The run with the result named. -/
theorem run_value (ρ : Dev nD → PrngReg) : θ_run defs (onTc (τ := τ) (main (F := F))) ⟨m, fun _ => 0, ρ⟩ (fun r => ∀ c : Dev nD,
      r.2.mem ((c.tc : Thread nD τ).loc main_v17) = Vr7 m c main_v17
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine Pipeline.θ_run_regions_kit_dev (pcfgs (F := F)) adm (pdats m) () cellOf_inj emb₁ defs₀ 𝒱₀ L lv m ρ main
    (segs m 𝒱₀ L lv E () (pdats m) (reg0 m) (reg1 m))
    (fun c Q => by
      rewrite [main_chain c, Seg.run_eq_chain,
        show (segs m 𝒱₀ L lv E () (pdats m) (reg0 m) (reg1 m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          Prog.lift (.customCall (Pipeline.entry 1) ()) ] from rfl]
      exact .rfl)
    (fun c => by simp only [segs, Seg.pipes_host, Seg.pipes_region, Seg.pipes_nil]; decide) (0 : Dev nD → CellTallies nD τ sig Unit) (fun _ _ => rfl) (fun _ => iprop(emp))
    (initOf (Pipeline.cells cfgs cellOf_inj) (Pipeline.launchToks cfgs cellOf_inj)) hu₀
    (T₀ := fun c => iprop(StableHlo.held (c : Thread nD τ) (Pipeline.ucRefs τ sig) (V0 m c) ∗ E (F := F) 0 c))
    (Tₙ := fun c => StableHlo.held (c : Thread nD τ) (Pipeline.ucRefs τ sig) (V7 m (outsB m) c))
    (hch := fun c => ⟨.rfl, .rfl, .rfl, .rfl, .rfl, .rfl,
      (show (reg0 m).post c ⊢ (reg1 m).pre c from .rfl),
      (show (reg1 m).post c ⊢ iprop(StableHlo.held (c : Thread nD τ) (Pipeline.ucRefs τ sig) (V7 m (outsB m) c) ∗ ∃ W, owes (c : Thread nD τ) (0 : CellTallies nD τ sig Unit) W) from
        sep_mono .rfl (by iintro ⟨-, H⟩; iexact H))⟩)
    (hinit := ?_)
    (QY := fun c s => s.mem ((c.tc : Thread nD τ).loc main_v17) = Vr7 m c main_v17 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6))
    (hfin := fun c s' => ?_) (hQ := fun _ h => h)
  · -- the launch: the unscoped buffers are held at the launch contents; the rest makes the rest state on every core
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c ∗ prngReg c (ρ c) ∗ (BI.emp : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄)))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    have hjoin : (iprop((bigSep Finset.univ fun c : Dev nD => StableHlo.held (c : Thread nD τ) (Pipeline.ucRefs τ sig) (V0 m c)) ∗ bigSep Finset.univ (E (F := F) 0)) : sProp 𝕄)
        ⊢ bigSep Finset.univ fun c : Dev nD => iprop(StableHlo.held (c : Thread nD τ) (Pipeline.ucRefs τ sig) (V0 m c) ∗ E (F := F) 0 c) :=
      Entails.of_eq (bigSep_sep' Finset.univ (fun c : Dev nD => StableHlo.held (c : Thread nD τ) (Pipeline.ucRefs τ sig) (V0 m c)) (E (F := F) 0)).symm
    iintro ⟨H, Hla⟩
    ihave H' := hsplit $$ H
    icases H' with ⟨Hh, Hr⟩
    imod (hE0 (F := F) ρ) $$ [Hr Hla] with HE
    · isplitl [Hr]; · iexact Hr
      iexact Hla
    imodintro
    iapply hjoin
    isplitl [Hh]; · iexact Hh
    iexact HE
  · -- the end: the result's and each argument's buffer read off the last contents
    unfold StableHlo.held
    iintro ⟨Hh, HSI⟩
    ihave Hr := (pointsTo_read_all (Pipeline.ucRefs τ sig) (fun b => ((c : Thread nD τ).1, b)) (V7 m (outsB m) c) s') $$ [Hh HSI]
    · isplitl [Hh] <;> iassumption
    icases Hr with ⟨%h, HSI⟩
    imodintro
    isplitr
    · ipureintro
      exact ⟨h (Proc.devRef .tc main_v17) (Finset.mem_filter.mpr ⟨StableHlo.devRef_mem_tcRefs main_v17, by decide⟩),
        (h (Proc.devRef .tc main_arg0) (Finset.mem_filter.mpr ⟨StableHlo.devRef_mem_tcRefs main_arg0, by decide⟩)).trans (V7_main_arg0 m (outsB m) c),
        (h (Proc.devRef .tc main_arg1) (Finset.mem_filter.mpr ⟨StableHlo.devRef_mem_tcRefs main_arg1, by decide⟩)).trans (V7_main_arg1 m (outsB m) c),
        (h (Proc.devRef .tc main_arg2) (Finset.mem_filter.mpr ⟨StableHlo.devRef_mem_tcRefs main_arg2, by decide⟩)).trans (V7_main_arg2 m (outsB m) c),
        (h (Proc.devRef .tc main_arg3) (Finset.mem_filter.mpr ⟨StableHlo.devRef_mem_tcRefs main_arg3, by decide⟩)).trans (V7_main_arg3 m (outsB m) c),
        (h (Proc.devRef .tc main_arg4) (Finset.mem_filter.mpr ⟨StableHlo.devRef_mem_tcRefs main_arg4, by decide⟩)).trans (V7_main_arg4 m (outsB m) c),
        (h (Proc.devRef .tc main_arg5) (Finset.mem_filter.mpr ⟨StableHlo.devRef_mem_tcRefs main_arg5, by decide⟩)).trans (V7_main_arg5 m (outsB m) c),
        (h (Proc.devRef .tc main_arg6) (Finset.mem_filter.mpr ⟨StableHlo.devRef_mem_tcRefs main_arg6, by decide⟩)).trans (V7_main_arg6 m (outsB m) c)⟩
    · iexact HSI

end Cert.KernelIdeal.Hand

end
-- ==== Proof.KI.V0p.lean ====
/-
  The reduction call's body, read as values. At any float instance: what each of the three control cases leaves in the
  16 × 1024 accumulator (and, at sequence tile 7, in the output block) is the payload term of its covering store, over
  the blocks the case found. At the ideal values, those terms at an index (p, q): the reset stores 0; one point's update
  is what the accumulator held plus the sum over the 256 sequence positions s of activation (p, s, q) × mask (p, s); the
  stored quotient is the accumulator at (p, q) divided by the end-index column at (p, 0).
-/
import proofs.«169118_j75849122448044_1_alg».proof.Proof.KI.Frame0
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

/-- The origin of a rank-2 rectangle is the constant-zero offset, -/
private theorem hz2 : (![0, 0] : Fin 2 → Nat) = fun _ => 0 := funext fun a => by fin_cases a <;> rfl
/-- and so is the origin of a rank-3 rectangle. -/
private theorem hz3 : (![0, 0, 0] : Fin 3 → Nat) = fun _ => 0 := funext fun a => by fin_cases a <;> rfl

section
variable {F : FTy → Type} [FloatOps F]

theorem sout0_A_eq (c : Dev nD) (t : Fin cfg0.N) (hc0 : cond0_0 (grid0.coords t)) (hc1 : ¬cond0_1 (grid0.coords t))
    (x0 : Vec F S16x256x1024 .f32) (x1 : Vec F S16x256 .f32) :
    sout0_A (F := F) c t hc0 hc1 x0 x1 = k0_pay2 x0 x1 (k0_pay1 (F := F)) := by
  unfold sout0_A
  rw [View.read_writes_eq_canon _ _ _ (scover0_A c t hc0 hc1 x0 x1)]
  unfold kernelRun0_A
  dsimp only
  sl_unfold_words
  rw [View.canon_cons_unit_zero (S := S16x1024) hz2, View.readCov_unit_zero (S := S16x1024) _ hz2]
  simp only [View.readAt_eq_ld, (hs0_0 t).read_unread, (hs0_1 t).read_unread,
    View.ld_unit_zero (S := S16x256x1024) hz3, View.ld_unit_zero (S := S16x256) hz2]

theorem sout0_B_eq (c : Dev nD) (t : Fin cfg0.N) (hc0 : ¬cond0_0 (grid0.coords t)) (hc1 : ¬cond0_1 (grid0.coords t))
    (x0 : Vec F S16x256x1024 .f32) (x1 : Vec F S16x256 .f32) (xs : Vec F S16x1024 .f32) :
    sout0_B (F := F) c t hc0 hc1 x0 x1 xs = k0_pay2 x0 x1 xs := by
  unfold sout0_B
  rw [View.read_writes_eq_canon _ _ _ (scover0_B c t hc0 hc1 x0 x1 xs)]
  unfold kernelRun0_B
  dsimp only
  sl_unfold_words
  rw [View.canon_unit_zero hz2]
  simp only [View.readAt_eq_ld, (hs0_0 t).read_unread, (hs0_1 t).read_unread, (Memref.isWhole_whole cc0_scratch0).read_unread,
    View.ld_unit_zero (S := S16x256x1024) hz3, View.ld_unit_zero (S := S16x256) hz2, View.ld_unit_zero (S := S16x1024) hz2]

theorem sout0_C_eq (c : Dev nD) (t : Fin cfg0.N) (hc0 : ¬cond0_0 (grid0.coords t)) (hc1 : cond0_1 (grid0.coords t))
    (x0 : Vec F S16x256x1024 .f32) (x1 : Vec F S16x256 .f32) (x2 : Vec F S16x1 .f32) (xs : Vec F S16x1024 .f32) :
    sout0_C (F := F) c t hc0 hc1 x0 x1 x2 xs = k0_pay2 x0 x1 xs := by
  unfold sout0_C
  rw [View.read_writes_eq_canon _ _ _ (scover0_C c t hc0 hc1 x0 x1 x2 xs)]
  unfold kernelRun0_C
  dsimp only
  sl_unfold_words
  rw [View.canon_unit_zero hz2]
  simp only [View.readAt_eq_ld, (hs0_0 t).read_unread, (hs0_1 t).read_unread, (Memref.isWhole_whole cc0_scratch0).read_unread,
    View.ld_unit_zero (S := S16x256x1024) hz3, View.ld_unit_zero (S := S16x256) hz2, View.ld_unit_zero (S := S16x1024) hz2]

theorem out0_C_eq (c : Dev nD) (t : Fin cfg0.N) (hc0 : ¬cond0_0 (grid0.coords t)) (hc1 : cond0_1 (grid0.coords t))
    (x0 : Vec F S16x256x1024 .f32) (x1 : Vec F S16x256 .f32) (x2 : Vec F S16x1 .f32) (xs : Vec F S16x1024 .f32) :
    out0_C (F := F) c t hc0 hc1 x0 x1 x2 xs = k0_pay3 (k0_pay2 x0 x1 xs) x2 := by
  unfold out0_C
  rw [View.read_writes_eq_canon _ _ _ (cover0_C c t hc0 hc1 x0 x1 x2 xs)]
  unfold kernelRun0_C
  dsimp only
  sl_unfold_words
  rw [View.canon_unit_zero hz2]
  simp only [View.readCov_unit_zero (S := S16x1024) _ hz2, View.readAt_eq_ld, (hs0_2 t).read_unread,
    View.ld_unit_zero (S := S16x1) hz2, (hs0_0 t).read_unread, (hs0_1 t).read_unread, (Memref.isWhole_whole cc0_scratch0).read_unread,
    View.ld_unit_zero (S := S16x256x1024) hz3, View.ld_unit_zero (S := S16x256) hz2, View.ld_unit_zero (S := S16x1024) hz2]

end

/-! ## Three layout forms at the body's shapes, read at an index given by coordinates -/

section LayoutForms
variable {α : Type}

/-- A `[16, 256]` array cast to `[16, 256, 1]` reads, at `(p, s, u)`, the operand at `(p, s)`: the same row-major
    position, the unit coordinate being 0. -/
private theorem shapeCast_trailingUnit_apply (x : S16x256.Idx → α) (h : S16x256.ShapeCasts S16x256x1)
    (p : Fin 16) (s : Fin 256) (u : Fin 1) : shapeCast S16x256x1 x h (ix3 p s u) = x (ix2 p s) :=
  shapeCast_apply x h _ _ (by
    have hu : u.val = 0 := by omega
    rw [Shape.rowMajor_val_two, Shape.rowMajor_val_three]
    show p.val * 256 + s.val = (p.val * 256 + s.val) * 1 + u.val
    omega)

/-- A `[16, 256, 1]` array broadcast along its unit axis to `[16, 256, 1024]` reads, at `(p, s, q)`, the operand at
    `(p, s, 0)`. -/
private theorem broadcastTo_lanes_apply (v : S16x256x1.Idx → α) (h : S16x256x1.Broadcasts S16x256x1024)
    (p : Fin 16) (s : Fin 256) (q : Fin 1024) : broadcastTo S16x256x1024 v h (ix3 p s q) = v (ix3 p s (0 : Fin 1)) := by
  refine broadcastTo_apply v h (ix3 p s q) (ix3 p s (0 : Fin 1)) fun ax => ?_
  match ax with
  | ⟨0, _⟩ => rfl
  | ⟨1, _⟩ => rfl
  | ⟨2, _⟩ => rfl

/-- A `[16, 1]` column broadcast to `[16, 1024]` reads, at `(p, q)`, the column at `(p, 0)`. -/
private theorem broadcastTo_column_apply (v : S16x1.Idx → α) (h : S16x1.Broadcasts S16x1024)
    (p : Fin 16) (q : Fin 1024) : broadcastTo S16x1024 v h (ix2 p q) = v (ix2 p (0 : Fin 1)) := by
  refine broadcastTo_apply v h (ix2 p q) (ix2 p (0 : Fin 1)) fun ax => ?_
  match ax with
  | ⟨0, _⟩ => rfl
  | ⟨1, _⟩ => rfl

end LayoutForms

/-- Summing a `[16, 256, 1024]` array over its middle axis: the index the sum inserts coordinate `s` into, at `(p, q)`,
    is `(p, s, q)`. -/
private theorem lift_mid (p : Fin 16) (s : Fin 256) (q : Fin 1024) :
    reduces_S16x256x1024_S16x1024.lift (ix2 p q) s = ix3 p s q := by
  funext a
  match a with
  | ⟨0, _⟩ => rfl
  | ⟨1, _⟩ => rfl
  | ⟨2, _⟩ => rfl

/-- The zeroed accumulator. -/
theorem pay1_apply (p : Fin 16) (q : Fin 1024) : k0_pay1 (F := Ideal) (ix2 p q) = 0 := by
  unfold k0_pay1
  refine (congrFun (shapeCast_self _ _) (ix2 p q)).trans ?_
  exact Ideal.ofBits_zero_f32

/-- One point's update: what the accumulator held plus the tile's masked sum. -/
theorem pay2_apply (x0 : Vec Ideal S16x256x1024 .f32) (x1 : Vec Ideal S16x256 .f32) (xs : Vec Ideal S16x1024 .f32) (p : Fin 16) (q : Fin 1024) :
    k0_pay2 (F := Ideal) x0 x1 xs (ix2 p q) = xs (ix2 p q) + ∑ s : Fin 256, x0 (ix3 p s q) * x1 (ix2 p s) := by
  unfold k0_pay2
  refine (congrFun (shapeCast_self _ _) (ix2 p q)).trans ?_
  refine (addf_apply _ _ _).trans ?_
  refine congrArg (xs (ix2 p q) + ·) ?_
  refine (Ideal.multiReduction_add_single _ _ reduces_S16x256x1024_S16x1024 _ _ (ix2 p q)).trans ?_
  refine Finset.sum_congr rfl fun s _ => ?_
  rw [lift_mid p s q]
  refine (mulf_apply _ _ _).trans ?_
  refine congrArg (x0 (ix3 p s q) * ·) ?_
  refine (broadcastTo_lanes_apply _ _ p s q).trans ?_
  refine (shapeCast_trailingUnit_apply _ _ p s (0 : Fin 1)).trans ?_
  exact congrFun (shapeCast_self _ _) _

/-- The stored quotient. -/
theorem pay3_apply (a : Vec Ideal S16x1024 .f32) (e : Vec Ideal S16x1 .f32) (p : Fin 16) (q : Fin 1024) :
    k0_pay3 (F := Ideal) a e (ix2 p q) = Ideal.div (a (ix2 p q)) (e (ix2 p (0 : Fin 1))) := by
  unfold k0_pay3
  refine (divf_apply _ _ _).trans ?_
  refine congrArg (Ideal.div (a (ix2 p q))) ?_
  refine (broadcastTo_column_apply _ _ p q).trans ?_
  exact congrFun (shapeCast_self _ _) _

end Cert.KernelIdeal.Hand

end
-- ==== Proof.Spec.lean ====
/-
  The function both programs compute, index by index over the extended reals.

  For a batch row `b`: the pooled feature `d` is the sum over the 2048 sequence positions `s` of the activation
  `x b s d` times the row's weight at `s` — the dropout mask's entry `dm b s 0` times the validity `va b s` (one below
  the row's end index, zero from it on) —, divided by the row's end index as a float, `en b`. The hidden unit `h` is
  the hyperbolic tangent of the pooled row's inner product with row `h` of the first weight matrix plus the first
  bias at `h`; the output `o` is the hidden row's inner product with row `o` of the second weight matrix plus the
  second bias at `o`.

  The validity and the float end index are parameters here: both programs compute them from the token ids by the same
  integer operations, and nothing below looks inside them.
-/
import Idealize.ShloMosaic.PureOps.Ideal
import Idealize.ShloMosaic.Lib.ValueIdx

noncomputable section

open scoped BigOperators

namespace Cert.Spec

open Idealize.ShloMosaic Idealize.ShloMosaic.ValueIdx

abbrev Sx : Shape := ⟨3, ![64, 2048, 1024]⟩
abbrev Sdm : Shape := ⟨3, ![64, 2048, 1]⟩
abbrev Sm : Shape := ⟨2, ![64, 2048]⟩
abbrev Sn : Shape := ⟨1, ![64]⟩
abbrev Sf : Shape := ⟨2, ![64, 1024]⟩
abbrev Sw1 : Shape := ⟨2, ![300, 1024]⟩
abbrev Sb1 : Shape := ⟨1, ![300]⟩
abbrev Sh : Shape := ⟨2, ![64, 300]⟩
abbrev Sw2 : Shape := ⟨2, ![2, 300]⟩
abbrev Sb2 : Shape := ⟨1, ![2]⟩
abbrev So : Shape := ⟨2, ![64, 2]⟩

/-- A row's weight at a sequence position: the dropout mask's entry times the validity. -/
def weight (dm : Sdm.Idx → EReal) (va : Sm.Idx → EReal) : Sm.Idx → EReal :=
  fun j => dm (ix3 (j 0) (j 1) (0 : Fin 1)) * va (ix2 (j 0) (j 1))

/-- The pooled features from the activations and the rows' weights: the weighted sum over the sequence, over the
    row's end index. -/
def pooledW (x : Sx.Idx → EReal) (w : Sm.Idx → EReal) (en : Sn.Idx → EReal) : Sf.Idx → EReal :=
  fun j => Ideal.div (∑ s : Fin 2048, x (ix3 (j 0) s (j 1)) * w (ix2 (j 0) s)) (en (ix1 (j 0)))

/-- The pooled features. -/
def pooled (x : Sx.Idx → EReal) (dm : Sdm.Idx → EReal) (va : Sm.Idx → EReal) (en : Sn.Idx → EReal) : Sf.Idx → EReal :=
  pooledW x (weight dm va) en

/-- The hidden layer. -/
def hidden (f : Sf.Idx → EReal) (W1 : Sw1.Idx → EReal) (b1 : Sb1.Idx → EReal) : Sh.Idx → EReal :=
  fun j => Ideal.tanh ((∑ k : Fin 1024, f (ix2 (j 0) k) * W1 (ix2 (j 1) k)) + b1 (ix1 (j 1)))

/-- The output layer. -/
def outp (h : Sh.Idx → EReal) (W2 : Sw2.Idx → EReal) (b2 : Sb2.Idx → EReal) : So.Idx → EReal :=
  fun j => (∑ k : Fin 300, h (ix2 (j 0) k) * W2 (ix2 (j 1) k)) + b2 (ix1 (j 1))

/-- The two layers on given pooled features. -/
def mlp (f : Sf.Idx → EReal) (W1 : Sw1.Idx → EReal) (b1 : Sb1.Idx → EReal) (W2 : Sw2.Idx → EReal) (b2 : Sb2.Idx → EReal) : So.Idx → EReal :=
  outp (hidden f W1 b1) W2 b2

/-- The whole function. -/
def G (x : Sx.Idx → EReal) (dm : Sdm.Idx → EReal) (va : Sm.Idx → EReal) (en : Sn.Idx → EReal)
    (W1 : Sw1.Idx → EReal) (b1 : Sb1.Idx → EReal) (W2 : Sw2.Idx → EReal) (b2 : Sb2.Idx → EReal) : So.Idx → EReal :=
  mlp (pooled x dm va en) W1 b1 W2 b2

end Cert.Spec

end
-- ==== Proof.KI.V0acc.lean ====
/-
  The accumulator after each point of the reduction call, at the ideal values. The grid is 4 × 8: point `t` works on
  the batch rows `16 · (t / 8) + p` and on the sequence positions `256 · (t % 8) + s`, and the accumulator is zeroed
  where `t % 8 = 0` and gains the tile's weighted sum at every point. So after point `t` it holds, at `(p, q)`, the
  sum over the sequence positions below `256 · (t % 8 + 1)` of the activation times the row's weight: by induction on
  the point, splitting the positions below `256 · (j + 1)` into those below `256 · j` and the 256 of tile `j`.
-/
import proofs.«169118_j75849122448044_1_alg».proof.Proof.KI.V0p
import proofs.«169118_j75849122448044_1_alg».proof.Proof.Spec

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The activations the region is entered with, at their literal type. -/
abbrev xarr (c : Dev nD) : Cert.Spec.Sx.Idx → EReal := V c main_arg0
/-- The rows' weights the region is entered with. -/
abbrev warr (c : Dev nD) : Cert.Spec.Sm.Idx → EReal := V c main_v14
/-- The end-index column the region is entered with. -/
abbrev earr (c : Dev nD) : (⟨2, ![64, 1]⟩ : Shape).Idx → EReal := V c main_v15

/-- The batch row that row `p` of the block at point `t` is: `16 · (t / 8) + p`. -/
def rowAt (t : Fin cfg0.N) (p : Fin 16) : Fin 64 :=
  ⟨16 * (t.val / 8) + p.val, by have := t.isLt; have hN : cfg0.N = 32 := N_0; omega⟩

/-! ## The blocks, read off the arrays -/

/-- The activations' block index at point `t`: batch tile `t / 8`, sequence tile `t % 8`, the whole feature axis. -/
theorem idx0_0 : ∀ t : Fin grid0.N, win0_0.index t (0 : Fin 3) = t.val / 8 ∧ win0_0.index t 1 = t.val % 8 ∧ win0_0.index t 2 = 0 := by decide +kernel
/-- The weights' block index at point `t`: batch tile `t / 8`, sequence tile `t % 8`. -/
theorem idx0_1 : ∀ t : Fin grid0.N, win0_1.index t (0 : Fin 2) = t.val / 8 ∧ win0_1.index t 1 = t.val % 8 := by decide +kernel

/-- The activations' 16 × 256 × 1024 block at point `t`, at its literal type. -/
abbrev xblk (c : Dev nD) (t : Fin cfg0.N) : Vec Ideal S16x256x1024 .f32 := iblk0 V c 0 t
/-- The weights' 16 × 256 block at point `t`, at its literal type. -/
abbrev wblk (c : Dev nD) (t : Fin cfg0.N) : Vec Ideal S16x256 .f32 := iblk0 V c 1 t

/-- Position `s` of sequence tile `t % 8` is a sequence position. -/
theorem seq_lt (t : Fin cfg0.N) (s : Fin 256) : 256 * (t.val % 8) + s.val < 2048 := by
  have := s.isLt; omega

/-- Entry `(p, s, q)` of the activations' block at point `t` is the array at row `16 · (t / 8) + p`, position
    `256 · (t % 8) + s`, feature `q`: on each axis the block index times the block's extent plus the coordinate. -/
theorem xblk_apply (c : Dev nD) (t : Fin cfg0.N) (p : Fin 16) (s : Fin 256) (q : Fin 1024) :
    xblk V c t (ix3 p s q) = xarr V c (ix3 (rowAt t p) ⟨256 * (t.val % 8) + s.val, seq_lt t s⟩ q) := by
  unfold xblk iblk0
  rw [View.read_apply]
  show V c main_arg0 _ = V c main_arg0 _
  congr 1
  funext a
  apply Fin.ext
  match a with
  | ⟨0, _⟩ => show win0_0.index t 0 * 16 + 1 * p.val = 16 * (t.val / 8) + p.val; rw [(idx0_0 t).1]; omega
  | ⟨1, _⟩ => show win0_0.index t 1 * 256 + 1 * s.val = 256 * (t.val % 8) + s.val; rw [(idx0_0 t).2.1]; omega
  | ⟨2, _⟩ => show win0_0.index t 2 * 1024 + 1 * q.val = q.val; rw [(idx0_0 t).2.2]; omega

/-- Entry `(p, s)` of the weights' block at point `t` is the array at row `16 · (t / 8) + p`, position
    `256 · (t % 8) + s`. -/
theorem wblk_apply (c : Dev nD) (t : Fin cfg0.N) (p : Fin 16) (s : Fin 256) :
    wblk V c t (ix2 p s) = warr V c (ix2 (rowAt t p) ⟨256 * (t.val % 8) + s.val, seq_lt t s⟩) := by
  unfold wblk iblk0
  rw [View.read_apply]
  show V c main_v14 _ = V c main_v14 _
  congr 1
  funext a
  apply Fin.ext
  match a with
  | ⟨0, _⟩ => show win0_1.index t 0 * 16 + 1 * p.val = 16 * (t.val / 8) + p.val; rw [(idx0_1 t).1]; omega
  | ⟨1, _⟩ => show win0_1.index t 1 * 256 + 1 * s.val = 256 * (t.val % 8) + s.val; rw [(idx0_1 t).2]; omega

/-! ## The sequence positions, tile by tile -/

/-- The 256 positions of sequence tile `j` among the 2048: `s ↦ 256 · j + s`. -/
def tileEmb (j : ℕ) (hj : j < 8) : Fin 256 ↪ Fin 2048 :=
  ⟨fun s => ⟨256 * j + s.val, by have := s.isLt; omega⟩, fun a b h => by
    have h' := congrArg Fin.val h
    apply Fin.ext
    simp only at h'
    omega⟩

/-- The positions below `256 · (j + 1)` are those below `256 · j` and, disjoint from them, the 256 of tile `j`; so
    a sum over the former is the sum over the latter two. Addition of extended reals is a commutative monoid: no
    finiteness is asked of `f`. -/
theorem sum_tiles (f : Fin 2048 → EReal) (j : ℕ) (hj : j < 8) :
    ∑ s ∈ Finset.univ.filter (fun s : Fin 2048 => s.val < 256 * (j + 1)), f s
      = ∑ s ∈ Finset.univ.filter (fun s : Fin 2048 => s.val < 256 * j), f s
        + ∑ s : Fin 256, f (tileEmb j hj s) := by
  have hu : Finset.univ.filter (fun s : Fin 2048 => s.val < 256 * (j + 1))
      = Finset.univ.filter (fun s : Fin 2048 => s.val < 256 * j) ∪ Finset.univ.map (tileEmb j hj) := by
    ext x
    simp only [Finset.mem_filter, Finset.mem_univ, true_and, Finset.mem_union, Finset.mem_map]
    constructor
    · intro h
      by_cases hx : x.val < 256 * j
      · exact Or.inl hx
      · exact Or.inr ⟨⟨x.val - 256 * j, by omega⟩, Fin.ext (by show 256 * j + (x.val - 256 * j) = x.val; omega)⟩
    · rintro (h | ⟨s, rfl⟩)
      · omega
      · have := s.isLt
        show 256 * j + s.val < 256 * (j + 1)
        omega
  have hd : Disjoint (Finset.univ.filter (fun s : Fin 2048 => s.val < 256 * j)) (Finset.univ.map (tileEmb j hj)) := by
    rw [Finset.disjoint_left]
    intro x hx hx'
    simp only [Finset.mem_filter, Finset.mem_univ, true_and] at hx
    simp only [Finset.mem_map, Finset.mem_univ, true_and] at hx'
    obtain ⟨s, rfl⟩ := hx'
    have : 256 * j + s.val < 256 * j := hx
    omega
  rw [hu, Finset.sum_union hd, Finset.sum_map]

theorem tile_lt (t : Fin cfg0.N) : t.val % 8 < 8 := Nat.mod_lt _ (by decide)

/-- The weighted sum over the point's block is the weighted sum of the arrays over the positions of tile `t % 8`. -/
theorem tile_sum (c : Dev nD) (t : Fin cfg0.N) (p : Fin 16) (q : Fin 1024) :
    ∑ s : Fin 256, xblk V c t (ix3 p s q) * wblk V c t (ix2 p s)
      = ∑ s : Fin 256, (fun s' : Fin 2048 => xarr V c (ix3 (rowAt t p) s' q) * warr V c (ix2 (rowAt t p) s')) (tileEmb (t.val % 8) (tile_lt t) s) :=
  Finset.sum_congr rfl fun s _ => by rw [xblk_apply, wblk_apply]; rfl

/-! ## The induction on the point -/

/-- Where the sequence tile is 0 the accumulator is zeroed first: it ends at the sum over the first 256 positions
    (no position lies below `256 · 0`). -/
theorem acc_A (c : Dev nD) (t : Fin cfg0.N) (h0 : t.val % 8 = 0) (p : Fin 16) (q : Fin 1024) :
    (outsAt0 (F := Ideal) V c t.val t.isLt).2 (ix2 p q)
      = ∑ s ∈ Finset.univ.filter (fun s : Fin 2048 => s.val < 256 * (t.val % 8 + 1)),
          xarr V c (ix3 (rowAt t p) s q) * warr V c (ix2 (rowAt t p) s) := by
  have h1 : ¬t.val % 8 = 7 := by omega
  rw [outsAt0_A V c t h0 h1]
  dsimp only
  rw [sout0_A_eq]
  show k0_pay2 (F := Ideal) (xblk V c t) (wblk V c t) (k0_pay1 (F := Ideal)) (ix2 p q) = _
  rw [pay2_apply, pay1_apply, zero_add, tile_sum, sum_tiles _ (t.val % 8) (tile_lt t)]
  rw [Finset.filter_eq_empty_iff.mpr (fun s _ => by omega), Finset.sum_empty, zero_add]

/-- Inside a batch tile the point before has the same rows: `n / 8 = (n + 1) / 8` where `(n + 1) % 8 ≠ 0`. -/
theorem rowAt_succ (n : ℕ) (hn : n + 1 < cfg0.N) (h0 : ¬(n + 1) % 8 = 0) (p : Fin 16) :
    rowAt ⟨n, Nat.lt_of_succ_lt hn⟩ p = rowAt ⟨n + 1, hn⟩ p := by
  apply Fin.ext
  show 16 * (n / 8) + p.val = 16 * ((n + 1) / 8) + p.val
  omega

/-- The claim by induction on the point's position `n`: at sequence tile 0 the zeroed case; elsewhere the point adds
    tile `(n + 1) % 8`'s sum to what the point before left, which by induction is the sum over the positions below
    `256 · (n % 8 + 1) = 256 · ((n + 1) % 8)` of the same rows. -/
theorem acc_aux (c : Dev nD) (n : ℕ) : ∀ (hn : n < cfg0.N) (p : Fin 16) (q : Fin 1024),
    (outsAt0 (F := Ideal) V c n hn).2 (ix2 p q)
      = ∑ s ∈ Finset.univ.filter (fun s : Fin 2048 => s.val < 256 * (n % 8 + 1)),
          xarr V c (ix3 (rowAt ⟨n, hn⟩ p) s q) * warr V c (ix2 (rowAt ⟨n, hn⟩ p) s) := by
  induction n with
  | zero => exact fun hn p q => acc_A V c ⟨0, hn⟩ rfl p q
  | succ n ih =>
    intro hn p q
    by_cases h0 : (n + 1) % 8 = 0
    · exact acc_A V c ⟨n + 1, hn⟩ h0 p q
    · have ihn := ih (Nat.lt_of_succ_lt hn) p q
      have he : n % 8 + 1 = (n + 1) % 8 := by omega
      by_cases h1 : (n + 1) % 8 = 7
      · rw [show outsAt0 (F := Ideal) V c (n + 1) hn = _ from outsAt0_C V c ⟨n + 1, hn⟩ h0 h1]
        dsimp only
        rw [sout0_C_eq]
        show k0_pay2 (F := Ideal) (xblk V c ⟨n + 1, hn⟩) (wblk V c ⟨n + 1, hn⟩) (outsAt0 (F := Ideal) V c n _).2 (ix2 p q) = _
        rw [pay2_apply, ihn, rowAt_succ n hn h0, tile_sum, he]
        exact (sum_tiles _ ((n + 1) % 8) (tile_lt ⟨n + 1, hn⟩)).symm
      · rw [show outsAt0 (F := Ideal) V c (n + 1) hn = _ from outsAt0_B V c ⟨n + 1, hn⟩ h0 h1]
        dsimp only
        rw [sout0_B_eq]
        show k0_pay2 (F := Ideal) (xblk V c ⟨n + 1, hn⟩) (wblk V c ⟨n + 1, hn⟩) (outsAt0 (F := Ideal) V c n _).2 (ix2 p q) = _
        rw [pay2_apply, ihn, rowAt_succ n hn h0, tile_sum, he]
        exact (sum_tiles _ ((n + 1) % 8) (tile_lt ⟨n + 1, hn⟩)).symm

/-- After point `t` the accumulator at `(p, q)` is the row's weighted sum over the sequence positions below
    `256 · (t % 8 + 1)`: the tiles seen since the batch tile began. -/
theorem acc_eq (c : Dev nD) (t : Fin cfg0.N) (p : Fin 16) (q : Fin 1024) :
    (outsAt0 (F := Ideal) V c t.val t.isLt).2 (ix2 p q)
      = ∑ s ∈ Finset.univ.filter (fun s : Fin 2048 => s.val < 256 * (t.val % 8 + 1)),
          xarr V c (ix3 (rowAt t p) s q) * warr V c (ix2 (rowAt t p) s) := by
  exact acc_aux V c t.val t.isLt p q

end Cert.KernelIdeal.Hand

end
-- ==== Proof.KI.V0.lean ====
/-
  What the reduction call leaves in the pooled-feature array, at the ideal values.

  The output's 16 × 1024 block of batch tile `b` is written back once, at the point of sequence tile 7, where the
  accumulator holds the rows' weighted sums over all 2048 sequence positions; the stored quotient at `(p, q)` is that
  sum over the end index of batch row `16 · b + p`: the pooled feature `q` of that row. The four written-back blocks
  tile the 64 rows, so the array ends holding the pooled features of the arrays the region was entered with.
-/
import proofs.«169118_j75849122448044_1_alg».proof.Proof.KI.V0acc

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The printed index maps, decided over the grid: at point `t` the output's block and the end-index column's block
    both have block index `t / 8` (the batch tile) on the row axis and 0 on the other axis. -/
theorem idxFacts_pool0 : ∀ t : Fin cfg0.N,
    win0_3.index t (0 : Fin 2) = t.val / 8 ∧ win0_3.index t (1 : Fin 2) = 0
    ∧ win0_2.index t (0 : Fin 2) = t.val / 8 ∧ win0_2.index t (1 : Fin 2) = 0 :=
  (by decide +kernel : ∀ t : Fin grid0.N, _)

/-- Row `p` of the end-index block at point `t` is the end index of batch row `16 · (t / 8) + p`: a block's
    coordinate in its array is the block index times the block's size plus the coordinate inside the block. -/
theorem endBlk0_apply (c : Dev nD) (t : Fin cfg0.N) (p : Fin 16) :
    (iblk0 (F := Ideal) V c 2 t : Vec Ideal S16x1 .f32) (ix2 p (0 : Fin 1)) = earr V c (ix2 (rowAt t p) (0 : Fin 1)) := by
  obtain ⟨-, -, e0, e1⟩ := idxFacts_pool0 t
  unfold iblk0
  rw [View.read_apply]
  show V c main_v15 _ = V c main_v15 _
  congr 1
  funext a
  apply Fin.ext
  match a with
  | ⟨0, _⟩ => show win0_2.index t (0 : Fin 2) * 16 + 1 * p.val = 16 * (t.val / 8) + p.val; rw [e0]; omega
  | ⟨1, _⟩ => show win0_2.index t (1 : Fin 2) * 1 + 1 * 0 = 0; rw [e1]

/-- At a point of sequence tile 7 the sum the quotient is taken of — the tile's masked sum added onto what the point
    before left — is the accumulator that point leaves. -/
theorem accLast0 (c : Dev nD) (t : Fin cfg0.N) (h0 : ¬t.val % 8 = 0) (h1 : t.val % 8 = 7) :
    k0_pay2 (F := Ideal) (iblk0 V c 0 t) (iblk0 V c 1 t) (outsAt0 V c (t.val - 1) (prev_lt t)).2
      = (outsAt0 (F := Ideal) V c t.val t.isLt).2 := by
  rw [outsAt0_C V c t h0 h1]
  dsimp only
  rw [sout0_C_eq]

/-- The pooled features of the arrays the region is entered with: for batch row `r` and feature `q`, the sum over the
    2048 sequence positions of activation times weight, over the row's end index. -/
abbrev poolG0 (c : Dev nD) : Cert.Spec.Sf.Idx → EReal :=
  Cert.Spec.pooledW (xarr V c) (warr V c) (fun j => earr V c (ix2 (j 0) (0 : Fin 1)))

/-- The stored quotient at `(p, q)` at a point of sequence tile 7 is the pooled feature `q` of batch row
    `16 · (t / 8) + p`: there the accumulator's partial sum, over the positions below `256 · 8 = 2048`, is the sum over
    the whole sequence, and the divisor is that row's end index. -/
theorem quot0_apply (c : Dev nD) (t : Fin cfg0.N) (h1 : t.val % 8 = 7) (p : Fin 16) (q : Fin 1024) :
    k0_pay3 (F := Ideal) (outsAt0 (F := Ideal) V c t.val t.isLt).2 (iblk0 (F := Ideal) V c 2 t) (ix2 p q)
      = poolG0 V c (ix2 (rowAt t p) q) := by
  refine (pay3_apply (outsAt0 (F := Ideal) V c t.val t.isLt).2 (iblk0 (F := Ideal) V c 2 t) p q).trans ?_
  rw [acc_eq V c t p q, endBlk0_apply V c t p]
  rw [Finset.filter_true_of_mem (fun s _ => by have := s.isLt; omega)]
  rfl

/-- Entry `(p, q)` of the output's block at point `t` sits in the array at row `16 · (t / 8) + p`, column `q`. -/
theorem outBlk0_emb (t : Fin cfg0.N) (p : Fin 16) (q : Fin 1024) :
    (((cfg0.win 3).blk t).view.emb (ix2 p q) : Cert.Spec.Sf.Idx) = ix2 (rowAt t p) q := by
  obtain ⟨e0, e1, -, -⟩ := idxFacts_pool0 t
  funext a
  apply Fin.ext
  match a with
  | ⟨0, _⟩ => show win0_3.index t (0 : Fin 2) * 16 + 1 * p.val = 16 * (t.val / 8) + p.val; rw [e0]; omega
  | ⟨1, _⟩ => show win0_3.index t (1 : Fin 2) * 1024 + 1 * q.val = q.val; rw [e1]; omega

/-- What a point of sequence tile 7 writes back is its block of the pooled features. -/
theorem flushedPool0_eq (c : Dev nD) (t : Fin cfg0.N) (hf : (cfg0.win 3).flush t = true) :
    (dat0 (F := Ideal) V c).flushed 3 t = ((cfg0.win 3).blk t).view.read (Elt Ideal) (poolG0 V c) := by
  have h1 : t.val % 8 = 7 := (flush0_3 t).mp hf
  have h0 : ¬t.val % 8 = 0 := by omega
  show (cfg0.win 3).cut (grid0.coords t) ((dat0 (F := Ideal) V c).after 3 t) = _
  rw [after0_3, outsAt0_C V c t h0 h1]
  dsimp only
  rw [out0_C_eq, accLast0 V c t h0 h1]
  funext y
  obtain ⟨p, q, rfl⟩ : ∃ (p : Fin 16) (q : Fin 1024), y = ix2 p q := ⟨y 0, y 1, eq_ix2 (n0 := 16) (n1 := 1024) y⟩
  rw [View.read_apply]
  show k0_pay3 (F := Ideal) (outsAt0 (F := Ideal) V c t.val t.isLt).2 (iblk0 (F := Ideal) V c 2 t) (ix2 p q)
    = poolG0 V c (((cfg0.win 3).blk t).view.emb (ix2 p q))
  rw [outBlk0_emb t p q]
  exact quot0_apply V c t h1 p q

/-- An index of the array is in point `t`'s block iff each coordinate is in the block's range on its axis. -/
theorem mem_outBlk0 (t : Fin cfg0.N) (i : Cert.Spec.Sf.Idx) :
    i ∈ ((cfg0.win 3).blk t).view.set ↔ ∀ a : Fin 2, win0_3.index t a * S16x1024.size a ≤ (i a).val ∧ (i a).val < win0_3.index t a * S16x1024.size a + S16x1024.size a := by
  show i ∈ ((View.whole main_v16).slice (win0_3.rect t)).set ↔ _
  rw [View.set_slice_whole, Rect.mem_set_unit]
  exact Iff.rfl

/-- Row `r` of the array lies in the block written back at the last point of its batch tile, `8 · (r / 16) + 7`. -/
theorem coverPool0 (i : Cert.Spec.Sf.Idx) :
    ∃ t : Fin cfg0.N, (cfg0.win 3).flush t = true ∧ i ∈ ((cfg0.win 3).blk t).view.set := by
  have hN : cfg0.N = 32 := N_0
  have hi0 : (i 0).val < 64 := (i 0).isLt
  have hi1 : (i 1).val < 1024 := (i 1).isLt
  obtain ⟨t, ht⟩ : ∃ t : Fin cfg0.N, t.val = 8 * ((i 0).val / 16) + 7 := ⟨⟨8 * ((i 0).val / 16) + 7, by omega⟩, rfl⟩
  obtain ⟨e0, e1, -, -⟩ := idxFacts_pool0 t
  refine ⟨t, (flush0_3 t).mpr (by omega), ?_⟩
  rw [mem_outBlk0]
  intro a
  match a with
  | ⟨0, _⟩ => show win0_3.index t (0 : Fin 2) * 16 ≤ (i 0).val ∧ (i 0).val < win0_3.index t (0 : Fin 2) * 16 + 16; rw [e0, ht]; omega
  | ⟨1, _⟩ => show win0_3.index t (1 : Fin 2) * 1024 ≤ (i 1).val ∧ (i 1).val < win0_3.index t (1 : Fin 2) * 1024 + 1024; rw [e1]; omega

/-- After the reduction call the pooled-feature array is the rows' weighted sums over the whole sequence, each over
    its row's end index. -/
theorem final0 (c : Dev nD) :
    ((dat0 (F := Ideal) V c).arrAt 3 cfg0.N : Cert.Spec.Sf.Idx → EReal)
      = Cert.Spec.pooledW (xarr V c) (warr V c) (fun j => earr V c (ix2 (j 0) (0 : Fin 1))) := by
  exact (dat0 (F := Ideal) V c).arrAt_eq_of_cover 3 (poolG0 V c) (fun t ht => flushedPool0_eq V c t ht) coverPool0

end Cert.KernelIdeal.Hand

end
-- ==== Proof.KI.V1.lean ====
/-
  What the MLP call leaves in the result array, at the ideal values: the two layers of the arrays it was entered with.
  At entry (p, q) the body's stored value is (∑ k < 300, tanh ((∑ j < 1024, f p j · W1 k j) + b1 k) · W2 q k) + b2 q:
  both products contract the second axis of both operands into a zero accumulator, the roundings to bf16 are the
  identity at the ideal values, and each bias is one row broadcast over the 64 rows. The grid has one point and every
  window's block is its whole array, so that point's write-back is this function of the whole arrays and covers the result.
-/
import proofs.«169118_j75849122448044_1_alg».proof.Proof.KI.R1
import proofs.«169118_j75849122448044_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

namespace Mlp

/-! ## The two products at an entry

Both products contract axis 1 of the left operand with axis 1 of the right one and have no batch axis: at output
index `i` and contraction position `κ` the left operand is read at `(i 0, κ)` and the right one at `(i 1, κ)`. -/

theorem first_lhs0 (i : S64x300.Idx) (κ : dot_S64x1024_S300x1024_S64x300_1_1_0_0_n_n.contr.Idx) :
    (dot_S64x1024_S300x1024_S64x300_1_1_0_0_n_n.lhsIdx i κ 0).val = (i 0).val := rfl
theorem first_lhs1 (i : S64x300.Idx) (κ : dot_S64x1024_S300x1024_S64x300_1_1_0_0_n_n.contr.Idx) :
    (dot_S64x1024_S300x1024_S64x300_1_1_0_0_n_n.lhsIdx i κ 1).val = (κ ⟨0, Nat.one_pos⟩).val := rfl
theorem first_rhs0 (i : S64x300.Idx) (κ : dot_S64x1024_S300x1024_S64x300_1_1_0_0_n_n.contr.Idx) :
    (dot_S64x1024_S300x1024_S64x300_1_1_0_0_n_n.rhsIdx i κ 0).val = (i 1).val := rfl
theorem first_rhs1 (i : S64x300.Idx) (κ : dot_S64x1024_S300x1024_S64x300_1_1_0_0_n_n.contr.Idx) :
    (dot_S64x1024_S300x1024_S64x300_1_1_0_0_n_n.rhsIdx i κ 1).val = (κ ⟨0, Nat.one_pos⟩).val := rfl

/-- The first product into the zero accumulator at `(p, q)`: the sum over `k` of `lhs (p, k) · rhs (q, k)`. -/
theorem first_apply (lhs : FVec Ideal S64x1024 .bf16) (rhs : FVec Ideal S300x1024 .bf16) (p : Fin 64) (q : Fin 300) :
    FloatOps.matmul dot_S64x1024_S300x1024_S64x300_1_1_0_0_n_n none lhs rhs (constant (F := Ideal) S64x300 .f32 0x00000000#32) (ix2 p q)
      = ∑ k : Fin 1024, lhs (ix2 p k) * rhs (ix2 q k) := by
  rw [Ideal.matmul_constant_zero_apply]
  rw [← Equiv.sum_comp (contrEquiv1 dot_S64x1024_S300x1024_S64x300_1_1_0_0_n_n 1024 rfl rfl).symm]
  refine Finset.sum_congr rfl fun k _ => ?_
  have hk := contrEquiv1_symm_val dot_S64x1024_S300x1024_S64x300_1_1_0_0_n_n 1024 rfl rfl k
  have el : dot_S64x1024_S300x1024_S64x300_1_1_0_0_n_n.lhsIdx (ix2 p q) ((contrEquiv1 dot_S64x1024_S300x1024_S64x300_1_1_0_0_n_n 1024 rfl rfl).symm k) = ix2 p k :=
    funext fun a => Fin.ext (by
      match a with
      | ⟨0, _⟩ => exact first_lhs0 _ _
      | ⟨1, _⟩ => exact (first_lhs1 _ _).trans hk)
  have er : dot_S64x1024_S300x1024_S64x300_1_1_0_0_n_n.rhsIdx (ix2 p q) ((contrEquiv1 dot_S64x1024_S300x1024_S64x300_1_1_0_0_n_n 1024 rfl rfl).symm k) = ix2 q k :=
    funext fun a => Fin.ext (by
      match a with
      | ⟨0, _⟩ => exact first_rhs0 _ _
      | ⟨1, _⟩ => exact (first_rhs1 _ _).trans hk)
  rw [el, er]

theorem second_lhs0 (i : S64x2.Idx) (κ : dot_S64x300_S2x300_S64x2_1_1_0_0_n_n.contr.Idx) :
    (dot_S64x300_S2x300_S64x2_1_1_0_0_n_n.lhsIdx i κ 0).val = (i 0).val := rfl
theorem second_lhs1 (i : S64x2.Idx) (κ : dot_S64x300_S2x300_S64x2_1_1_0_0_n_n.contr.Idx) :
    (dot_S64x300_S2x300_S64x2_1_1_0_0_n_n.lhsIdx i κ 1).val = (κ ⟨0, Nat.one_pos⟩).val := rfl
theorem second_rhs0 (i : S64x2.Idx) (κ : dot_S64x300_S2x300_S64x2_1_1_0_0_n_n.contr.Idx) :
    (dot_S64x300_S2x300_S64x2_1_1_0_0_n_n.rhsIdx i κ 0).val = (i 1).val := rfl
theorem second_rhs1 (i : S64x2.Idx) (κ : dot_S64x300_S2x300_S64x2_1_1_0_0_n_n.contr.Idx) :
    (dot_S64x300_S2x300_S64x2_1_1_0_0_n_n.rhsIdx i κ 1).val = (κ ⟨0, Nat.one_pos⟩).val := rfl

/-- The second product into the zero accumulator at `(p, q)`: the sum over `k` of `lhs (p, k) · rhs (q, k)`. -/
theorem second_apply (lhs : FVec Ideal S64x300 .bf16) (rhs : FVec Ideal S2x300 .bf16) (p : Fin 64) (q : Fin 2) :
    FloatOps.matmul dot_S64x300_S2x300_S64x2_1_1_0_0_n_n none lhs rhs (constant (F := Ideal) S64x2 .f32 0x00000000#32) (ix2 p q)
      = ∑ k : Fin 300, lhs (ix2 p k) * rhs (ix2 q k) := by
  rw [Ideal.matmul_constant_zero_apply]
  rw [← Equiv.sum_comp (contrEquiv1 dot_S64x300_S2x300_S64x2_1_1_0_0_n_n 300 rfl rfl).symm]
  refine Finset.sum_congr rfl fun k _ => ?_
  have hk := contrEquiv1_symm_val dot_S64x300_S2x300_S64x2_1_1_0_0_n_n 300 rfl rfl k
  have el : dot_S64x300_S2x300_S64x2_1_1_0_0_n_n.lhsIdx (ix2 p q) ((contrEquiv1 dot_S64x300_S2x300_S64x2_1_1_0_0_n_n 300 rfl rfl).symm k) = ix2 p k :=
    funext fun a => Fin.ext (by
      match a with
      | ⟨0, _⟩ => exact second_lhs0 _ _
      | ⟨1, _⟩ => exact (second_lhs1 _ _).trans hk)
  have er : dot_S64x300_S2x300_S64x2_1_1_0_0_n_n.rhsIdx (ix2 p q) ((contrEquiv1 dot_S64x300_S2x300_S64x2_1_1_0_0_n_n 300 rfl rfl).symm k) = ix2 q k :=
    funext fun a => Fin.ext (by
      match a with
      | ⟨0, _⟩ => exact second_rhs0 _ _
      | ⟨1, _⟩ => exact (second_rhs1 _ _).trans hk)
  rw [el, er]

/-! ## The body's stored value at an entry -/

/-- The hyperbolic tangent of a vector, read at an index. -/
theorem tanh_apply {s : Shape} {φ : FTy} (a : FVec Ideal s φ) (i : s.Idx) : tanh a i = Ideal.tanh (a i) := rfl

/-- The body's stored value at `(p, q)` is the two layers of the loaded arrays at `(p, q)`: the outer sum over the
    300 hidden units, each the hyperbolic tangent of its inner sum over the 1024 features plus its bias. -/
theorem payload_apply (x0 : Vec Ideal S64x1024 .f32) (x1 : Vec Ideal S300x1024 .f32) (x2 : Vec Ideal S300 .f32)
    (x3 : Vec Ideal S2x300 .f32) (x4 : Vec Ideal S2 .f32) (p : Fin 64) (q : Fin 2) :
    k1_pay1 x0 x1 x2 x3 x4 (ix2 p q) = Cert.Spec.mlp x0 x1 x2 x3 x4 (ix2 p q) := by
  unfold k1_pay1
  simp only [matmul]
  rw [addf_apply, second_apply, broadcastTo_1b_ab_apply, shapeCast_a_1a_apply]
  show _ = (∑ k : Fin 300, Cert.Spec.hidden x0 x1 x2 (ix2 p k) * x3 (ix2 q k)) + x4 (ix1 q)
  congr 1
  refine Finset.sum_congr rfl fun k _ => ?_
  rw [truncf_apply, truncf_apply, tanh_apply, addf_apply, first_apply, broadcastTo_1b_ab_apply, shapeCast_a_1a_apply]
  show _ = Ideal.tanh ((∑ j : Fin 1024, x0 (ix2 p j) * x1 (ix2 k j)) + x2 (ix1 k)) * x3 (ix2 q k)
  congr 3
  refine Finset.sum_congr rfl fun j _ => ?_
  rw [truncf_apply, truncf_apply, shapeCast_self]

theorem zeros2 : (![0, 0] : Fin 2 → Nat) = fun _ => 0 := funext fun a => by fin_cases a <;> rfl
theorem zeros1 : (![0] : Fin 1 → Nat) = fun _ => 0 := funext fun a => by fin_cases a <;> rfl

/-- The body's result from whole loaded arrays is the two layers of them: each load reads its whole array and the one
    store writes the whole result. -/
theorem out_eq (x0 : Vec Ideal S64x1024 .f32) (x1 : Vec Ideal S300x1024 .f32) (x2 : Vec Ideal S300 .f32)
    (x3 : Vec Ideal S2x300 .f32) (x4 : Vec Ideal S2 .f32) :
    out1_5 x0 x1 x2 x3 x4 = Cert.Spec.mlp x0 x1 x2 x3 x4 := by
  unfold out1_5
  rw [View.canon_unit_zero zeros2]
  simp only [View.ld_unit_zero (S := S64x1024) zeros2, View.ld_unit_zero (S := S300x1024) zeros2,
    View.ld_unit_zero (S := S300) zeros1, View.ld_unit_zero (S := S2x300) zeros2, View.ld_unit_zero (S := S2) zeros1]
  funext j
  obtain ⟨p, q, rfl⟩ : ∃ (p : Fin 64) (q : Fin 2), j = ix2 p q := ⟨j 0, j 1, eq_ix2 j⟩
  exact payload_apply x0 x1 x2 x3 x4 p q

/-! ## The one point's blocks are the whole arrays -/

/-- At the grid's one point every window's block index is zero on every axis. -/
theorem index_zero : ∀ t : Fin cfg1.N,
    win1_0.index t 0 = 0 ∧ win1_0.index t 1 = 0 ∧ win1_1.index t 0 = 0 ∧ win1_1.index t 1 = 0 ∧ win1_2.index t 0 = 0
    ∧ win1_3.index t 0 = 0 ∧ win1_3.index t 1 = 0 ∧ win1_4.index t 0 = 0 ∧ win1_5.index t 0 = 0 ∧ win1_5.index t 1 = 0 :=
  (by decide +kernel : ∀ t : Fin grid1.N, _)

/-- The result window's block at the point, read off any contents of the result array, is those contents. -/
theorem blk5_read (t : Fin cfg1.N) (G : Cert.Spec.So.Idx → EReal) :
    ((cfg1.win 5).blk t).view.read (Elt Ideal) G = G := by
  obtain ⟨-, -, -, -, -, -, -, -, e0, e1⟩ := index_zero t
  have hz : (fun a => win1_5.index t a * main_v17.ty.shape.size a) = fun _ => 0 := funext fun a => by
    match a with
    | ⟨0, _⟩ => show win1_5.index t 0 * 64 = 0; rw [e0]
    | ⟨1, _⟩ => show win1_5.index t 1 * 2 = 0; rw [e1]
  exact Memref.read_access_unit_zero (Elt Ideal) main_v17 hz (fun a => by rw [congrFun hz a]; simp) G

/-- Input window 0's block at the point is the pooled-feature array as the call finds it. -/
theorem iblk0_eq (c : Dev nD) (t : Fin cfg1.N) : iblk1 (F := Ideal) V c 0 t = (V c main_v16 : S64x1024.Idx → EReal) := by
  obtain ⟨e0, e1, -⟩ := index_zero t
  have hz : (fun a => win1_0.index t a * main_v16.ty.shape.size a) = fun _ => 0 := funext fun a => by
    match a with
    | ⟨0, _⟩ => show win1_0.index t 0 * 64 = 0; rw [e0]
    | ⟨1, _⟩ => show win1_0.index t 1 * 1024 = 0; rw [e1]
  unfold iblk1
  exact Memref.read_access_unit_zero (Elt Ideal) main_v16 hz (fun a => by rw [congrFun hz a]; simp) (V c main_v16)

/-- Input window 1's block at the point is the first layer's weight array. -/
theorem iblk1_eq (c : Dev nD) (t : Fin cfg1.N) : iblk1 (F := Ideal) V c 1 t = (V c main_arg3 : S300x1024.Idx → EReal) := by
  obtain ⟨-, -, e0, e1, -⟩ := index_zero t
  have hz : (fun a => win1_1.index t a * main_arg3.ty.shape.size a) = fun _ => 0 := funext fun a => by
    match a with
    | ⟨0, _⟩ => show win1_1.index t 0 * 300 = 0; rw [e0]
    | ⟨1, _⟩ => show win1_1.index t 1 * 1024 = 0; rw [e1]
  unfold iblk1
  exact Memref.read_access_unit_zero (Elt Ideal) main_arg3 hz (fun a => by rw [congrFun hz a]; simp) (V c main_arg3)

/-- Input window 2's block at the point is the first layer's bias array. -/
theorem iblk2_eq (c : Dev nD) (t : Fin cfg1.N) : iblk1 (F := Ideal) V c 2 t = (V c main_arg4 : S300.Idx → EReal) := by
  obtain ⟨-, -, -, -, e0, -⟩ := index_zero t
  have hz : (fun a => win1_2.index t a * main_arg4.ty.shape.size a) = fun _ => 0 := funext fun a => by
    match a with
    | ⟨0, _⟩ => show win1_2.index t 0 * 300 = 0; rw [e0]
  unfold iblk1
  exact Memref.read_access_unit_zero (Elt Ideal) main_arg4 hz (fun a => by rw [congrFun hz a]; simp) (V c main_arg4)

/-- Input window 3's block at the point is the second layer's weight array. -/
theorem iblk3_eq (c : Dev nD) (t : Fin cfg1.N) : iblk1 (F := Ideal) V c 3 t = (V c main_arg5 : S2x300.Idx → EReal) := by
  obtain ⟨-, -, -, -, -, e0, e1, -⟩ := index_zero t
  have hz : (fun a => win1_3.index t a * main_arg5.ty.shape.size a) = fun _ => 0 := funext fun a => by
    match a with
    | ⟨0, _⟩ => show win1_3.index t 0 * 2 = 0; rw [e0]
    | ⟨1, _⟩ => show win1_3.index t 1 * 300 = 0; rw [e1]
  unfold iblk1
  exact Memref.read_access_unit_zero (Elt Ideal) main_arg5 hz (fun a => by rw [congrFun hz a]; simp) (V c main_arg5)

/-- Input window 4's block at the point is the second layer's bias array. -/
theorem iblk4_eq (c : Dev nD) (t : Fin cfg1.N) : iblk1 (F := Ideal) V c 4 t = (V c main_arg6 : S2.Idx → EReal) := by
  obtain ⟨-, -, -, -, -, -, -, e0, -⟩ := index_zero t
  have hz : (fun a => win1_4.index t a * main_arg6.ty.shape.size a) = fun _ => 0 := funext fun a => by
    match a with
    | ⟨0, _⟩ => show win1_4.index t 0 * 2 = 0; rw [e0]
  unfold iblk1
  exact Memref.read_access_unit_zero (Elt Ideal) main_arg6 hz (fun a => by rw [congrFun hz a]; simp) (V c main_arg6)

/-! ## From the point's block to the array -/

/-- What the point writes back is its block of the two layers of the arrays the call was entered with. -/
theorem flushed_eq (c : Dev nD) (t : Fin cfg1.N) :
    (dat1 (F := Ideal) V c).flushed 5 t
      = ((cfg1.win 5).blk t).view.read (Elt Ideal)
          (Cert.Spec.mlp (V c main_v16) (V c main_arg3) (V c main_arg4) (V c main_arg5) (V c main_arg6)) := by
  refine Eq.trans ?_ (blk5_read t _).symm
  show (cfg1.win 5).cut (grid1.coords t) ((dat1 V c).after 5 t) = _
  rw [after1_5, iblk0_eq, iblk1_eq, iblk2_eq, iblk3_eq, iblk4_eq, out_eq]
  rfl

/-- The one point's block covers the result array. -/
theorem cover (i : Cert.Spec.So.Idx) :
    ∃ t : Fin cfg1.N, (cfg1.win 5).flush t = true ∧ i ∈ ((cfg1.win 5).blk t).view.set := by
  refine ⟨t1_0, flush1_5 t1_0, ?_⟩
  obtain ⟨-, -, -, -, -, -, -, -, e0, e1⟩ := index_zero t1_0
  show i ∈ ((View.whole main_v17).slice (win1_5.rect t1_0)).set
  rw [View.set_slice_whole, Rect.mem_set_unit]
  intro a
  have h0 : (i 0 : Nat) < 64 := (i 0).isLt
  have h1 : (i 1 : Nat) < 2 := (i 1).isLt
  match a with
  | ⟨0, _⟩ => show win1_5.index t1_0 0 * 64 ≤ (i 0 : Nat) ∧ (i 0 : Nat) < win1_5.index t1_0 0 * 64 + 64; rw [e0]; omega
  | ⟨1, _⟩ => show win1_5.index t1_0 1 * 2 ≤ (i 1 : Nat) ∧ (i 1 : Nat) < win1_5.index t1_0 1 * 2 + 2; rw [e1]; omega

end Mlp

/-- After the MLP call the result array is the two layers of the arrays it was entered with. -/
theorem final1 (c : Dev nD) :
    ((dat1 (F := Ideal) V c).arrAt 5 cfg1.N : Cert.Spec.So.Idx → EReal)
      = Cert.Spec.mlp (V c main_v16) (V c main_arg3) (V c main_arg4) (V c main_arg5) (V c main_arg6) := by
  exact (dat1 (F := Ideal) V c).arrAt_eq_of_cover 5 _ (fun t _ => Mlp.flushed_eq V c t) Mlp.cover

end Cert.KernelIdeal.Hand

end
-- ==== Proof.KI.Head.lean ====
/-
  The integer head of the program: from the token ids, each row's end index and the validity of each sequence position,
  and their float forms. Carried as named functions of the ids; nothing here looks inside the argmax.
-/
import proofs.«169118_j75849122448044_1_alg».proof.Proof.Gen.KernelIdeal

noncomputable section

namespace Cert.KernelIdeal.Hand

open Idealize.ShloMosaic Cert.KernelIdeal Cert.KernelIdeal.Gen

variable {F : FTy → Type} [FloatOps F]

/-- Where a token is the end marker (the id 1). -/
def isEnd (ids : (⟨S64x2048, .i32⟩ : BufTy).Contents (Elt F)) : (⟨S64x2048, .i1⟩ : BufTy).Contents (Elt F) :=
  cmpi .eq ids (broadcastInDim S64x2048 ![] bcast_S_S64x2048 (constantI S_ 32 1#32))

/-- Whether a row has an end marker at all. -/
def hasEnd (ids : (⟨S64x2048, .i32⟩ : BufTy).Contents (Elt F)) : (⟨S64, .i1⟩ : BufTy).Contents (Elt F) :=
  Host.reduce IntOp.ori (isEnd ids) (constantI S_ 1 0#1) reducesTo_S64x2048_S64_d1 h_S_

/-- The position of a row's first end marker (the argmax of the marker bits along the row). -/
def firstEnd (ids : (⟨S64x2048, .i32⟩ : BufTy).Contents (Elt F)) : (⟨S64, .i32⟩ : BufTy).Contents (Elt F) :=
  fun j => (Host.reduce2 reducer_argmax_i1_i32 (isEnd ids) (iotaInDim S64x2048 32 1) (constantI S_ 1 0#1) (constantI S_ 32 0#32) reducesTo_S64x2048_S64_d1 h_S_ j).2

/-- A row's end index: its first end marker's position, or 64 when it has none. -/
def endInd (ids : (⟨S64x2048, .i32⟩ : BufTy).Contents (Elt F)) : (⟨S64, .i32⟩ : BufTy).Contents (Elt F) :=
  select (hasEnd ids) (firstEnd ids) (broadcastInDim S64 ![] bcast_S_S64 (id (constantI S_ 32 64#32)))

/-- The validity bits: position `s` of row `b` is valid when `s` is below the row's end index (signed compare). -/
def validI (ids : (⟨S64x2048, .i32⟩ : BufTy).Contents (Elt F)) : (⟨S64x2048, .i1⟩ : BufTy).Contents (Elt F) :=
  cmpi .slt
    (broadcastInDim S64x2048 ![0, 1] bcast_S1x2048_S64x2048_0_1 (broadcastInDim S1x2048 ![1] bcast_S2048_S1x2048_1 (iotaInDim S2048 32 0)))
    (broadcastInDim S64x2048 ![0, 1] bcast_S64x1_S64x2048_0_1 (broadcastInDim S64x1 ![0] bcast_S64_S64x1_0 (endInd ids)))

/-- The validity as floats: one where valid, zero elsewhere. -/
def va (ids : (⟨S64x2048, .i32⟩ : BufTy).Contents (Elt F)) : (⟨S64x2048, .f32⟩ : BufTy).Contents (Elt F) :=
  uitofp .f32 (validI ids)

/-- The end index as a float, per row. -/
def en (ids : (⟨S64x2048, .i32⟩ : BufTy).Contents (Elt F)) : (⟨S64, .f32⟩ : BufTy).Contents (Elt F) :=
  sitofp .f32 (endInd ids)

end Cert.KernelIdeal.Hand

end
-- ==== Proof.KI.HostV.lean ====
/-
  What the host operations hand the first kernel call, at the ideal values. From the token ids they compute each row's
  end index and each position's validity; the weight array is the dropout mask, reshaped from [64, 2048, 1] to
  [64, 2048], times the float validity, and the end-index column is the float end index reshaped from [64] to [64, 1].
  Proved: the weight array is `Spec.weight` of the mask and the validity entry by entry, the column reads the float
  end index at each row, and no host operation writes the activations.
-/
import proofs.«169118_j75849122448044_1_alg».proof.Proof.KI.Head
import proofs.«169118_j75849122448044_1_alg».proof.Proof.Gen.KernelIdeal.Regions
import proofs.«169118_j75849122448044_1_alg».proof.Proof.Spec
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

open scoped BigOperators

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ)

/-! ## Each host stretch, over any valuation it starts from -/

section Stretch

variable (W : Valuation τ sig (Elt Ideal))

/-- The first stretch writes the end-marker bits of the token ids … -/
theorem after0_v1 :
    (StableHlo.after (hostOps0 (F := Ideal)) W main_v1 : (⟨S64x2048, .i1⟩ : BufTy).Contents (Elt Ideal))
      = isEnd (F := Ideal) (W main_arg1 : (⟨S64x2048, .i32⟩ : BufTy).Contents (Elt Ideal)) := by
  dsimp only [hostOps0]
  after_results
  rfl

/-- … and whether each row has a marker at all. -/
theorem after0_v2 :
    (StableHlo.after (hostOps0 (F := Ideal)) W main_v2 : (⟨S64, .i1⟩ : BufTy).Contents (Elt Ideal))
      = hasEnd (F := Ideal) (W main_arg1 : (⟨S64x2048, .i32⟩ : BufTy).Contents (Elt Ideal)) := by
  dsimp only [hostOps0]
  after_results
  rfl

/-- The second stretch writes the index component of the argmax of the marker bits it finds in `main_v1`. -/
theorem after1_v3 :
    (StableHlo.after (hostOps0_1 (F := Ideal)) W main_v3 : (⟨S64, .i32⟩ : BufTy).Contents (Elt Ideal))
      = fun j => (Host.reduce2 reducer_argmax_i1_i32 (W main_v1 : (⟨S64x2048, .i1⟩ : BufTy).Contents (Elt Ideal))
          (iotaInDim S64x2048 32 1) (constantI S_ 1 0#1) (constantI S_ 32 0#32) reducesTo_S64x2048_S64_d1 h_S_ j).2 := by
  dsimp only [hostOps0_1]
  after_results
  rfl

/-- The third stretch writes the constant 64. -/
theorem after2_c1 :
    (StableHlo.after (hostOps0_2 (F := Ideal)) W main_c_1 : (⟨S_, .i32⟩ : BufTy).Contents (Elt Ideal))
      = constantI S_ 32 64#32 := by
  dsimp only [hostOps0_2]
  after_results

/-- The fourth stretch selects, row by row, between the argmax's index and the broadcast constant. -/
theorem after3_v4 :
    (StableHlo.after (hostOps0_3 (F := Ideal)) W main_v4 : (⟨S64, .i32⟩ : BufTy).Contents (Elt Ideal))
      = select (W main_v2 : (⟨S64, .i1⟩ : BufTy).Contents (Elt Ideal)) (W main_v3 : (⟨S64, .i32⟩ : BufTy).Contents (Elt Ideal))
          (broadcastInDim S64 ![] bcast_S_S64 (id (W main_c_1 : (⟨S_, .i32⟩ : BufTy).Contents (Elt Ideal)))) := by
  dsimp only [hostOps0_3]
  after_results
  rfl

/-- The fifth stretch writes the mask reshaped to two axes times the float validity computed from `main_v4` … -/
theorem after4_v14 :
    (StableHlo.after (hostOps0_4 (F := Ideal)) W main_v14 : (⟨S64x2048, .f32⟩ : BufTy).Contents (Elt Ideal))
      = mulf (F := Ideal) (shapeCast S64x2048 (W main_arg2 : (⟨S64x2048x1, .f32⟩ : BufTy).Contents (Elt Ideal)) shapeCasts_S64x2048x1_S64x2048)
          (uitofp (F := Ideal) .f32 (cmpi .slt
            (broadcastInDim S64x2048 ![0, 1] bcast_S1x2048_S64x2048_0_1 (broadcastInDim S1x2048 ![1] bcast_S2048_S1x2048_1 (iotaInDim S2048 32 0)))
            (broadcastInDim S64x2048 ![0, 1] bcast_S64x1_S64x2048_0_1 (broadcastInDim S64x1 ![0] bcast_S64_S64x1_0 (W main_v4 : (⟨S64, .i32⟩ : BufTy).Contents (Elt Ideal)))))) := by
  dsimp only [hostOps0_4]
  after_results
  rfl

/-- … and the float of `main_v4` reshaped to a column. -/
theorem after4_v15 :
    (StableHlo.after (hostOps0_4 (F := Ideal)) W main_v15 : (⟨S64x1, .f32⟩ : BufTy).Contents (Elt Ideal))
      = shapeCast S64x1 (sitofp (F := Ideal) .f32 (W main_v4 : (⟨S64, .i32⟩ : BufTy).Contents (Elt Ideal))) shapeCasts_S64_S64x1 := by
  dsimp only [hostOps0_4]
  after_results
  rfl

end Stretch

/-! ## The stretches chained from the launch contents -/

theorem V1_v1 (c : Dev nD) :
    (V1 (F := Ideal) m c main_v1 : (⟨S64x2048, .i1⟩ : BufTy).Contents (Elt Ideal)) = isEnd (m ((c : Thread nD τ).loc main_arg1)) :=
  after0_v1 (V0 m c)

theorem V3_v2 (c : Dev nD) :
    (V3 (F := Ideal) m c main_v2 : (⟨S64, .i1⟩ : BufTy).Contents (Elt Ideal)) = hasEnd (m ((c : Thread nD τ).loc main_arg1)) :=
  (V3_of m c main_v2 (by decide)).trans <| (V2_of m c main_v2 (by decide)).trans (after0_v2 (V0 m c))

theorem V3_v3 (c : Dev nD) :
    (V3 (F := Ideal) m c main_v3 : (⟨S64, .i32⟩ : BufTy).Contents (Elt Ideal)) = firstEnd (m ((c : Thread nD τ).loc main_arg1)) := by
  refine (V3_of m c main_v3 (by decide)).trans <| (after1_v3 (V1 m c)).trans ?_
  rw [V1_v1]
  rfl

theorem V3_c1 (c : Dev nD) :
    (V3 (F := Ideal) m c main_c_1 : (⟨S_, .i32⟩ : BufTy).Contents (Elt Ideal)) = constantI S_ 32 64#32 :=
  after2_c1 (V2 m c)

/-- After the fourth stretch `main_v4` holds the rows' end indices. -/
theorem V4_v4 (c : Dev nD) :
    (V4 (F := Ideal) m c main_v4 : (⟨S64, .i32⟩ : BufTy).Contents (Elt Ideal)) = endInd (m ((c : Thread nD τ).loc main_arg1)) := by
  refine (after3_v4 (V3 m c)).trans ?_
  rw [V3_v2, V3_v3, V3_c1]
  rfl

theorem V4_arg2 (c : Dev nD) : V4 (F := Ideal) m c main_arg2 = m ((c : Thread nD τ).loc main_arg2) :=
  (V4_of m c main_arg2 (by decide)).trans <| (V3_of m c main_arg2 (by decide)).trans <|
    (V2_of m c main_arg2 (by decide)).trans <| (V1_of m c main_arg2 (by decide)).trans rfl

/-- The weights' buffer as the operations' term over the launch contents. -/
theorem V5_v14 (c : Dev nD) :
    (V5 (F := Ideal) m c main_v14 : (⟨S64x2048, .f32⟩ : BufTy).Contents (Elt Ideal))
      = mulf (F := Ideal) (φ := .f32) (shapeCast S64x2048 (m ((c : Thread nD τ).loc main_arg2) : (⟨S64x2048x1, .f32⟩ : BufTy).Contents (Elt Ideal)) shapeCasts_S64x2048x1_S64x2048)
          (va (m ((c : Thread nD τ).loc main_arg1))) := by
  refine (after4_v14 (V4 m c)).trans ?_
  rw [V4_v4, V4_arg2]
  rfl

/-- The end-index column as the operations' term over the launch contents. -/
theorem V5_v15 (c : Dev nD) :
    (V5 (F := Ideal) m c main_v15 : (⟨S64x1, .f32⟩ : BufTy).Contents (Elt Ideal))
      = shapeCast S64x1 (en (m ((c : Thread nD τ).loc main_arg1))) shapeCasts_S64_S64x1 := by
  refine (after4_v15 (V4 m c)).trans ?_
  rw [V4_v4]
  rfl

/-! ## Read at an index -/

/-- The mask reshaped to two axes times a validity array, at row `a` and position `b`, is the weight there. -/
theorem mulf_reshape_at (dm : (⟨S64x2048x1, .f32⟩ : BufTy).Contents (Elt Ideal)) (v : (⟨S64x2048, .f32⟩ : BufTy).Contents (Elt Ideal))
    (a : Fin 64) (b : Fin 2048) :
    (mulf (F := Ideal) (φ := .f32) (shapeCast S64x2048 dm shapeCasts_S64x2048x1_S64x2048) v : Cert.Spec.Sm.Idx → EReal) (ix2 a b)
      = Cert.Spec.weight dm v (ix2 a b) := by
  have e : shapeCast S64x2048 dm shapeCasts_S64x2048x1_S64x2048 (ix2 a b) = dm (ix3 a b (0 : Fin 1)) :=
    shapeCast_apply dm shapeCasts_S64x2048x1_S64x2048 (ix2 a b) (ix3 a b (0 : Fin 1)) (by
      rw [Shape.rowMajor_val_three, Shape.rowMajor_val_two]
      show (a.val * 2048 + b.val) * 1 + 0 = a.val * 2048 + b.val
      omega)
  show shapeCast S64x2048 dm shapeCasts_S64x2048x1_S64x2048 (ix2 a b) * v (ix2 a b) = dm (ix3 a b (0 : Fin 1)) * v (ix2 a b)
  rw [e]

/-- A per-row array reshaped to a column reads, at row `b`, the array at `b`. -/
theorem reshape_col_at (x : (⟨S64, .f32⟩ : BufTy).Contents (Elt Ideal)) (b : Fin 64) :
    (shapeCast S64x1 x shapeCasts_S64_S64x1 : (⟨2, ![64, 1]⟩ : Shape).Idx → EReal) (ix2 b (0 : Fin 1)) = x (ix1 b) :=
  shapeCast_apply x shapeCasts_S64_S64x1 (ix2 b (0 : Fin 1)) (ix1 b) (by
    rw [Shape.rowMajor_val_two, Shape.rowMajor_val_one]
    show b.val = b.val * 1 + 0
    omega)

/-- The rows' weights the reduction call is handed: the dropout mask's entry times the validity. -/
theorem V5_weight (c : Dev nD) :
    (V5 (F := Ideal) m c main_v14 : Cert.Spec.Sm.Idx → EReal)
      = Cert.Spec.weight (m ((c : Thread nD τ).loc main_arg2)) (va (m ((c : Thread nD τ).loc main_arg1))) := by
  funext j
  obtain ⟨a, b, rfl⟩ : ∃ a b, j = ix2 a b := ⟨j 0, j 1, eq_ix2 j⟩
  exact (congrFun (V5_v14 m c) (ix2 a b)).trans (mulf_reshape_at _ _ a b)

/-- The end-index column the reduction call is handed: the row's end index as a float. -/
theorem V5_en (c : Dev nD) (b : Fin 64) :
    (V5 (F := Ideal) m c main_v15 : (⟨2, ![64, 1]⟩ : Shape).Idx → EReal) (ix2 b (0 : Fin 1))
      = en (m ((c : Thread nD τ).loc main_arg1)) (ix1 b) := by
  exact (congrFun (V5_v15 m c) (ix2 b (0 : Fin 1))).trans (reshape_col_at _ b)

/-- No host stretch writes the activations. -/
theorem V5_arg0 (c : Dev nD) : V5 (F := Ideal) m c main_arg0 = m ((c : Thread nD τ).loc main_arg0) :=
  (V5_of m c main_arg0 (by decide)).trans <| (V4_of m c main_arg0 (by decide)).trans <|
    (V3_of m c main_arg0 (by decide)).trans <| (V2_of m c main_arg0 (by decide)).trans <|
      (V1_of m c main_arg0 (by decide)).trans rfl

end Cert.KernelIdeal.Hand

end
-- ==== Proof.Ref.Head.lean ====
/-
  The integer head of the reference: from the token ids, each row's end index and the validity of each sequence
  position, and their float forms. Carried as named functions of the ids; nothing here looks inside the argmax.
-/
import proofs.«169118_j75849122448044_1_alg».proof.Proof.Gen.ReferenceIdeal

noncomputable section

namespace Cert.ReferenceIdeal.Hand

open Idealize.ShloMosaic Cert.ReferenceIdeal Cert.ReferenceIdeal.Gen

variable {F : FTy → Type} [FloatOps F]

/-- Where a token is the end marker (the id 1). -/
def isEnd (ids : (⟨S64x2048, .i32⟩ : BufTy).Contents (Elt F)) : (⟨S64x2048, .i1⟩ : BufTy).Contents (Elt F) :=
  cmpi .eq ids (broadcastInDim S64x2048 ![] bcast_S_S64x2048 (constantI S_ 32 1#32))

/-- Whether a row has an end marker at all. -/
def hasEnd (ids : (⟨S64x2048, .i32⟩ : BufTy).Contents (Elt F)) : (⟨S64, .i1⟩ : BufTy).Contents (Elt F) :=
  Host.reduce IntOp.ori (isEnd ids) (constantI S_ 1 0#1) reducesTo_S64x2048_S64_d1 h_S_

/-- The position of a row's first end marker (the argmax of the marker bits along the row). -/
def firstEnd (ids : (⟨S64x2048, .i32⟩ : BufTy).Contents (Elt F)) : (⟨S64, .i32⟩ : BufTy).Contents (Elt F) :=
  fun j => (Host.reduce2 reducer_argmax_i1_i32 (isEnd ids) (iotaInDim S64x2048 32 1) (constantI S_ 1 0#1) (constantI S_ 32 0#32) reducesTo_S64x2048_S64_d1 h_S_ j).2

/-- A row's end index: its first end marker's position, or 64 when it has none. -/
def endInd (ids : (⟨S64x2048, .i32⟩ : BufTy).Contents (Elt F)) : (⟨S64, .i32⟩ : BufTy).Contents (Elt F) :=
  select (hasEnd ids) (firstEnd ids) (broadcastInDim S64 ![] bcast_S_S64 (id (constantI S_ 32 64#32)))

/-- The validity bits: position `s` of row `b` is valid when `s` is below the row's end index (signed compare). -/
def validI (ids : (⟨S64x2048, .i32⟩ : BufTy).Contents (Elt F)) : (⟨S64x2048, .i1⟩ : BufTy).Contents (Elt F) :=
  cmpi .slt
    (broadcastInDim S64x2048 ![0, 1] bcast_S1x2048_S64x2048_0_1 (broadcastInDim S1x2048 ![1] bcast_S2048_S1x2048_1 (iotaInDim S2048 32 0)))
    (broadcastInDim S64x2048 ![0, 1] bcast_S64x1_S64x2048_0_1 (broadcastInDim S64x1 ![0] bcast_S64_S64x1_0 (endInd ids)))

/-- The validity as floats: one where valid, zero elsewhere. -/
def va (ids : (⟨S64x2048, .i32⟩ : BufTy).Contents (Elt F)) : (⟨S64x2048, .f32⟩ : BufTy).Contents (Elt F) :=
  uitofp .f32 (validI ids)

/-- The end index as a float, per row. -/
def en (ids : (⟨S64x2048, .i32⟩ : BufTy).Contents (Elt F)) : (⟨S64, .f32⟩ : BufTy).Contents (Elt F) :=
  sitofp .f32 (endInd ids)

/-- The reference's result as one term of its seven arguments: the operations of its program composed, the integer head
    by name. -/
def refTerm (a0 : (⟨S64x2048x1024, .f32⟩ : BufTy).Contents (Elt F)) (a1 : (⟨S64x2048, .i32⟩ : BufTy).Contents (Elt F))
    (a2 : (⟨S64x2048x1, .f32⟩ : BufTy).Contents (Elt F)) (a3 : (⟨S300x1024, .f32⟩ : BufTy).Contents (Elt F))
    (a4 : (⟨S300, .f32⟩ : BufTy).Contents (Elt F)) (a5 : (⟨S2x300, .f32⟩ : BufTy).Contents (Elt F))
    (a6 : (⟨S2, .f32⟩ : BufTy).Contents (Elt F)) : (⟨S64x2, .f32⟩ : BufTy).Contents (Elt F) :=
  let v12 := mulf a0 (broadcastInDim S64x2048x1024 ![0, 1, 2] bcast_S64x2048x1_S64x2048x1024_0_1_2 a2)
  let v15 := broadcastInDim S64x2048x1024 ![0, 1, 2] bcast_S64x2048x1_S64x2048x1024_0_1_2
    (uitofp .f32 (broadcastInDim S64x2048x1 ![0, 1] bcast_S64x2048_S64x2048x1_0_1 (validI a1)))
  let v17 := Host.reduceAdd (mulf v12 v15) (constant S_ .f32 0x00000000#32) reducesTo_S64x2048x1024_S64x1024_d1 h_S_
  let v20 := broadcastInDim S64x1024 ![0, 1] bcast_S64x1_S64x1024_0_1 (sitofp .f32 (broadcastInDim S64x1 ![0] bcast_S64_S64x1_0 (endInd a1)))
  let v21 := Host.divf v17 v20
  let v23 := Host.dotGeneral dot_S64x1024_S1024x300_S64x300_1_0_0_1_n_n none v21 (transpose S1024x300 [1, 0] a3 transposes_S300x1024_S1024x300_1_0)
  let v27 := Host.tanh (addf v23 (broadcastInDim S64x300 ![0, 1] bcast_S1x300_S64x300_0_1 (broadcastInDim S1x300 ![1] bcast_S300_S1x300_1 a4)))
  let v29 := Host.dotGeneral dot_S64x300_S300x2_S64x2_1_0_0_1_n_n none v27 (transpose S300x2 [1, 0] a5 transposes_S2x300_S300x2_1_0)
  addf v29 (broadcastInDim S64x2 ![0, 1] bcast_S1x2_S64x2_0_1 (broadcastInDim S1x2 ![1] bcast_S2_S1x2_1 a6))

end Cert.ReferenceIdeal.Hand

end
-- ==== Proof.Ref.Run.lean ====
/-
  The reference's run. Its program is a straight line of forty-three tensor operations once the two outlined
  functions (the arg-max of the end-marker bits along each row, and the select that falls back to 64) are
  substituted at their calls. Every weakly fair execution therefore terminates, each buffer ending at the fold
  of the operations' values over the launch contents; read at the result buffer that fold is the composed term
  `refTerm` of the seven arguments, and no operation writes an argument, so the arguments end as they began.
-/
import proofs.«169118_j75849122448044_1_alg».proof.Proof.Ref.Head
import Idealize.ShloMosaic.Lib.StableHlo.Run
import Idealize.ShloMosaic.Lib.ValueIdx

set_option maxRecDepth 16384

noncomputable section

open scoped BigOperators

namespace Cert.ReferenceIdeal.Hand

open Idealize.ShloMosaic Idealize.ShloMosaic.TcCoe Idealize.ShloMosaic.ValueIdx
open Idealize.SL Idealize.SL.Sem
open Cert.ReferenceIdeal Cert.ReferenceIdeal.Gen

namespace RefRun

variable {F : FTy → Type} [FloatOps F]

/-- The program's operations in order, each outlined function's operations written at its call over that call's
    own buffers: five for the arg-max (the position table, the two initial values, one line per result of the
    paired reduction) and three for the select (the fallback converted to its own type, broadcast, the select). -/
abbrev runOps : List (HloOp τ sig (Elt F)) :=
  [
    StableHlo.nullary main_c (constantI S_ 32 1#32),
    StableHlo.unary main_c main_v0 (broadcastInDim S64x2048 ![] bcast_S_S64x2048 : (⟨S_, .i32⟩ : BufTy).Contents (Elt F) → (⟨S64x2048, .i32⟩ : BufTy).Contents (Elt F)),
    StableHlo.binary main_arg1 main_v0 main_v1 (cmpi .eq : (⟨S64x2048, .i32⟩ : BufTy).Contents (Elt F) → (⟨S64x2048, .i32⟩ : BufTy).Contents (Elt F) → (⟨S64x2048, .i1⟩ : BufTy).Contents (Elt F)),
    StableHlo.nullary main_c_0 (constantI S_ 1 0#1),
    StableHlo.binary main_v1 main_c_0 main_v2 ((fun x v => Host.reduce IntOp.ori x v reducesTo_S64x2048_S64_d1 h_S_) : (⟨S64x2048, .i1⟩ : BufTy).Contents (Elt F) → (⟨S_, .i1⟩ : BufTy).Contents (Elt F) → (⟨S64, .i1⟩ : BufTy).Contents (Elt F)),
    StableHlo.TRef.nullary main_call0.v0 (iotaInDim S64x2048 32 1),
    StableHlo.TRef.nullary main_call0.c (constantI S_ 1 0#1),
    StableHlo.TRef.nullary main_call0.c_0 (constantI S_ 32 0#32),
    StableHlo.TRef.quaternary (.of main_v1) main_call0.v0 main_call0.c main_call0.c_0 main_call0.v1_0 (fun x y u v j => (Host.reduce2 reducer_argmax_i1_i32 x y u v reducesTo_S64x2048_S64_d1 h_S_ j).1),
    StableHlo.TRef.quaternary (.of main_v1) main_call0.v0 main_call0.c main_call0.c_0 main_call0.v1_1 (fun x y u v j => (Host.reduce2 reducer_argmax_i1_i32 x y u v reducesTo_S64x2048_S64_d1 h_S_ j).2),
    StableHlo.nullary main_c_1 (constantI S_ 32 64#32),
    StableHlo.TRef.unary (.of main_c_1) main_call1.v0 id,
    StableHlo.TRef.unary main_call1.v0 main_call1.v1 (broadcastInDim S64 ![] bcast_S_S64),
    StableHlo.TRef.ternary (.of main_v2) (.of main_v3) main_call1.v1 main_call1.v2 select,
    StableHlo.nullary main_v5 (iotaInDim S2048 32 0),
    StableHlo.unary main_v5 main_v6 (broadcastInDim S1x2048 ![1] bcast_S2048_S1x2048_1 : (⟨S2048, .i32⟩ : BufTy).Contents (Elt F) → (⟨S1x2048, .i32⟩ : BufTy).Contents (Elt F)),
    StableHlo.unary main_v4 main_v7 (broadcastInDim S64x1 ![0] bcast_S64_S64x1_0 : (⟨S64, .i32⟩ : BufTy).Contents (Elt F) → (⟨S64x1, .i32⟩ : BufTy).Contents (Elt F)),
    StableHlo.unary main_v6 main_v8 (broadcastInDim S64x2048 ![0, 1] bcast_S1x2048_S64x2048_0_1 : (⟨S1x2048, .i32⟩ : BufTy).Contents (Elt F) → (⟨S64x2048, .i32⟩ : BufTy).Contents (Elt F)),
    StableHlo.unary main_v7 main_v9 (broadcastInDim S64x2048 ![0, 1] bcast_S64x1_S64x2048_0_1 : (⟨S64x1, .i32⟩ : BufTy).Contents (Elt F) → (⟨S64x2048, .i32⟩ : BufTy).Contents (Elt F)),
    StableHlo.binary main_v8 main_v9 main_v10 (cmpi .slt : (⟨S64x2048, .i32⟩ : BufTy).Contents (Elt F) → (⟨S64x2048, .i32⟩ : BufTy).Contents (Elt F) → (⟨S64x2048, .i1⟩ : BufTy).Contents (Elt F)),
    StableHlo.unary main_arg2 main_v11 (broadcastInDim S64x2048x1024 ![0, 1, 2] bcast_S64x2048x1_S64x2048x1024_0_1_2 : (⟨S64x2048x1, .f32⟩ : BufTy).Contents (Elt F) → (⟨S64x2048x1024, .f32⟩ : BufTy).Contents (Elt F)),
    StableHlo.binary main_arg0 main_v11 main_v12 (mulf : (⟨S64x2048x1024, .f32⟩ : BufTy).Contents (Elt F) → (⟨S64x2048x1024, .f32⟩ : BufTy).Contents (Elt F) → (⟨S64x2048x1024, .f32⟩ : BufTy).Contents (Elt F)),
    StableHlo.unary main_v10 main_v13 (broadcastInDim S64x2048x1 ![0, 1] bcast_S64x2048_S64x2048x1_0_1 : (⟨S64x2048, .i1⟩ : BufTy).Contents (Elt F) → (⟨S64x2048x1, .i1⟩ : BufTy).Contents (Elt F)),
    StableHlo.unary main_v13 main_v14 (uitofp .f32 : (⟨S64x2048x1, .i1⟩ : BufTy).Contents (Elt F) → (⟨S64x2048x1, .f32⟩ : BufTy).Contents (Elt F)),
    StableHlo.unary main_v14 main_v15 (broadcastInDim S64x2048x1024 ![0, 1, 2] bcast_S64x2048x1_S64x2048x1024_0_1_2 : (⟨S64x2048x1, .f32⟩ : BufTy).Contents (Elt F) → (⟨S64x2048x1024, .f32⟩ : BufTy).Contents (Elt F)),
    StableHlo.binary main_v12 main_v15 main_v16 (mulf : (⟨S64x2048x1024, .f32⟩ : BufTy).Contents (Elt F) → (⟨S64x2048x1024, .f32⟩ : BufTy).Contents (Elt F) → (⟨S64x2048x1024, .f32⟩ : BufTy).Contents (Elt F)),
    StableHlo.nullary main_cst (constant S_ .f32 0x00000000#32),
    StableHlo.binary main_v16 main_cst main_v17 ((fun x v => Host.reduceAdd x v reducesTo_S64x2048x1024_S64x1024_d1 h_S_) : (⟨S64x2048x1024, .f32⟩ : BufTy).Contents (Elt F) → (⟨S_, .f32⟩ : BufTy).Contents (Elt F) → (⟨S64x1024, .f32⟩ : BufTy).Contents (Elt F)),
    StableHlo.unary main_v4 main_v18 (broadcastInDim S64x1 ![0] bcast_S64_S64x1_0 : (⟨S64, .i32⟩ : BufTy).Contents (Elt F) → (⟨S64x1, .i32⟩ : BufTy).Contents (Elt F)),
    StableHlo.unary main_v18 main_v19 (sitofp .f32 : (⟨S64x1, .i32⟩ : BufTy).Contents (Elt F) → (⟨S64x1, .f32⟩ : BufTy).Contents (Elt F)),
    StableHlo.unary main_v19 main_v20 (broadcastInDim S64x1024 ![0, 1] bcast_S64x1_S64x1024_0_1 : (⟨S64x1, .f32⟩ : BufTy).Contents (Elt F) → (⟨S64x1024, .f32⟩ : BufTy).Contents (Elt F)),
    StableHlo.binary main_v17 main_v20 main_v21 (Host.divf : (⟨S64x1024, .f32⟩ : BufTy).Contents (Elt F) → (⟨S64x1024, .f32⟩ : BufTy).Contents (Elt F) → (⟨S64x1024, .f32⟩ : BufTy).Contents (Elt F)),
    StableHlo.unary main_arg3 main_v22 ((transpose S1024x300 [1, 0] · transposes_S300x1024_S1024x300_1_0) : (⟨S300x1024, .f32⟩ : BufTy).Contents (Elt F) → (⟨S1024x300, .f32⟩ : BufTy).Contents (Elt F)),
    StableHlo.binary main_v21 main_v22 main_v23 ((fun l r => Host.dotGeneral dot_S64x1024_S1024x300_S64x300_1_0_0_1_n_n none l r) : (⟨S64x1024, .f32⟩ : BufTy).Contents (Elt F) → (⟨S1024x300, .f32⟩ : BufTy).Contents (Elt F) → (⟨S64x300, .f32⟩ : BufTy).Contents (Elt F)),
    StableHlo.unary main_arg4 main_v24 (broadcastInDim S1x300 ![1] bcast_S300_S1x300_1 : (⟨S300, .f32⟩ : BufTy).Contents (Elt F) → (⟨S1x300, .f32⟩ : BufTy).Contents (Elt F)),
    StableHlo.unary main_v24 main_v25 (broadcastInDim S64x300 ![0, 1] bcast_S1x300_S64x300_0_1 : (⟨S1x300, .f32⟩ : BufTy).Contents (Elt F) → (⟨S64x300, .f32⟩ : BufTy).Contents (Elt F)),
    StableHlo.binary main_v23 main_v25 main_v26 (addf : (⟨S64x300, .f32⟩ : BufTy).Contents (Elt F) → (⟨S64x300, .f32⟩ : BufTy).Contents (Elt F) → (⟨S64x300, .f32⟩ : BufTy).Contents (Elt F)),
    StableHlo.unary main_v26 main_v27 (Host.tanh : (⟨S64x300, .f32⟩ : BufTy).Contents (Elt F) → (⟨S64x300, .f32⟩ : BufTy).Contents (Elt F)),
    StableHlo.unary main_arg5 main_v28 ((transpose S300x2 [1, 0] · transposes_S2x300_S300x2_1_0) : (⟨S2x300, .f32⟩ : BufTy).Contents (Elt F) → (⟨S300x2, .f32⟩ : BufTy).Contents (Elt F)),
    StableHlo.binary main_v27 main_v28 main_v29 ((fun l r => Host.dotGeneral dot_S64x300_S300x2_S64x2_1_0_0_1_n_n none l r) : (⟨S64x300, .f32⟩ : BufTy).Contents (Elt F) → (⟨S300x2, .f32⟩ : BufTy).Contents (Elt F) → (⟨S64x2, .f32⟩ : BufTy).Contents (Elt F)),
    StableHlo.unary main_arg6 main_v30 (broadcastInDim S1x2 ![1] bcast_S2_S1x2_1 : (⟨S2, .f32⟩ : BufTy).Contents (Elt F) → (⟨S1x2, .f32⟩ : BufTy).Contents (Elt F)),
    StableHlo.unary main_v30 main_v31 (broadcastInDim S64x2 ![0, 1] bcast_S1x2_S64x2_0_1 : (⟨S1x2, .f32⟩ : BufTy).Contents (Elt F) → (⟨S64x2, .f32⟩ : BufTy).Contents (Elt F)),
    StableHlo.binary main_v29 main_v31 main_v32 (addf : (⟨S64x2, .f32⟩ : BufTy).Contents (Elt F) → (⟨S64x2, .f32⟩ : BufTy).Contents (Elt F) → (⟨S64x2, .f32⟩ : BufTy).Contents (Elt F)) ]

set_option maxRecDepth 4096 in
/-- The program is that straight line: with the two functions' bodies substituted and sequencing reassociated,
    both sides are the same chain of steps. -/
theorem main_eq (c : Dev nD) : main (F := F) c = StableHlo.seq runOps := by
  simp only [main, fn_argmax.body, fn_where.body, StableHlo.seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the tensor core only. -/
theorem runOps_sub : (runOps : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.binary_bufs_sub .., StableHlo.nullary_bufs_sub .., StableHlo.nullary_bufs_sub .., StableHlo.nullary_bufs_sub .., StableHlo.quaternary_bufs_sub .., StableHlo.quaternary_bufs_sub .., StableHlo.nullary_bufs_sub .., StableHlo.unary_bufs_sub .., StableHlo.unary_bufs_sub .., StableHlo.ternary_bufs_sub .., StableHlo.nullary_bufs_sub .., StableHlo.unary_bufs_sub .., StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.unary_bufs_sub .., StableHlo.binary_bufs_sub .., StableHlo.nullary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub ..⟩

/-- Read at the result buffer, the fold of the operations over any contents is the composed term of the
    arguments' contents: each operation's value at its own buffer, every other buffer as it was. -/
theorem out_eq (V : Valuation τ sig (Elt F)) :
    StableHlo.after runOps V (main_v32 : DevRef τ sig)
      = refTerm (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) := by
  open Idealize.ShloMosaic.StableHlo in after_results_simp
  simp only [StableHlo.TRef.ofBuf, StableHlo.TRef.toBuf, cast_eq]
  unfold refTerm validI endInd hasEnd firstEnd isEnd
  rfl

theorem arg0_eq (V : Valuation τ sig (Elt F)) :
    StableHlo.after runOps V (main_arg0 : DevRef τ sig) = V (main_arg0 : DevRef τ sig) := by
  open Idealize.ShloMosaic.StableHlo in after_results_simp

theorem arg1_eq (V : Valuation τ sig (Elt F)) :
    StableHlo.after runOps V (main_arg1 : DevRef τ sig) = V (main_arg1 : DevRef τ sig) := by
  open Idealize.ShloMosaic.StableHlo in after_results_simp

theorem arg2_eq (V : Valuation τ sig (Elt F)) :
    StableHlo.after runOps V (main_arg2 : DevRef τ sig) = V (main_arg2 : DevRef τ sig) := by
  open Idealize.ShloMosaic.StableHlo in after_results_simp

theorem arg3_eq (V : Valuation τ sig (Elt F)) :
    StableHlo.after runOps V (main_arg3 : DevRef τ sig) = V (main_arg3 : DevRef τ sig) := by
  open Idealize.ShloMosaic.StableHlo in after_results_simp

theorem arg4_eq (V : Valuation τ sig (Elt F)) :
    StableHlo.after runOps V (main_arg4 : DevRef τ sig) = V (main_arg4 : DevRef τ sig) := by
  open Idealize.ShloMosaic.StableHlo in after_results_simp

theorem arg5_eq (V : Valuation τ sig (Elt F)) :
    StableHlo.after runOps V (main_arg5 : DevRef τ sig) = V (main_arg5 : DevRef τ sig) := by
  open Idealize.ShloMosaic.StableHlo in after_results_simp

theorem arg6_eq (V : Valuation τ sig (Elt F)) :
    StableHlo.after runOps V (main_arg6 : DevRef τ sig) = V (main_arg6 : DevRef τ sig) := by
  open Idealize.ShloMosaic.StableHlo in after_results_simp

/-- For any float values, from any memory with zero counters: every weakly fair execution of the program
    terminates with the result buffer at the composed term of the arguments, and the arguments unchanged. -/
theorem run_any (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v32) = refTerm (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono
    (fun _ h c => ⟨(h c main_v32).trans (out_eq _), (h c main_arg0).trans (arg0_eq _), (h c main_arg1).trans (arg1_eq _), (h c main_arg2).trans (arg2_eq _), (h c main_arg3).trans (arg3_eq _), (h c main_arg4).trans (arg4_eq _), (h c main_arg5).trans (arg5_eq _), (h c main_arg6).trans (arg6_eq _)⟩)
    (StableHlo.run_seq scopedRefs_eq scopedSems_eq defs main (fun _ => runOps) main_eq (fun _ => runOps_sub) m ρ)

end RefRun

/-- Every weakly fair execution of the reference terminates; the result is `refTerm` of the arguments, which end unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v32) = refTerm (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  exact RefRun.run_any (F := Ideal) m ρ

end Cert.ReferenceIdeal.Hand

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.Ref.Value.lean ====
/-
  The reference's composed term is the specification, index by index at the ideal values. At (b, d) the pooled
  feature is the host's sum over the 2048 sequence positions of (x · dm) · va, which is the specification's sum of
  x · (dm · va) by associativity of the extended reals' product, over the float end index. Each of the two layers is a
  plain matrix product against a transposed weight matrix, read as the sum over the shared axis, plus a bias broadcast
  along the rows (and, for the first layer, the hyperbolic tangent).
-/
import proofs.«169118_j75849122448044_1_alg».proof.Proof.Ref.Head
import proofs.«169118_j75849122448044_1_alg».proof.Proof.Spec
import proofs.«169118_j75849122448044_1_alg».proof.Proof.LibDot
import Idealize.ShloMosaic.Lib.ValueIdx
import Idealize.ShloMosaic.Lib.ValueLayout
import Idealize.ShloMosaic.Lib.IdealHost
import Idealize.ShloMosaic.Lib.Pipeline.Value
import Idealize.ShloMosaic.PureOps.Ideal.Laws

set_option maxRecDepth 16384

noncomputable section

open scoped BigOperators

namespace Cert.ReferenceIdeal.Hand

open Idealize.ShloMosaic Idealize.ShloMosaic.TcCoe Idealize.ShloMosaic.ValueIdx
open Idealize.SL Idealize.SL.Sem
open Cert.ReferenceIdeal Cert.ReferenceIdeal.Gen

/-! ## The broadcasts read at an index -/

section Broadcasts
variable {α : Type}

/-- A `[64, 2048, 1]` array broadcast along the feature axis reads, at `(b, s, d)`, the operand at `(b, s, 0)`. -/
theorem bc_dm (x : S64x2048x1.Idx → α) (b : Fin 64) (s : Fin 2048) (d : Fin 1024) :
    broadcastInDim S64x2048x1024 ![0, 1, 2] bcast_S64x2048x1_S64x2048x1024_0_1_2 x (ix3 b s d) = x (ix3 b s (0 : Fin 1)) :=
  broadcastInDim_apply _ _ x _ _ fun a => match a with | ⟨0, _⟩ => rfl | ⟨1, _⟩ => rfl | ⟨2, _⟩ => rfl

/-- A `[64, 2048]` array given a trailing unit axis reads, at `(b, s, 0)`, the operand at `(b, s)`. -/
theorem bc_va (x : S64x2048.Idx → α) (b : Fin 64) (s : Fin 2048) :
    broadcastInDim S64x2048x1 ![0, 1] bcast_S64x2048_S64x2048x1_0_1 x (ix3 b s (0 : Fin 1)) = x (ix2 b s) :=
  broadcastInDim_apply _ _ x _ _ fun a => match a with | ⟨0, _⟩ => rfl | ⟨1, _⟩ => rfl

/-- A `[64]` array given a trailing unit axis reads, at `(b, 0)`, the operand at `b`. -/
theorem bc_en1 (x : S64.Idx → α) (b : Fin 64) :
    broadcastInDim S64x1 ![0] bcast_S64_S64x1_0 x (ix2 b (0 : Fin 1)) = x (ix1 b) :=
  broadcastInDim_apply _ _ x _ _ fun a => match a with | ⟨0, _⟩ => rfl

/-- A `[64, 1]` column broadcast along the feature axis reads, at `(b, d)`, the operand at `(b, 0)`. -/
theorem bc_en2 (x : S64x1.Idx → α) (b : Fin 64) (d : Fin 1024) :
    broadcastInDim S64x1024 ![0, 1] bcast_S64x1_S64x1024_0_1 x (ix2 b d) = x (ix2 b (0 : Fin 1)) :=
  broadcastInDim_apply _ _ x _ _ fun a => match a with | ⟨0, _⟩ => rfl | ⟨1, _⟩ => rfl

/-- A `[300]` array given a leading unit axis reads, at `(0, h)`, the operand at `h`. -/
theorem bc_b1a (x : S300.Idx → α) (h : Fin 300) :
    broadcastInDim S1x300 ![1] bcast_S300_S1x300_1 x (ix2 (0 : Fin 1) h) = x (ix1 h) :=
  broadcastInDim_apply _ _ x _ _ fun a => match a with | ⟨0, _⟩ => rfl

/-- A `[1, 300]` row broadcast over the 64 rows reads, at `(b, h)`, the operand at `(0, h)`. -/
theorem bc_b1b (x : S1x300.Idx → α) (b : Fin 64) (h : Fin 300) :
    broadcastInDim S64x300 ![0, 1] bcast_S1x300_S64x300_0_1 x (ix2 b h) = x (ix2 (0 : Fin 1) h) :=
  broadcastInDim_apply _ _ x _ _ fun a => match a with | ⟨0, _⟩ => rfl | ⟨1, _⟩ => rfl

/-- A `[2]` array given a leading unit axis reads, at `(0, o)`, the operand at `o`. -/
theorem bc_b2a (x : S2.Idx → α) (o : Fin 2) :
    broadcastInDim S1x2 ![1] bcast_S2_S1x2_1 x (ix2 (0 : Fin 1) o) = x (ix1 o) :=
  broadcastInDim_apply _ _ x _ _ fun a => match a with | ⟨0, _⟩ => rfl

/-- A `[1, 2]` row broadcast over the 64 rows reads, at `(b, o)`, the operand at `(0, o)`. -/
theorem bc_b2b (x : S1x2.Idx → α) (b : Fin 64) (o : Fin 2) :
    broadcastInDim S64x2 ![0, 1] bcast_S1x2_S64x2_0_1 x (ix2 b o) = x (ix2 (0 : Fin 1) o) :=
  broadcastInDim_apply _ _ x _ _ fun a => match a with | ⟨0, _⟩ => rfl | ⟨1, _⟩ => rfl

end Broadcasts

/-! ## The pooled features -/

/-- An unsigned-integer-to-float conversion at an index converts the element. -/
theorem uitofp_at {s : Shape} {w : Nat} (x : IVec s w) (i : s.Idx) :
    (uitofp .f32 x : FVec Ideal s .f32) i = FloatOps.uitofp .f32 (x i) := rfl

/-- The index of the `[64, 2048, 1024]` array that reduces to `(b, d)` with sequence coordinate `s` is `(b, s, d)`. -/
theorem red_lift (h : S64x2048x1024.Reduces [1] S64x1024) (b : Fin 64) (d : Fin 1024) (s : Fin 2048) :
    h.lift (ix2 b d) s = ix3 b s d :=
  funext fun a => Fin.ext (match a with | ⟨0, _⟩ => rfl | ⟨1, _⟩ => rfl | ⟨2, _⟩ => rfl)

/-- One summand of the pooled feature: `(x · dm) · va` at `(b, s, d)` is `x · (dm · va)`, the broadcasts read through. -/
theorem pooledSummand (a0 : (⟨S64x2048x1024, .f32⟩ : BufTy).Contents (Elt Ideal)) (a1 : (⟨S64x2048, .i32⟩ : BufTy).Contents (Elt Ideal))
    (a2 : (⟨S64x2048x1, .f32⟩ : BufTy).Contents (Elt Ideal)) (b : Fin 64) (s : Fin 2048) (d : Fin 1024) :
    mulf (F := Ideal) (mulf a0 (broadcastInDim S64x2048x1024 ![0, 1, 2] bcast_S64x2048x1_S64x2048x1024_0_1_2 a2))
        (broadcastInDim S64x2048x1024 ![0, 1, 2] bcast_S64x2048x1_S64x2048x1024_0_1_2
          (uitofp .f32 (broadcastInDim S64x2048x1 ![0, 1] bcast_S64x2048_S64x2048x1_0_1 (validI a1))))
        (ix3 b s d)
      = a0 (ix3 b s d) * (a2 (ix3 b s (0 : Fin 1)) * va a1 (ix2 b s)) := by
  rw [mulf_apply, mulf_apply, bc_dm, bc_dm, uitofp_at, bc_va, mul_assoc]
  rfl

/-- The pooled feature at `(b, d)`: the sum over the sequence from the zero initial value, over the float end index. -/
theorem pooledTerm_apply (a0 : (⟨S64x2048x1024, .f32⟩ : BufTy).Contents (Elt Ideal)) (a1 : (⟨S64x2048, .i32⟩ : BufTy).Contents (Elt Ideal))
    (a2 : (⟨S64x2048x1, .f32⟩ : BufTy).Contents (Elt Ideal)) (b : Fin 64) (d : Fin 1024) :
    Host.divf (F := Ideal)
        (Host.reduceAdd
          (mulf (mulf a0 (broadcastInDim S64x2048x1024 ![0, 1, 2] bcast_S64x2048x1_S64x2048x1024_0_1_2 a2))
            (broadcastInDim S64x2048x1024 ![0, 1, 2] bcast_S64x2048x1_S64x2048x1024_0_1_2
              (uitofp .f32 (broadcastInDim S64x2048x1 ![0, 1] bcast_S64x2048_S64x2048x1_0_1 (validI a1)))))
          (constant S_ .f32 0x00000000#32) reducesTo_S64x2048x1024_S64x1024_d1 h_S_)
        (broadcastInDim S64x1024 ![0, 1] bcast_S64x1_S64x1024_0_1 (sitofp .f32 (broadcastInDim S64x1 ![0] bcast_S64_S64x1_0 (endInd a1))))
        (ix2 b d)
      = Cert.Spec.pooled a0 a2 (va a1) (en a1) (ix2 b d) := by
  have hR : S64x2048x1024.Reduces [1] S64x1024 := by decide
  rw [hostDivf_apply, hostReduceAdd_apply, Ideal.hostReduceAdd_single _ hR, constant_apply, Ideal.ofBits_zero_f32, zero_add,
    bc_en2, sitofp_apply, bc_en1]
  unfold Cert.Spec.pooled Cert.Spec.pooledW Cert.Spec.weight
  refine congrArg₂ Ideal.div (Finset.sum_congr rfl fun (s : Fin 2048) _ => ?_) rfl
  rw [red_lift, pooledSummand]

/-! ## The two layers -/

/-- The two products' dimension numbers are the plain ones: rows by columns, one shared axis, no batch axis. -/
theorem dot1_eq : dot_S64x1024_S1024x300_S64x300_1_0_0_1_n_n = DotDims.plain 64 1024 300 := rfl
theorem dot2_eq : dot_S64x300_S300x2_S64x2_1_0_0_1_n_n = DotDims.plain 64 300 2 := rfl

/-- The hidden unit `(b, h)` over any pooled features `f`: `tanh` of row `b` of `f` against row `h` of the first weight
    matrix (the transpose read back) plus the first bias at `h`. -/
theorem hiddenTerm_apply (f : FVec Ideal S64x1024 .f32) (a3 : (⟨S300x1024, .f32⟩ : BufTy).Contents (Elt Ideal))
    (a4 : (⟨S300, .f32⟩ : BufTy).Contents (Elt Ideal)) (b : Fin 64) (h : Fin 300) :
    Host.tanh (F := Ideal) (φ := .f32)
        (addf (Host.dotGeneral (φ₁ := .f32) (φ₂ := .f32) dot_S64x1024_S1024x300_S64x300_1_0_0_1_n_n none f
            (transpose S1024x300 [1, 0] a3 transposes_S300x1024_S1024x300_1_0))
          (broadcastInDim S64x300 ![0, 1] bcast_S1x300_S64x300_0_1 (broadcastInDim S1x300 ![1] bcast_S300_S1x300_1 a4)))
        (ix2 b h)
      = Cert.Spec.hidden f a3 a4 (ix2 b h) := by
  show FloatOps.hostUnary (F := Ideal) .tanh (addf (F := Ideal) _ _ (ix2 b h)) = _
  rw [Ideal.hostUnary_tanh_def, addf_apply, bc_b1b, bc_b1a, dot1_eq]
  simp only [Host.dotGeneral]
  rw [Cert.GNN.dotGeneral_plain_apply]
  unfold Cert.Spec.hidden
  refine congrArg Ideal.tanh (congrArg₂ (· + ·) (Finset.sum_congr rfl fun (k : Fin 1024) _ => ?_) rfl)
  rw [transpose_ix2_apply]

/-- The output `(b, o)` over any hidden layer `hh`: row `b` of `hh` against row `o` of the second weight matrix plus the
    second bias at `o`. -/
theorem outTerm_apply (hh : FVec Ideal S64x300 .f32) (a5 : (⟨S2x300, .f32⟩ : BufTy).Contents (Elt Ideal))
    (a6 : (⟨S2, .f32⟩ : BufTy).Contents (Elt Ideal)) (b : Fin 64) (o : Fin 2) :
    addf (F := Ideal) (φ := .f32)
        (Host.dotGeneral (φ₁ := .f32) (φ₂ := .f32) dot_S64x300_S300x2_S64x2_1_0_0_1_n_n none hh
          (transpose S300x2 [1, 0] a5 transposes_S2x300_S300x2_1_0))
        (broadcastInDim S64x2 ![0, 1] bcast_S1x2_S64x2_0_1 (broadcastInDim S1x2 ![1] bcast_S2_S1x2_1 a6))
        (ix2 b o)
      = Cert.Spec.outp hh a5 a6 (ix2 b o) := by
  rw [addf_apply, bc_b2b, bc_b2a, dot2_eq]
  simp only [Host.dotGeneral]
  rw [Cert.GNN.dotGeneral_plain_apply]
  unfold Cert.Spec.outp
  refine congrArg₂ (· + ·) (Finset.sum_congr rfl fun (k : Fin 300) _ => ?_) rfl
  rw [transpose_ix2_apply]

/-! ## The three stages as arrays, and the whole -/

/-- The pooled features as an array. -/
theorem pooledTerm_eq (a0 : (⟨S64x2048x1024, .f32⟩ : BufTy).Contents (Elt Ideal)) (a1 : (⟨S64x2048, .i32⟩ : BufTy).Contents (Elt Ideal))
    (a2 : (⟨S64x2048x1, .f32⟩ : BufTy).Contents (Elt Ideal)) :
    (Host.divf (F := Ideal)
        (Host.reduceAdd
          (mulf (mulf a0 (broadcastInDim S64x2048x1024 ![0, 1, 2] bcast_S64x2048x1_S64x2048x1024_0_1_2 a2))
            (broadcastInDim S64x2048x1024 ![0, 1, 2] bcast_S64x2048x1_S64x2048x1024_0_1_2
              (uitofp .f32 (broadcastInDim S64x2048x1 ![0, 1] bcast_S64x2048_S64x2048x1_0_1 (validI a1)))))
          (constant S_ .f32 0x00000000#32) reducesTo_S64x2048x1024_S64x1024_d1 h_S_)
        (broadcastInDim S64x1024 ![0, 1] bcast_S64x1_S64x1024_0_1 (sitofp .f32 (broadcastInDim S64x1 ![0] bcast_S64_S64x1_0 (endInd a1))))
      : Cert.Spec.Sf.Idx → EReal)
      = Cert.Spec.pooled a0 a2 (va a1) (en a1) := by
  funext j
  obtain ⟨b, d, rfl⟩ : ∃ (b : Fin 64) (d : Fin 1024), j = ix2 b d := ⟨j 0, j 1, eq_ix2 j⟩
  exact pooledTerm_apply a0 a1 a2 b d

/-- The hidden layer as an array, over any pooled features. -/
theorem hiddenTerm_eq (f : FVec Ideal S64x1024 .f32) (a3 : (⟨S300x1024, .f32⟩ : BufTy).Contents (Elt Ideal))
    (a4 : (⟨S300, .f32⟩ : BufTy).Contents (Elt Ideal)) :
    (Host.tanh (F := Ideal) (φ := .f32)
        (addf (Host.dotGeneral (φ₁ := .f32) (φ₂ := .f32) dot_S64x1024_S1024x300_S64x300_1_0_0_1_n_n none f
            (transpose S1024x300 [1, 0] a3 transposes_S300x1024_S1024x300_1_0))
          (broadcastInDim S64x300 ![0, 1] bcast_S1x300_S64x300_0_1 (broadcastInDim S1x300 ![1] bcast_S300_S1x300_1 a4)))
      : Cert.Spec.Sh.Idx → EReal)
      = Cert.Spec.hidden f a3 a4 := by
  funext j
  obtain ⟨b, h, rfl⟩ : ∃ (b : Fin 64) (h : Fin 300), j = ix2 b h := ⟨j 0, j 1, eq_ix2 j⟩
  exact hiddenTerm_apply f a3 a4 b h

/-- The output layer as an array, over any hidden layer. -/
theorem outTerm_eq (hh : FVec Ideal S64x300 .f32) (a5 : (⟨S2x300, .f32⟩ : BufTy).Contents (Elt Ideal))
    (a6 : (⟨S2, .f32⟩ : BufTy).Contents (Elt Ideal)) :
    (addf (F := Ideal) (φ := .f32)
        (Host.dotGeneral (φ₁ := .f32) (φ₂ := .f32) dot_S64x300_S300x2_S64x2_1_0_0_1_n_n none hh
          (transpose S300x2 [1, 0] a5 transposes_S2x300_S300x2_1_0))
        (broadcastInDim S64x2 ![0, 1] bcast_S1x2_S64x2_0_1 (broadcastInDim S1x2 ![1] bcast_S2_S1x2_1 a6))
      : Cert.Spec.So.Idx → EReal)
      = Cert.Spec.outp hh a5 a6 := by
  funext j
  obtain ⟨b, o, rfl⟩ : ∃ (b : Fin 64) (o : Fin 2), j = ix2 b o := ⟨j 0, j 1, eq_ix2 j⟩
  exact outTerm_apply hh a5 a6 b o

/-- The reference's term is the specification: the output layer of the hidden layer of the pooled features. -/
theorem refTerm_eq (a0 : (⟨S64x2048x1024, .f32⟩ : BufTy).Contents (Elt Ideal)) (a1 : (⟨S64x2048, .i32⟩ : BufTy).Contents (Elt Ideal))
    (a2 : (⟨S64x2048x1, .f32⟩ : BufTy).Contents (Elt Ideal)) (a3 : (⟨S300x1024, .f32⟩ : BufTy).Contents (Elt Ideal))
    (a4 : (⟨S300, .f32⟩ : BufTy).Contents (Elt Ideal)) (a5 : (⟨S2x300, .f32⟩ : BufTy).Contents (Elt Ideal))
    (a6 : (⟨S2, .f32⟩ : BufTy).Contents (Elt Ideal)) :
    (refTerm (F := Ideal) a0 a1 a2 a3 a4 a5 a6 : Cert.Spec.So.Idx → EReal)
      = Cert.Spec.G a0 a2 (va a1) (en a1) a3 a4 a5 a6 := by
  unfold refTerm Cert.Spec.G Cert.Spec.mlp
  dsimp only
  rw [outTerm_eq, hiddenTerm_eq, pooledTerm_eq]

end Cert.ReferenceIdeal.Hand

end
-- ==== Proof.Bridge.lean ====
/-
  The two programs compute one function.

  The kernel program: the MLP call leaves the two layers of the pooled features it is handed; the pooled features are
  what the reduction call leaves, the rows' weighted sums over the sequence over their end indices; the weights it is
  handed are the dropout mask's entries times the validity, the end indices the head's; and no item of the program
  writes an argument. So its result is `G` of the arguments. The reference's composed term is the same `G`. The two
  integer heads — end index and validity from the token ids — are the same operations in both programs, so they are
  the same functions of the ids.
-/
import proofs.«169118_j75849122448044_1_alg».proof.Proof.KI.RunV
import proofs.«169118_j75849122448044_1_alg».proof.Proof.KI.V0
import proofs.«169118_j75849122448044_1_alg».proof.Proof.KI.V1
import proofs.«169118_j75849122448044_1_alg».proof.Proof.KI.HostV
import proofs.«169118_j75849122448044_1_alg».proof.Proof.Ref.Run
import proofs.«169118_j75849122448044_1_alg».proof.Proof.Ref.Value

set_option maxRecDepth 16384

noncomputable section

open scoped BigOperators

/-! ## The integer heads coincide -/

namespace Cert.Bridge

open Idealize.ShloMosaic

/-- The validity as floats: the same function of the token ids in both programs. -/
theorem va_eq (ids : (⟨Cert.KernelIdeal.S64x2048, .i32⟩ : BufTy).Contents (Elt Ideal)) :
    Cert.KernelIdeal.Hand.va (F := Ideal) ids = Cert.ReferenceIdeal.Hand.va (F := Ideal) ids := rfl

/-- The end index as a float: the same function of the token ids in both programs. -/
theorem en_eq (ids : (⟨Cert.KernelIdeal.S64x2048, .i32⟩ : BufTy).Contents (Elt Ideal)) :
    Cert.KernelIdeal.Hand.en (F := Ideal) ids = Cert.ReferenceIdeal.Hand.en (F := Ideal) ids := rfl

end Cert.Bridge

/-! ## The kernel program's result -/

namespace Cert.KernelIdeal.Hand

open Idealize.ShloMosaic Idealize.ShloMosaic.TcCoe Idealize.ShloMosaic.ValueIdx
open Idealize.SL Idealize.SL.Sem
open Cert.KernelIdeal Cert.KernelIdeal.Gen

variable (m : (ℓ : Loc nD τ sig) → Buf (Elt Ideal) ℓ)

/-- The two layers' weights and biases reach the MLP call as launched: no host stretch writes them and the reduction
    call changes only the pooled-feature array. -/
theorem Vr6_arg3 (c : Dev nD) : Vr6 (F := Ideal) m c main_arg3 = m ((c : Thread nD τ).loc main_arg3) :=
  (V7_of m (outsA m) c main_arg3 (by decide)).symm.trans (V7_main_arg3 m (outsA m) c)
theorem Vr6_arg4 (c : Dev nD) : Vr6 (F := Ideal) m c main_arg4 = m ((c : Thread nD τ).loc main_arg4) :=
  (V7_of m (outsA m) c main_arg4 (by decide)).symm.trans (V7_main_arg4 m (outsA m) c)
theorem Vr6_arg5 (c : Dev nD) : Vr6 (F := Ideal) m c main_arg5 = m ((c : Thread nD τ).loc main_arg5) :=
  (V7_of m (outsA m) c main_arg5 (by decide)).symm.trans (V7_main_arg5 m (outsA m) c)
theorem Vr6_arg6 (c : Dev nD) : Vr6 (F := Ideal) m c main_arg6 = m ((c : Thread nD τ).loc main_arg6) :=
  (V7_of m (outsA m) c main_arg6 (by decide)).symm.trans (V7_main_arg6 m (outsA m) c)

/-- Between the two calls the pooled-feature array holds the pooled features of the arguments. -/
theorem pooled_value (c : Dev nD) :
    (Vr6 (F := Ideal) m c main_v16 : Cert.Spec.Sf.Idx → EReal)
      = Cert.Spec.pooled (m ((c : Thread nD τ).loc main_arg0)) (m ((c : Thread nD τ).loc main_arg2)) (va (m ((c : Thread nD τ).loc main_arg1))) (en (m ((c : Thread nD τ).loc main_arg1))) := by
  rw [Vr6_v16, final0 (Vr5 m) c]
  unfold Cert.Spec.pooled
  have hx : xarr (Vr5 m) c = m ((c : Thread nD τ).loc main_arg0) := V5_arg0 m c
  have hw : warr (Vr5 m) c = Cert.Spec.weight (m ((c : Thread nD τ).loc main_arg2)) (va (m ((c : Thread nD τ).loc main_arg1))) := V5_weight m c
  rw [hx, hw]
  unfold Cert.Spec.pooledW
  funext j
  exact congrArg (Ideal.div _) (V5_en m c (j 0))

/-- At the end the result array holds `G` of the arguments. -/
theorem kernel_value (c : Dev nD) :
    (Vr7 (F := Ideal) m c main_v17 : Cert.Spec.So.Idx → EReal)
      = Cert.Spec.G (m ((c : Thread nD τ).loc main_arg0)) (m ((c : Thread nD τ).loc main_arg2)) (va (m ((c : Thread nD τ).loc main_arg1))) (en (m ((c : Thread nD τ).loc main_arg1))) (m ((c : Thread nD τ).loc main_arg3)) (m ((c : Thread nD τ).loc main_arg4)) (m ((c : Thread nD τ).loc main_arg5)) (m ((c : Thread nD τ).loc main_arg6)) := by
  rw [Vr7_v17, final1 (Vr6 m) c, pooled_value m c, Vr6_arg3, Vr6_arg4, Vr6_arg5, Vr6_arg6]
  rfl

end Cert.KernelIdeal.Hand

end
-- ==== Proof.lean ====
/-
  A masked, dropped segment average over the first tokens of each row, then a two-layer perceptron with a hyperbolic
  tangent — a Pallas program of two kernel calls against its jnp reference, equal over the extended reals.

  For each of 64 rows the end index is the position of the first token with id 1 (64 if there is none). The pooled
  feature is the sum over the 2048 positions of activation × dropout-mask entry × validity (position below the end
  index), divided by the end index. The kernel program forms the mask product on the host, sums it against the
  activations in 8 tiles of 256 positions into an accumulator that starts at zero, and divides at the last tile; the
  reference multiplies the three factors in another grouping, takes one sum over all 2048 positions, and divides.
  The two agree by associativity of the product and by regrouping a sum — laws of a commutative monoid, which the
  extended reals are under + and under ·, so the inputs' finiteness is never used. The perceptron is the same on both
  sides: the kernel's two products contract the second axis of both operands where the reference transposes and
  contracts second against first, the conversions to a narrower float format are the identity at the ideal values, and
  the kernel's and the host's hyperbolic tangent and division are each one function there.

  The frames: every weakly fair execution of each program terminates, faults nowhere, and leaves the seven argument
  arrays as launched — the kernel program's (at the word level and at the ideal values: one text at any float
  instance) from one record per kernel call over the conditional frame of its host side, the reference's from its run.
  The idealization rewrote no operation, so `preserves` states nothing.
-/
import proofs.«169118_j75849122448044_1_alg».proof.Defs
import proofs.«169118_j75849122448044_1_alg».proof.Proof.Gen.Kernel
import proofs.«169118_j75849122448044_1_alg».proof.Proof.Gen.KernelIdeal
import proofs.«169118_j75849122448044_1_alg».proof.Proof.Gen.ReferenceIdeal
import proofs.«169118_j75849122448044_1_alg».proof.Proof.Gen.Pre_finite_inputs
import proofs.«169118_j75849122448044_1_alg».proof.Proof.K.Regs
import proofs.«169118_j75849122448044_1_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel (hKernel := Cert.Kernel.Gen.facts) (hPre_finite_inputs := Cert.Pre_finite_inputs.Gen.facts) :=
  fun m ρ _ => Cert.Kernel.Hand.frame (F := Bits) m ρ

/-- The idealized kernel program runs and leaves its arguments unchanged. -/
theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference runs and leaves its arguments unchanged: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Hand.run m ρ)

/-- From memories agreeing on the arguments both programs end at `G` of the arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg2))
      (Cert.KernelIdeal.Hand.va (m ((c.tc : Thread Cert.KernelIdeal.nD Cert.KernelIdeal.τ).loc Cert.KernelIdeal.main_arg1))) (Cert.KernelIdeal.Hand.en (m ((c.tc : Thread Cert.KernelIdeal.nD Cert.KernelIdeal.τ).loc Cert.KernelIdeal.main_arg1)))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4))
      (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun r h c => ⟨(h c).1.trans (Cert.KernelIdeal.Hand.kernel_value m c), (h c).2⟩)
      (Cert.KernelIdeal.Hand.run_value (F := Ideal) m ρ)
  · refine (θ_run Cert.ReferenceIdeal.defs _ _).mono (fun r h c => ⟨(h c).1.trans ?_, (h c).2⟩) (Cert.ReferenceIdeal.Hand.run m' ρ')
    rw [Cert.ReferenceIdeal.Hand.refTerm_eq, (hagree c).1, (hagree c).2.1, (hagree c).2.2.1, (hagree c).2.2.2.1, (hagree c).2.2.2.2.1, (hagree c).2.2.2.2.2.1, (hagree c).2.2.2.2.2.2,
      ← Cert.Bridge.va_eq, ← Cert.Bridge.en_eq]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
